-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S2048x8192 .f32) (main_arg4 : FVec F S8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S4096x2048 : Shape := ⟨2, ![4096, 2048]⟩
abbrev S_ : Shape := ⟨0, ![]⟩
abbrev S4096x8192 : Shape := ⟨2, ![4096, 8192]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1x8192 : Shape := ⟨2, ![1, 8192]⟩
abbrev S128x8192 : Shape := ⟨2, ![128, 8192]⟩
abbrev S128 : Shape := ⟨1, ![128]⟩
abbrev S128x1 : Shape := ⟨2, ![128, 1]⟩
abbrev S256x8192 : Shape := ⟨2, ![256, 8192]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩

abbrev nBuf : Space → Nat
  | .hbm => 87
  | .vmem => 23
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S4096x2048, .f32⟩
  | .hbm, ⟨6, _⟩ => ⟨S8192x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S2048x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048x8192, .f32⟩
  | .hbm, ⟨63, _⟩ => ⟨S2048x8192, .f32⟩
  | .hbm, ⟨64, _⟩ => ⟨S2048x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x8192, .f32⟩
  | .hbm, ⟨69, _⟩ => ⟨S2048x8192, .f32⟩
  | .hbm, ⟨70, _⟩ => ⟨S_, .f32⟩
  | .hbm, ⟨71, _⟩ => ⟨S2048x8192, .f32⟩
  | .hbm, ⟨72, _⟩ => ⟨S2048x8192, .f32⟩
  | .hbm, ⟨73, _⟩ => ⟨S2048x8192, .f32⟩
  | .hbm, ⟨74, _⟩ => ⟨S2048x8192, .f32⟩
  | .hbm, ⟨75, _⟩ => ⟨S2048x8192, .f32⟩
  | .hbm, ⟨76, _⟩ => ⟨S2048x8192, .bf16⟩
  | .hbm, ⟨77, _⟩ => ⟨S2048x8192, .f32⟩
  | .hbm, ⟨78, _⟩ => ⟨S2048x8192, .bf16⟩
  | .hbm, ⟨79, _⟩ => ⟨S8192x2048, .f32⟩
  | .hbm, ⟨80, _⟩ => ⟨S8192x2048, .bf16⟩
  | .hbm, ⟨81, _⟩ => ⟨S4096x8192, .f32⟩
  | .hbm, ⟨82, _⟩ => ⟨S4096x8192, .f32⟩
  | .hbm, ⟨83, _⟩ => ⟨S1x8192, .f32⟩
  | .hbm, ⟨84, _⟩ => ⟨S4096x8192, .f32⟩
  | .hbm, ⟨85, _⟩ => ⟨S4096x2048, .f32⟩
  | .hbm, ⟨86, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S128x8192, .f32⟩
  | .local _ .vmem, ⟨11, _⟩ => ⟨S128x8192, .f32⟩
  | .local _ .vmem, ⟨12, _⟩ => ⟨S128x8192, .f32⟩
  | .local _ .vmem, ⟨13, _⟩ => ⟨S128x8192, .f32⟩
  | .local _ .vmem, ⟨14, _⟩ => ⟨S1x8192, .f32⟩
  | .local _ .vmem, ⟨15, _⟩ => ⟨S128x8192, .f32⟩
  | .local _ .vmem, ⟨16, _⟩ => ⟨S128x8192, .f32⟩
  | .local _ .vmem, ⟨17, _⟩ => ⟨S256x8192, .f32⟩
  | .local _ .vmem, ⟨18, _⟩ => ⟨S256x8192, .f32⟩
  | .local _ .vmem, ⟨19, _⟩ => ⟨S8192x512, .bf16⟩
  | .local _ .vmem, ⟨20, _⟩ => ⟨S8192x512, .bf16⟩
  | .local _ .vmem, ⟨21, _⟩ => ⟨S256x512, .f32⟩
  | .local _ .vmem, ⟨22, _⟩ => ⟨S256x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_cst_7 : Ref sig .tc := ⟨.hbm, 34, rfl⟩
abbrev main_call3_v0 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_11 : Ref sig .tc := ⟨.hbm, 53, rfl⟩
abbrev main_v24 : Ref sig .tc := ⟨.hbm, 54, rfl⟩
abbrev main_cst_12 : Ref sig .tc := ⟨.hbm, 55, rfl⟩
abbrev main_v25 : Ref sig .tc := ⟨.hbm, 56, rfl⟩
abbrev main_cst_13 : Ref sig .tc := ⟨.hbm, 57, rfl⟩
abbrev main_call6_v0 : Ref sig .tc := ⟨.hbm, 58, rfl⟩
abbrev main_v26 : Ref sig .tc := ⟨.hbm, 59, rfl⟩
abbrev main_cst_14 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_15 : Ref sig .tc := ⟨.hbm, 65, rfl⟩
abbrev main_cst_16 : Ref sig .tc := ⟨.hbm, 66, rfl⟩
abbrev main_call8_v0 : Ref sig .tc := ⟨.hbm, 67, rfl⟩
abbrev main_call8_v1 : Ref sig .tc := ⟨.hbm, 68, rfl⟩
abbrev main_call8_v2 : Ref sig .tc := ⟨.hbm, 69, rfl⟩
abbrev main_call8_v3 : Ref sig .tc := ⟨.hbm, 70, rfl⟩
abbrev main_call8_v4 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40_0 : Ref sig .tc := ⟨.hbm, 81, rfl⟩
abbrev main_v40_1 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x2048_S4096x2048 : S2x2048x2048.ShapeCasts S4096x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  reducesTo_S2048x8192_S_d0_1 : S2048x8192.ReducesTo [0, 1] S_
  bcast_S_S2048x8192 : S_.BroadcastsInDim S2048x8192 (![] : Fin 0 → Fin S2048x8192.rank)
  transposes_S8192x2048_S2048x8192_1_0 : S8192x2048.Transposes [1, 0] S2048x8192
  bitsLt_bf16_f32 : FTy.bits .bf16 < FTy.bits .f32
  transposes_S2048x8192_S8192x2048_1_0 : S2048x8192.Transposes [1, 0] S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S256x512_S256x512_0_0 : ∀ a, (![0, 0] : Fin 2 → Nat) a + S256x512.size a ≤ S256x512.size a
  h_S256x512 : 0 < S256x512.numel
  shapeCasts_S4096x2048_S2x2048x2048 : S4096x2048.ShapeCasts S2x2048x2048
  dot_S512x2048_S2048x1024_S512x1024_1_0_0_1_n_n_wf : DotDims.WF S512x2048 S2048x1024 S512x1024 [1] [0] [0] [1] [] []
  dot_S256x8192_S8192x512_S256x512_1_0_0_1_n_n_wf : DotDims.WF S256x8192 S8192x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .bf16 = 32 ∨ (Rect.block (s := S2048x8192) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S4096x8192.size a
  hwx1_0 : ∀ i : grid1.Coords, EltTy.bits .f32 = 32 ∨ (Rect.block (s := S4096x8192) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S4096x8192.size a
  hwx1_1 : ∀ i : grid1.Coords, EltTy.bits .f32 = 32 ∨ (Rect.block (s := S4096x8192) S128x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S4096x8192.size a
  hwx1_3 : ∀ i : grid1.Coords, EltTy.bits .f32 = 32 ∨ (Rect.block (s := S4096x8192) S128x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S4096x8192.size a
  hwx2_0 : ∀ i : grid2.Coords, EltTy.bits .f32 = 32 ∨ (Rect.block (s := S4096x8192) S256x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x2048.size a
  hwx2_1 : ∀ i : grid2.Coords, EltTy.bits .bf16 = 32 ∨ (Rect.block (s := S8192x2048) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S4096x2048.size a
  hwx2_2 : ∀ i : grid2.Coords, EltTy.bits .f32 = 32 ∨ (Rect.block (s := S4096x2048) S256x512.size (cc2_transform_2 i) (hinb2_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40_0) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40_1) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S8192x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S256x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S_ : Shape := ⟨0, ![]⟩
abbrev S2x2048 : Shape := ⟨2, ![2, 2048]⟩
abbrev S2x2048x1 : Shape := ⟨3, ![2, 2048, 1]⟩
abbrev S2x2048x8192 : Shape := ⟨3, ![2, 2048, 8192]⟩
abbrev S1x1x8192 : Shape := ⟨3, ![1, 1, 8192]⟩

abbrev nBuf : Space → Nat
  | .hbm => 187
  | .vmem => 0
  | .smem => 0
  | _ => 0

abbrev hbmTy0_0 (i : Nat) : BufTy := match i % 128 with
  | 0 => ⟨S2x2048x2048, .f32⟩
  | 1 => ⟨S8192x2048, .f32⟩
  | 2 => ⟨S8192x2048, .f32⟩
  | 3 => ⟨S2048x8192, .f32⟩
  | 4 => ⟨S8192, .f32⟩
  | 5 => ⟨S2x2048x2048, .f32⟩
  | 6 => ⟨S_, .f32⟩
  | 7 => ⟨S2x2048, .f32⟩
  | 8 => ⟨S2x2048x1, .f32⟩
  | 9 => ⟨S_, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x2048, .f32⟩
  | 17 => ⟨S2x2048x2048, .f32⟩
  | 18 => ⟨S2x2048x2048, .f32⟩
  | 19 => ⟨S_, .i32⟩
  | 20 => ⟨S_, .i32⟩
  | 21 => ⟨S_, .f32⟩
  | 22 => ⟨S2x2048x2048, .f32⟩
  | 23 => ⟨S2x2048x2048, .f32⟩
  | 24 => ⟨S_, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S2x2048x2048, .f32⟩
  | 31 => ⟨S8192x2048, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S8192x2048, .f32⟩
  | 42 => ⟨S8192x2048, .f32⟩
  | 43 => ⟨S8192x2048, .f32⟩
  | 44 => ⟨S_, .f32⟩
  | 45 => ⟨S_, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S2x2048x8192, .f32⟩
  | 57 => ⟨S2x2048x8192, .f32⟩
  | 58 => ⟨S2x2048x8192, .f32⟩
  | 59 => ⟨S_, .f32⟩
  | 60 => ⟨S2x2048x8192, .f32⟩
  | 61 => ⟨S2x2048x8192, .f32⟩
  | 62 => ⟨S_, .f32⟩
  | 63 => ⟨S2x2048x8192, .f32⟩
  | 64 => ⟨S2x2048x8192, .f32⟩
  | 65 => ⟨S2x2048x8192, .f32⟩
  | 66 => ⟨S2x2048x2048, .f32⟩
  | 67 => ⟨S_, .f32⟩
  | 68 => ⟨S2x2048, .f32⟩
  | 69 => ⟨S2x2048x1, .f32⟩
  | 70 => ⟨S_, .f32⟩
  | 71 => ⟨S_, .f32⟩
  | 72 => ⟨S2x2048x1, .f32⟩
  | 73 => ⟨S2x2048x1, .f32⟩
  | 74 => ⟨S_, .f32⟩
  | 75 => ⟨S2x2048x1, .f32⟩
  | 76 => ⟨S2x2048x1, .f32⟩
  | 77 => ⟨S2x2048x2048, .f32⟩
  | 78 => ⟨S2x2048x2048, .f32⟩
  | 79 => ⟨S2x2048x2048, .f32⟩
  | 80 => ⟨S_, .i32⟩
  | 81 => ⟨S_, .i32⟩
  | 82 => ⟨S_, .f32⟩
  | 83 => ⟨S2x2048x2048, .f32⟩
  | 84 => ⟨S2x2048x2048, .f32⟩
  | 85 => ⟨S_, .f32⟩
  | 86 => ⟨S2x2048x2048, .f32⟩
  | 87 => ⟨S2x2048x2048, .f32⟩
  | 88 => ⟨S2x2048x2048, .f32⟩
  | 89 => ⟨S2x2048x2048, .f32⟩
  | 90 => ⟨S2x2048x2048, .f32⟩
  | 91 => ⟨S2x2048x2048, .f32⟩
  | 92 => ⟨S8192x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S8192x2048, .f32⟩
  | 103 => ⟨S8192x2048, .f32⟩
  | 104 => ⟨S8192x2048, .f32⟩
  | 105 => ⟨S_, .f32⟩
  | 106 => ⟨S_, .f32⟩
  | 107 => ⟨S_, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S2x2048x8192, .f32⟩
  | 118 => ⟨S2x2048x8192, .f32⟩
  | 119 => ⟨S2x2048x8192, .f32⟩
  | 120 => ⟨S_, .f32⟩
  | 121 => ⟨S2x2048, .f32⟩
  | 122 => ⟨S2x2048x1, .f32⟩
  | 123 => ⟨S_, .f32⟩
  | 124 => ⟨S2x2048x1, .f32⟩
  | 125 => ⟨S2x2048x1, .f32⟩
  | 126 => ⟨S_, .f32⟩
  | 127 => ⟨S2x2048x1, .f32⟩
  | _ => ⟨S2x2048x2048, .f32⟩

abbrev hbmTy0_1 (i : Nat) : BufTy := match i % 128 with
  | 0 => ⟨S2x2048x1, .f32⟩
  | 1 => ⟨S2x2048x1, .f32⟩
  | 2 => ⟨S2x2048x8192, .f32⟩
  | 3 => ⟨S2x2048x8192, .f32⟩
  | 4 => ⟨S1x1x8192, .f32⟩
  | 5 => ⟨S2x2048x8192, .f32⟩
  | 6 => ⟨S2x2048x8192, .f32⟩
  | 7 => ⟨S2x2048x8192, .f32⟩
  | 8 => ⟨S_, .f32⟩
  | 9 => ⟨S2x2048, .f32⟩
  | 10 => ⟨S2x2048x1, .f32⟩
  | 11 => ⟨S_, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x8192, .f32⟩
  | 19 => ⟨S2x2048x8192, .f32⟩
  | 20 => ⟨S2x2048x8192, .f32⟩
  | 21 => ⟨S_, .i32⟩
  | 22 => ⟨S_, .i32⟩
  | 23 => ⟨S_, .f32⟩
  | 24 => ⟨S2x2048x8192, .f32⟩
  | 25 => ⟨S2x2048x8192, .f32⟩
  | 26 => ⟨S_, .f32⟩
  | 27 => ⟨S2x2048x8192, .f32⟩
  | 28 => ⟨S2x2048x8192, .f32⟩
  | 29 => ⟨S2x2048x8192, .f32⟩
  | 30 => ⟨S2x2048x8192, .f32⟩
  | 31 => ⟨S2x2048x8192, .f32⟩
  | 32 => ⟨S2x2048x8192, .f32⟩
  | 33 => ⟨S2048x8192, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S2048x8192, .f32⟩
  | 44 => ⟨S2048x8192, .f32⟩
  | 45 => ⟨S2048x8192, .f32⟩
  | 46 => ⟨S_, .f32⟩
  | 47 => ⟨S_, .f32⟩
  | 48 => ⟨S_, .f32⟩
  | 49 => ⟨S2048x8192, .f32⟩
  | 50 => ⟨S2048x8192, .f32⟩
  | 51 => ⟨S_, .f32⟩
  | 52 => ⟨S2048x8192, .f32⟩
  | 53 => ⟨S2048x8192, .f32⟩
  | 54 => ⟨S2048x8192, .f32⟩
  | 55 => ⟨S2048x8192, .f32⟩
  | 56 => ⟨S2048x8192, .f32⟩
  | 57 => ⟨S2048x8192, .f32⟩
  | 58 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_cst_5 : Ref sig .tc := ⟨.hbm, 36, rfl⟩
abbrev main_call3_v0 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call6_v0 : Ref sig .tc := ⟨.hbm, 57, rfl⟩
abbrev main_call6_v1 : Ref sig .tc := ⟨.hbm, 58, rfl⟩
abbrev main_call6_cst : Ref sig .tc := ⟨.hbm, 59, rfl⟩
abbrev main_call6_v2 : Ref sig .tc := ⟨.hbm, 60, rfl⟩
abbrev main_call6_v3 : Ref sig .tc := ⟨.hbm, 61, rfl⟩
abbrev main_call6_cst_0 : Ref sig .tc := ⟨.hbm, 62, rfl⟩
abbrev main_call6_v4 : Ref sig .tc := ⟨.hbm, 63, rfl⟩
abbrev main_call6_v5 : Ref sig .tc := ⟨.hbm, 64, rfl⟩
abbrev main_v28 : Ref sig .tc := ⟨.hbm, 65, rfl⟩
abbrev main_v29 : Ref sig .tc := ⟨.hbm, 66, rfl⟩
abbrev main_cst_9 : Ref sig .tc := ⟨.hbm, 67, rfl⟩
abbrev main_v30 : Ref sig .tc := ⟨.hbm, 68, rfl⟩
abbrev main_v31 : Ref sig .tc := ⟨.hbm, 69, rfl⟩
abbrev main_cst_10 : Ref sig .tc := ⟨.hbm, 70, rfl⟩
abbrev main_call7_v0 : Ref sig .tc := ⟨.hbm, 71, rfl⟩
abbrev main_call7_v1 : Ref sig .tc := ⟨.hbm, 72, rfl⟩
abbrev main_v32 : Ref sig .tc := ⟨.hbm, 73, rfl⟩
abbrev main_cst_11 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_12 : Ref sig .tc := ⟨.hbm, 80, rfl⟩
abbrev main_c_13 : Ref sig .tc := ⟨.hbm, 81, rfl⟩
abbrev main_call9_v0 : Ref sig .tc := ⟨.hbm, 82, rfl⟩
abbrev main_call9_v1 : Ref sig .tc := ⟨.hbm, 83, rfl⟩
abbrev main_call9_v2 : Ref sig .tc := ⟨.hbm, 84, rfl⟩
abbrev main_call9_v3 : Ref sig .tc := ⟨.hbm, 85, rfl⟩
abbrev main_call9_v4 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_14 : Ref sig .tc := ⟨.hbm, 93, rfl⟩
abbrev main_v44 : Ref sig .tc := ⟨.hbm, 94, rfl⟩
abbrev main_cst_15 : Ref sig .tc := ⟨.hbm, 95, rfl⟩
abbrev main_v45 : Ref sig .tc := ⟨.hbm, 96, rfl⟩
abbrev main_cst_16 : Ref sig .tc := ⟨.hbm, 97, rfl⟩
abbrev main_call10_v0 : Ref sig .tc := ⟨.hbm, 98, rfl⟩
abbrev main_v46 : Ref sig .tc := ⟨.hbm, 99, rfl⟩
abbrev main_cst_17 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_18 : Ref sig .tc := ⟨.hbm, 105, rfl⟩
abbrev main_cst_19 : Ref sig .tc := ⟨.hbm, 106, rfl⟩
abbrev main_call12_v0 : Ref sig .tc := ⟨.hbm, 107, rfl⟩
abbrev main_call12_v1 : Ref sig .tc := ⟨.hbm, 108, rfl⟩
abbrev main_call12_v2 : Ref sig .tc := ⟨.hbm, 109, rfl⟩
abbrev main_call12_v3 : Ref sig .tc := ⟨.hbm, 110, rfl⟩
abbrev main_call12_v4 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_20 : Ref sig .tc := ⟨.hbm, 120, rfl⟩
abbrev main_v59 : Ref sig .tc := ⟨.hbm, 121, rfl⟩
abbrev main_v60 : Ref sig .tc := ⟨.hbm, 122, rfl⟩
abbrev main_cst_21 : Ref sig .tc := ⟨.hbm, 123, rfl⟩
abbrev main_v61 : Ref sig .tc := ⟨.hbm, 124, rfl⟩
abbrev main_v62 : Ref sig .tc := ⟨.hbm, 125, rfl⟩
abbrev main_cst_22 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_23 : Ref sig .tc := ⟨.hbm, 136, rfl⟩
abbrev main_v72 : Ref sig .tc := ⟨.hbm, 137, rfl⟩
abbrev main_v73 : Ref sig .tc := ⟨.hbm, 138, rfl⟩
abbrev main_cst_24 : Ref sig .tc := ⟨.hbm, 139, rfl⟩
abbrev main_call13_v0 : Ref sig .tc := ⟨.hbm, 140, rfl⟩
abbrev main_call13_v1 : Ref sig .tc := ⟨.hbm, 141, rfl⟩
abbrev main_v74 : Ref sig .tc := ⟨.hbm, 142, rfl⟩
abbrev main_cst_25 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_c_26 : Ref sig .tc := ⟨.hbm, 149, rfl⟩
abbrev main_c_27 : Ref sig .tc := ⟨.hbm, 150, rfl⟩
abbrev main_call15_v0 : Ref sig .tc := ⟨.hbm, 151, rfl⟩
abbrev main_call15_v1 : Ref sig .tc := ⟨.hbm, 152, rfl⟩
abbrev main_call15_v2 : Ref sig .tc := ⟨.hbm, 153, rfl⟩
abbrev main_call15_v3 : Ref sig .tc := ⟨.hbm, 154, rfl⟩
abbrev main_call15_v4 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_28 : Ref sig .tc := ⟨.hbm, 162, rfl⟩
abbrev main_v86 : Ref sig .tc := ⟨.hbm, 163, rfl⟩
abbrev main_cst_29 : Ref sig .tc := ⟨.hbm, 164, rfl⟩
abbrev main_v87 : Ref sig .tc := ⟨.hbm, 165, rfl⟩
abbrev main_cst_30 : Ref sig .tc := ⟨.hbm, 166, rfl⟩
abbrev main_call16_v0 : Ref sig .tc := ⟨.hbm, 167, rfl⟩
abbrev main_v88 : Ref sig .tc := ⟨.hbm, 168, rfl⟩
abbrev main_cst_31 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_32 : Ref sig .tc := ⟨.hbm, 174, rfl⟩
abbrev main_cst_33 : Ref sig .tc := ⟨.hbm, 175, rfl⟩
abbrev main_call18_v0 : Ref sig .tc := ⟨.hbm, 176, rfl⟩
abbrev main_call18_v1 : Ref sig .tc := ⟨.hbm, 177, rfl⟩
abbrev main_call18_v2 : Ref sig .tc := ⟨.hbm, 178, rfl⟩
abbrev main_call18_v3 : Ref sig .tc := ⟨.hbm, 179, rfl⟩
abbrev main_call18_v4 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  reducesTo_S8192x2048_S_d0_1 : S8192x2048.ReducesTo [0, 1] S_
  bcast_S_S8192x2048 : S_.BroadcastsInDim S8192x2048 (![] : Fin 0 → Fin S8192x2048.rank)
  bcast_S_S2x2048x8192 : S_.BroadcastsInDim S2x2048x8192 (![] : Fin 0 → Fin S2x2048x8192.rank)
  reducesTo_S2x2048x8192_S2x2048_d2 : S2x2048x8192.ReducesTo [2] S2x2048
  bcast_S2x2048x1_S2x2048x8192_0_1_2 : S2x2048x1.BroadcastsInDim S2x2048x8192 (![0, 1, 2] : Fin 3 → Fin S2x2048x8192.rank)
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  reducesTo_S2048x8192_S_d0_1 : S2048x8192.ReducesTo [0, 1] S_
  bcast_S_S2048x8192 : S_.BroadcastsInDim S2048x8192 (![] : Fin 0 → Fin S2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Spec.lean ====
/-
  The mathematics both programs compute, on the extended reals, one row or one tensor at a time.

  * A row `x` is quantised to eight bits against its own largest magnitude: with `a = max ε (maxₖ |xₖ|)` and
    `s = 127 / a`, entry `k` becomes `clamp (round (xₖ · s)) / s`, the clamp to `[-128, 127]` and the rounding to
    nearest, ties to even.
  * A weight tensor `w` is quantised to three levels against its mean magnitude: with
    `s = 1 / max ε ((∑ᵢ |wᵢ|) / n)`, entry `i` becomes `clamp (round (wᵢ · s)) / s`, the clamp to `[-1, 1]`.
  * A quantised row meets a weight column in a plain sum of products.
  * Two such products `g`, `u` are gated, `g · σ(g) · u`, and the gated row is divided by the root of its mean
    square (plus a small constant) and scaled entry by entry.
-/
import Idealize.ShloMosaic.PureOps.Ideal
import Idealize.ShloMosaic.PureOps.Ideal.Laws

noncomputable section

open scoped BigOperators

namespace Cert.Spec

open Idealize.ShloMosaic

/-! ## The constants, as the words the programs spell -/

/-- The floor under a scale's denominator (the word of `1e-5`). -/
def cEps : EReal := Ideal.ofBits .f32 0x3727C5AC#32
/-- The top of the eight-bit range, `127`. -/
def c127 : EReal := Ideal.ofBits .f32 0x42FE0000#32
/-- The bottom of the eight-bit range, `-128`. -/
def cNeg128 : EReal := Ideal.ofBits .f32 0xC3000000#32
/-- Minus infinity, where a maximum starts. -/
def cNegInf : EReal := Ideal.ofBits .f32 0xFF800000#32
/-- `1`. -/
def cOne : EReal := Ideal.ofBits .f32 0x3F800000#32
/-- `-1`. -/
def cNegOne : EReal := Ideal.ofBits .f32 0xBF800000#32
/-- The number of entries of a weight tensor, `2^24`. -/
def cCount : EReal := Ideal.ofBits .f32 0x4B800000#32
/-- The width of the hidden row, `8192`. -/
def cWidth : EReal := Ideal.ofBits .f32 0x46000000#32
/-- The constant under the root (the word of `1e-6`). -/
def cRmsEps : EReal := Ideal.ofBits .f32 0x358637BD#32

/-! ## Scalars -/

/-- Rounding to the nearest integer, ties to even; the infinities stay. -/
def rne (a : EReal) : EReal := Ideal.liftRound Ideal.roundHalfEven a

/-- The magnitude `|a|`. -/
def mag (a : EReal) : EReal := max a (-a)

/-! ## A row quantised against its largest magnitude -/

/-- The largest magnitude of a row, from minus infinity. -/
def rowMax {K : ℕ} (row : Fin K → EReal) : EReal :=
  (Finset.univ : Finset (Fin K)).fold max cNegInf (fun k => mag (row k))

/-- The row's scale `127 / max ε (maxₖ |xₖ|)`. -/
def rowScale {K : ℕ} (row : Fin K → EReal) : EReal := Ideal.div c127 (max cEps (rowMax row))

/-- Entry `k` of the quantised row. -/
def rowQ {K : ℕ} (row : Fin K → EReal) (k : Fin K) : EReal :=
  Ideal.div (min c127 (max cNeg128 (rne (row k * rowScale row)))) (rowScale row)

/-! ## A tensor quantised against its mean magnitude -/

/-- The tensor's scale `1 / max ε ((∑ᵢ |wᵢ|) / n)`. -/
def tensorScale {ι : Type} [Fintype ι] (w : ι → EReal) : EReal :=
  Ideal.div cOne (max cEps (Ideal.div (∑ i, mag (w i)) cCount))

/-- Entry `i` of the quantised tensor. -/
def tensorQ {ι : Type} [Fintype ι] (w : ι → EReal) (i : ι) : EReal :=
  Ideal.div (min cOne (max cNegOne (rne (w i * tensorScale w)))) (tensorScale w)

/-! ## A quantised row against a column -/

/-- `∑ₖ q(row)ₖ · colₖ`. -/
def dotQ {K : ℕ} (row col : Fin K → EReal) : EReal := ∑ k, rowQ row k * col k

/-! ## The gate and the normalisation -/

/-- `g · σ(g) · u`. -/
def gated (g u : EReal) : EReal := (g * Ideal.logistic g) * u

/-- The mean square of the gated row. -/
def meanSq {J : ℕ} (g u : Fin J → EReal) : EReal :=
  Ideal.div (∑ j, gated (g j) (u j) * gated (g j) (u j)) cWidth

/-- Entry `j` of the normalised, scaled row. -/
def normed {J : ℕ} (g u lw : Fin J → EReal) (j : Fin J) : EReal :=
  lw j * (gated (g j) (u j) * Ideal.rsqrt (meanSq g u + cRmsEps))

/-! ## The whole layer at one token and one output column -/

/-- With the token's row `x`, the three quantised weights as functions of their coordinates and the scale vector:
    the hidden row is the normalised gate of the two products, and the result its product with the third weight. -/
def layer (x : Fin 2048 → EReal) (wg wu : Fin 8192 → Fin 2048 → EReal) (wd : Fin 2048 → Fin 8192 → EReal)
    (lw : Fin 8192 → EReal) (c : Fin 2048) : EReal :=
  dotQ (normed (fun j => dotQ x (wg j)) (fun j => dotQ x (wu j)) lw) (wd c)

end Cert.Spec

end
-- ==== Proof.Arrays.lean ====
/-
  The layer array by array. Tokens are rows: the input `[2, 2048, 2048]` read as `4096` rows of width `2048`; the
  two projections and the hidden activations are `[4096, 8192]`; the result is `[4096, 2048]`, read back as
  `[2, 2048, 2048]`. A weight `[out, in]` is quantised as one tensor and used transposed, `[in, out]`.
-/
import proofs.«159768_j74139725463734_1_alg».proof.Proof.Spec
import Idealize.ShloMosaic.Lib.ValueIdx

noncomputable section

open scoped BigOperators

namespace Cert.Arrays

open Idealize.ShloMosaic Idealize.ShloMosaic.ValueIdx Cert.Spec

/-- Tokens by model width. -/
abbrev Tok : Shape := ⟨2, ![4096, 2048]⟩
/-- Tokens by hidden width. -/
abbrev Hid : Shape := ⟨2, ![4096, 8192]⟩
/-- A gate or up weight as given, `[8192, 2048]`; also the down weight transposed. -/
abbrev Wide : Shape := ⟨2, ![8192, 2048]⟩
/-- The down weight as given, `[2048, 8192]`; also a gate or up weight transposed. -/
abbrev Tall : Shape := ⟨2, ![2048, 8192]⟩
/-- The scale vector as one row. -/
abbrev OneRow : Shape := ⟨2, ![1, 8192]⟩
/-- The scale vector. -/
abbrev Vec8192 : Shape := ⟨1, ![8192]⟩
/-- The input and the result, batch by sequence by width. -/
abbrev In3 : Shape := ⟨3, ![2, 2048, 2048]⟩

/-- A gate or up weight `[8192, 2048]` quantised as one tensor and transposed to `[2048, 8192]`. -/
def quantT (W : Wide.Idx → EReal) : Tall.Idx → EReal := fun i => tensorQ W (ix2 (i 1) (i 0))

/-- The down weight `[2048, 8192]` quantised as one tensor and transposed to `[8192, 2048]`. -/
def quantT' (W : Tall.Idx → EReal) : Wide.Idx → EReal := fun i => tensorQ W (ix2 (i 1) (i 0))

/-- Each token's row, quantised, against each column of a transposed weight. -/
def proj (X : Tok.Idx → EReal) (WT : Tall.Idx → EReal) : Hid.Idx → EReal :=
  fun i => dotQ (fun k : Fin 2048 => X (ix2 (i 0) k)) (fun k : Fin 2048 => WT (ix2 k (i 1)))

/-- Each token's two projections gated, normalised over the hidden width and scaled. -/
def hidden (G U : Hid.Idx → EReal) (L : OneRow.Idx → EReal) : Hid.Idx → EReal :=
  fun i => normed (fun j : Fin 8192 => G (ix2 (i 0) j)) (fun j : Fin 8192 => U (ix2 (i 0) j))
    (fun j : Fin 8192 => L (ix2 (0 : Fin 1) j)) (i 1)

/-- Each token's hidden row, quantised, against each column of the transposed down weight. -/
def down (H : Hid.Idx → EReal) (WT : Wide.Idx → EReal) : Tok.Idx → EReal :=
  fun i => dotQ (fun j : Fin 8192 => H (ix2 (i 0) j)) (fun j : Fin 8192 => WT (ix2 j (i 1)))

/-- Row `r` of the flattened input is row `(r / 2048, r % 2048)` of the input. -/
def flatten (X : In3.Idx → EReal) : Tok.Idx → EReal :=
  fun i => X (ix3 ⟨(i 0).val / 2048, by have h : (i 0).val < 4096 := (i 0).isLt; omega⟩ ⟨(i 0).val % 2048, Nat.mod_lt _ (by decide)⟩ (i 1))

/-- Row `(b, s)` of the result is row `2048 b + s` of the flat result. -/
def unflatten (Y : Tok.Idx → EReal) : In3.Idx → EReal :=
  fun i => Y (ix2 ⟨(i 0).val * 2048 + (i 1).val, by have h0 : (i 0).val < 2 := (i 0).isLt; have h1 : (i 1).val < 2048 := (i 1).isLt; omega⟩ (i 2))

/-- The scale vector laid as one row. -/
def asRow (L : Vec8192.Idx → EReal) : OneRow.Idx → EReal := fun i => L (ix1 (i 1))

/-- The kernel's arrays composed: what the three launches and the host lines around them leave in the result. -/
def pipeline (X : In3.Idx → EReal) (Wg Wu : Wide.Idx → EReal) (Wd : Tall.Idx → EReal) (L : Vec8192.Idx → EReal) :
    In3.Idx → EReal :=
  unflatten (down (hidden (proj (flatten X) (quantT Wg)) (proj (flatten X) (quantT Wu)) (asRow L)) (quantT' Wd))

/-- The same, read at one entry: the layer of the token's row against the three quantised weights. -/
theorem pipeline_apply (X : In3.Idx → EReal) (Wg Wu : Wide.Idx → EReal) (Wd : Tall.Idx → EReal)
    (L : Vec8192.Idx → EReal) (b : Fin 2) (s : Fin 2048) (c : Fin 2048) :
    pipeline X Wg Wu Wd L (ix3 b s c)
      = layer (fun k => X (ix3 b s k)) (fun j k => tensorQ Wg (ix2 j k)) (fun j k => tensorQ Wu (ix2 j k))
          (fun c' j => tensorQ Wd (ix2 c' j)) (fun j => L (ix1 j)) c := by
  have hb := b.isLt
  have hs := s.isLt
  have e1 : (b.val * 2048 + s.val) / 2048 = b.val := by omega
  have e2 : (b.val * 2048 + s.val) % 2048 = s.val := by omega
  have hrow : ∀ k : Fin 2048,
      flatten X (ix2 (⟨b.val * 2048 + s.val, by omega⟩ : Fin 4096) k) = X (ix3 b s k) := by
    intro k
    unfold flatten
    congr 1
    funext a
    match a with
    | ⟨0, _⟩ => exact Fin.ext e1
    | ⟨1, _⟩ => exact Fin.ext e2
    | ⟨2, _⟩ => rfl
  unfold pipeline unflatten down hidden proj layer quantT quantT' asRow
  simp only [hrow]

end Cert.Arrays

end
-- ==== Proof.Consts.lean ====
/-
  The float words the two programs spell, as the real numbers they denote.
-/
import Idealize.ShloMosaic.PureOps.Ideal

noncomputable section

namespace Cert.Consts

open Idealize.ShloMosaic

/-- The zero word is `0`. -/
theorem w_zero : Ideal.ofBits .f32 0x00000000#32 = 0 := by
  simp [Ideal.ofBits, Ideal.ieee]

/-- `127`. -/
theorem w_127 : Ideal.ofBits .f32 0x42FE0000#32 = ((127 : ℝ) : EReal) := by
  simp [Ideal.ofBits, Ideal.ieee, -EReal.coe_mul]; norm_num

/-- `-128`. -/
theorem w_neg128 : Ideal.ofBits .f32 0xC3000000#32 = ((-128 : ℝ) : EReal) := by
  simp [Ideal.ofBits, Ideal.ieee, -EReal.coe_mul]; norm_num

/-- `1`. -/
theorem w_one : Ideal.ofBits .f32 0x3F800000#32 = ((1 : ℝ) : EReal) := by
  simp [Ideal.ofBits, Ideal.ieee, -EReal.coe_mul]; norm_num

/-- `-1`. -/
theorem w_negOne : Ideal.ofBits .f32 0xBF800000#32 = ((-1 : ℝ) : EReal) := by
  simp [Ideal.ofBits, Ideal.ieee, -EReal.coe_mul]; norm_num

/-- `2^24`. -/
theorem w_count : Ideal.ofBits .f32 0x4B800000#32 = ((16777216 : ℝ) : EReal) := by
  simp [Ideal.ofBits, Ideal.ieee, -EReal.coe_mul]; norm_num

/-- `8192`. -/
theorem w_width : Ideal.ofBits .f32 0x46000000#32 = ((8192 : ℝ) : EReal) := by
  simp [Ideal.ofBits, Ideal.ieee, -EReal.coe_mul]; norm_num

/-- Minus infinity. -/
theorem w_negInf : Ideal.ofBits .f32 0xFF800000#32 = ⊥ := by
  simp [Ideal.ofBits, Ideal.ieee]

/-- The floor under a scale's denominator: `10995116 / 2^40`, a little under `1e-5`. -/
theorem w_eps : Ideal.ofBits .f32 0x3727C5AC#32 = ((10995116 / 2 ^ 40 : ℝ) : EReal) := by
  simp [Ideal.ofBits, Ideal.ieee, -EReal.coe_mul]; norm_num

/-- The constant under the root: `8796093 / 2^43`, a little under `1e-6`. -/
theorem w_rmsEps : Ideal.ofBits .f32 0x358637BD#32 = ((8796093 / 2 ^ 43 : ℝ) : EReal) := by
  simp [Ideal.ofBits, Ideal.ieee, -EReal.coe_mul]; norm_num

end Cert.Consts

end
-- ==== Proof.KHost.lean ====
/-
  What the host lines before the first launch leave in the four arrays the launches read: the input flattened to
  rows, and each weight quantised as one tensor (its scale from the mean magnitude of all its entries) and transposed.
-/
import proofs.«159768_j74139725463734_1_alg».proof.Proof.Gen.KernelIdeal.Frame
import proofs.«159768_j74139725463734_1_alg».proof.Proof.Arrays
import proofs.«159768_j74139725463734_1_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KValue.Host

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec Cert.Arrays

/-! ## One tensor quantised against its mean magnitude, array by array

The host lines treat each weight in the same way: the magnitudes are summed over the whole tensor and divided by the
number of entries; the scale is one over that mean floored at a small constant; every entry is multiplied by the scale,
rounded to the nearest integer, clamped to the three levels and divided by the scale again. The definitions below spell
those lines once, over any shape whose every axis is summed. -/

section Tensor

variable {S : Shape} {ax : List (Fin S.rank)}

/-- The mean magnitude, as a rank-0 array. -/
def meanMag (hr : S.ReducesTo ax S_) (w : FVec Ideal S .f32) : FVec Ideal S_ .f32 :=
  Host.divf (F := Ideal)
    (Host.reduceAdd (F := Ideal) (Host.absf (F := Ideal) w) (constant (F := Ideal) S_ .f32 0x00000000#32) hr h_S_)
    (constant (F := Ideal) S_ .f32 0x4B800000#32)

/-- The scale, as a rank-0 array: one over the mean magnitude floored at the small constant. -/
def scaleVec (hr : S.ReducesTo ax S_) (w : FVec Ideal S .f32) : FVec Ideal S_ .f32 :=
  Host.divf (F := Ideal) (constant (F := Ideal) S_ .f32 0x3F800000#32)
    (maximumf (constant (F := Ideal) S_ .f32 0x3727C5AC#32) (meanMag hr w))

/-- Every entry times the scale. -/
def scaledVec (hr : S.ReducesTo ax S_) (hb : S_.BroadcastsInDim S (![] : Fin 0 → Fin S.rank)) (w : FVec Ideal S .f32) :
    FVec Ideal S .f32 :=
  mulf w (broadcastInDim S ![] hb (scaleVec hr w))

/-- The clamp to the three levels. -/
def clampVec (hb : S_.BroadcastsInDim S (![] : Fin 0 → Fin S.rank)) (x : FVec Ideal S .f32) : FVec Ideal S .f32 :=
  minimumf (broadcastInDim S ![] hb (constant (F := Ideal) S_ .f32 0x3F800000#32))
    (maximumf (broadcastInDim S ![] hb (constant (F := Ideal) S_ .f32 0xBF800000#32)) x)

/-- The quantised tensor. -/
def quantVec (hr : S.ReducesTo ax S_) (hb : S_.BroadcastsInDim S (![] : Fin 0 → Fin S.rank)) (w : FVec Ideal S .f32) :
    FVec Ideal S .f32 :=
  Host.divf (F := Ideal) (clampVec hb (Host.roundeven (F := Ideal) (scaledVec hr hb w)))
    (broadcastInDim S ![] hb (scaleVec hr w))

/-- The mean magnitude is the sum of the magnitudes over the count. -/
theorem meanMag_apply (hr : S.ReducesTo ax S_) (w : FVec Ideal S .f32) (j : S_.Idx) :
    meanMag hr w j = Ideal.div (∑ i, mag (w i)) cCount := by
  have hsum : Host.reduceAdd (F := Ideal) (Host.absf (F := Ideal) w) (constant (F := Ideal) S_ .f32 0x00000000#32) hr h_S_ j
      = ∑ i, mag (w i) := by
    generalize hy : Host.absf (F := Ideal) w = y
    simp only [Host.reduceAdd, Ideal.hostReduceAdd_def]
    rw [Ideal.hostReduceAdd_total hr (fun b => b.elim0) y _ j]
    subst hy
    show Ideal.ofBits .f32 0x00000000#32 + ∑ i, mag (w i) = _
    rw [Cert.Consts.w_zero, zero_add]
  unfold meanMag
  show Ideal.div (Host.reduceAdd (F := Ideal) (Host.absf (F := Ideal) w) (constant (F := Ideal) S_ .f32 0x00000000#32) hr h_S_ j)
      (Ideal.ofBits .f32 0x4B800000#32) = _
  rw [hsum]
  rfl

/-- The scale is the tensor's scale. -/
theorem scaleVec_apply (hr : S.ReducesTo ax S_) (w : FVec Ideal S .f32) (j : S_.Idx) :
    scaleVec hr w j = tensorScale w := by
  unfold scaleVec
  show Ideal.div (Ideal.ofBits .f32 0x3F800000#32) (max (Ideal.ofBits .f32 0x3727C5AC#32) (meanMag hr w j)) = _
  rw [meanMag_apply]
  rfl

/-- A rank-0 array laid over the whole shape reads its one entry everywhere. -/
theorem spread_apply (hb : S_.BroadcastsInDim S (![] : Fin 0 → Fin S.rank)) (x : FVec Ideal S_ .f32) (i : S.Idx) :
    broadcastInDim S ![] hb x i = x ix0 :=
  broadcastInDim_apply _ hb x i ix0 (fun a => a.elim0)

/-- The quantised tensor, entry by entry. -/
theorem quantVec_apply (hr : S.ReducesTo ax S_) (hb : S_.BroadcastsInDim S (![] : Fin 0 → Fin S.rank))
    (w : FVec Ideal S .f32) (i : S.Idx) : quantVec hr hb w i = tensorQ w i := by
  unfold quantVec clampVec scaledVec
  show Ideal.div
      (min (broadcastInDim S ![] hb (constant (F := Ideal) S_ .f32 0x3F800000#32) i)
        (max (broadcastInDim S ![] hb (constant (F := Ideal) S_ .f32 0xBF800000#32) i)
          (Ideal.liftRound Ideal.roundHalfEven (w i * broadcastInDim S ![] hb (scaleVec hr w) i))))
      (broadcastInDim S ![] hb (scaleVec hr w) i) = _
  rw [spread_apply, spread_apply, spread_apply, scaleVec_apply]
  rfl

end Tensor

/-! ## The host lines stretch by stretch

Each stretch of host lines is read at contents `V` of the buffers it finds: what it leaves in a buffer it writes is the
line's operation applied to the operands' contents, and a buffer it does not write keeps what it held. -/

/-- Reads a written buffer: the line's operation applied to the operands as the stretch finds them. -/
local macro "host_reads" : tactic => `(tactic| (after_results; try rfl))

/-- One stretch back: the stretch named writes none of the buffer on the left, so the buffer holds what it held. -/
local macro "host_keeps" ops:ident : tactic => `(tactic|
  refine (StableHlo.after_of_forall_not_mem $ops _ (List.forall_iff_forall_mem.mp (by
    simp only [$ops:ident, List.Forall, StableHlo.nullary_writes, StableHlo.unary_writes, StableHlo.binary_writes,
      StableHlo.reshape_writes, Finset.mem_singleton]
    repeat' apply And.intro
    all_goals exact StableHlo.devRef_ne_of_ne (by decide)))).trans ?_)

local notation "⟪" r "⟫" => Proc.devRef (τ := τ) (sig := sig) Proc.tc r

section Stretches

variable (V : Valuation τ sig (Elt Ideal))

/-! ### The input flattened -/

theorem s0_v0 :
    StableHlo.after (hostOps0 (F := Ideal)) V ⟪main_v0⟫
      = shapeCast (s := S2x2048x2048) (α := Ideal .f32) S4096x2048 (V ⟪main_arg0⟫) shapeCasts_S2x2048x2048_S4096x2048 := by
  host_reads

/-! ### The first weight -/

theorem s0_v3 :
    StableHlo.after (hostOps0 (F := Ideal)) V ⟪main_v3⟫
      = meanMag (S := S8192x2048) reducesTo_S8192x2048_S_d0_1 (V ⟪main_arg1⟫) := by
  host_reads

theorem s0_cst_1 :
    StableHlo.after (hostOps0 (F := Ideal)) V ⟪main_cst_1⟫ = constant (F := Ideal) S_ .f32 0x3727C5AC#32 := by
  host_reads

theorem s1_v4 :
    StableHlo.after (hostOps0_1 (F := Ideal)) V ⟪main_v4⟫
      = maximumf (F := Ideal) (s := S_) (φ := .f32) (V ⟪main_cst_1⟫) (V ⟪main_v3⟫) := by
  host_reads

theorem s2_v5 :
    StableHlo.after (hostOps0_2 (F := Ideal)) V ⟪main_v5⟫
      = Host.divf (F := Ideal) (constant (F := Ideal) S_ .f32 0x3F800000#32) (V ⟪main_v4⟫) := by
  host_reads

theorem s2_v7 :
    StableHlo.after (hostOps0_2 (F := Ideal)) V ⟪main_v7⟫
      = mulf (F := Ideal) (s := S8192x2048) (φ := .f32) (V ⟪main_arg1⟫)
          (broadcastInDim S8192x2048 ![] bcast_S_S8192x2048
            (Host.divf (F := Ideal) (constant (F := Ideal) S_ .f32 0x3F800000#32) (V ⟪main_v4⟫))) := by
  host_reads

theorem s3_v8 :
    StableHlo.after (hostOps0_3 (F := Ideal)) V ⟪main_v8⟫
      = Host.roundeven (F := Ideal) (s := S8192x2048) (φ := .f32) (V ⟪main_v7⟫) := by
  host_reads

theorem s4_cst_3 :
    StableHlo.after (hostOps0_4 (F := Ideal)) V ⟪main_cst_3⟫ = constant (F := Ideal) S_ .f32 0xBF800000#32 := by
  host_reads

theorem s4_cst_4 :
    StableHlo.after (hostOps0_4 (F := Ideal)) V ⟪main_cst_4⟫ = constant (F := Ideal) S_ .f32 0x3F800000#32 := by
  host_reads

theorem s5_v9 :
    StableHlo.after (hostOps0_5 (F := Ideal)) V ⟪main_v9⟫
      = minimumf (F := Ideal) (s := S8192x2048) (φ := .f32)
          (broadcastInDim (s := S_) (α := Ideal .f32) S8192x2048 ![] bcast_S_S8192x2048 (V ⟪main_cst_4⟫))
          (maximumf (F := Ideal) (s := S8192x2048) (φ := .f32)
            (broadcastInDim (s := S_) (α := Ideal .f32) S8192x2048 ![] bcast_S_S8192x2048 (V ⟪main_cst_3⟫))
            (V ⟪main_v8⟫)) := by
  host_reads

theorem s6_v11 :
    StableHlo.after (hostOps0_6 (F := Ideal)) V ⟪main_v11⟫
      = Host.divf (F := Ideal) (s := S8192x2048) (φ := .f32) (V ⟪main_v9⟫)
          (broadcastInDim (s := S_) (α := Ideal .f32) S8192x2048 ![] bcast_S_S8192x2048 (V ⟪main_v5⟫)) := by
  host_reads

end Stretches

section Stretches2

variable (V : Valuation τ sig (Elt Ideal))

/-! ### The second weight -/

theorem s6_v14 :
    StableHlo.after (hostOps0_6 (F := Ideal)) V ⟪main_v14⟫
      = meanMag (S := S8192x2048) reducesTo_S8192x2048_S_d0_1 (V ⟪main_arg2⟫) := by
  host_reads

theorem s6_cst_7 :
    StableHlo.after (hostOps0_6 (F := Ideal)) V ⟪main_cst_7⟫ = constant (F := Ideal) S_ .f32 0x3727C5AC#32 := by
  host_reads

theorem s7_v15 :
    StableHlo.after (hostOps0_7 (F := Ideal)) V ⟪main_v15⟫
      = maximumf (F := Ideal) (s := S_) (φ := .f32) (V ⟪main_cst_7⟫) (V ⟪main_v14⟫) := by
  host_reads

theorem s8_v16 :
    StableHlo.after (hostOps0_8 (F := Ideal)) V ⟪main_v16⟫
      = Host.divf (F := Ideal) (constant (F := Ideal) S_ .f32 0x3F800000#32) (V ⟪main_v15⟫) := by
  host_reads

theorem s8_v18 :
    StableHlo.after (hostOps0_8 (F := Ideal)) V ⟪main_v18⟫
      = mulf (F := Ideal) (s := S8192x2048) (φ := .f32) (V ⟪main_arg2⟫)
          (broadcastInDim S8192x2048 ![] bcast_S_S8192x2048
            (Host.divf (F := Ideal) (constant (F := Ideal) S_ .f32 0x3F800000#32) (V ⟪main_v15⟫))) := by
  host_reads

theorem s9_v19 :
    StableHlo.after (hostOps0_9 (F := Ideal)) V ⟪main_v19⟫
      = Host.roundeven (F := Ideal) (s := S8192x2048) (φ := .f32) (V ⟪main_v18⟫) := by
  host_reads

theorem s10_cst_9 :
    StableHlo.after (hostOps0_10 (F := Ideal)) V ⟪main_cst_9⟫ = constant (F := Ideal) S_ .f32 0xBF800000#32 := by
  host_reads

theorem s10_cst_10 :
    StableHlo.after (hostOps0_10 (F := Ideal)) V ⟪main_cst_10⟫ = constant (F := Ideal) S_ .f32 0x3F800000#32 := by
  host_reads

theorem s11_v20 :
    StableHlo.after (hostOps0_11 (F := Ideal)) V ⟪main_v20⟫
      = minimumf (F := Ideal) (s := S8192x2048) (φ := .f32)
          (broadcastInDim (s := S_) (α := Ideal .f32) S8192x2048 ![] bcast_S_S8192x2048 (V ⟪main_cst_10⟫))
          (maximumf (F := Ideal) (s := S8192x2048) (φ := .f32)
            (broadcastInDim (s := S_) (α := Ideal .f32) S8192x2048 ![] bcast_S_S8192x2048 (V ⟪main_cst_9⟫))
            (V ⟪main_v19⟫)) := by
  host_reads

theorem s12_v22 :
    StableHlo.after (hostOps0_12 (F := Ideal)) V ⟪main_v22⟫
      = Host.divf (F := Ideal) (s := S8192x2048) (φ := .f32) (V ⟪main_v20⟫)
          (broadcastInDim (s := S_) (α := Ideal .f32) S8192x2048 ![] bcast_S_S8192x2048 (V ⟪main_v16⟫)) := by
  host_reads

/-! ### The third weight -/

theorem s12_v25 :
    StableHlo.after (hostOps0_12 (F := Ideal)) V ⟪main_v25⟫
      = meanMag (S := S2048x8192) reducesTo_S2048x8192_S_d0_1 (V ⟪main_arg3⟫) := by
  host_reads

theorem s12_cst_13 :
    StableHlo.after (hostOps0_12 (F := Ideal)) V ⟪main_cst_13⟫ = constant (F := Ideal) S_ .f32 0x3727C5AC#32 := by
  host_reads

theorem s13_v26 :
    StableHlo.after (hostOps0_13 (F := Ideal)) V ⟪main_v26⟫
      = maximumf (F := Ideal) (s := S_) (φ := .f32) (V ⟪main_cst_13⟫) (V ⟪main_v25⟫) := by
  host_reads

theorem s14_v27 :
    StableHlo.after (hostOps0_14 (F := Ideal)) V ⟪main_v27⟫
      = Host.divf (F := Ideal) (constant (F := Ideal) S_ .f32 0x3F800000#32) (V ⟪main_v26⟫) := by
  host_reads

theorem s14_v29 :
    StableHlo.after (hostOps0_14 (F := Ideal)) V ⟪main_v29⟫
      = mulf (F := Ideal) (s := S2048x8192) (φ := .f32) (V ⟪main_arg3⟫)
          (broadcastInDim S2048x8192 ![] bcast_S_S2048x8192
            (Host.divf (F := Ideal) (constant (F := Ideal) S_ .f32 0x3F800000#32) (V ⟪main_v26⟫))) := by
  host_reads

theorem s15_v30 :
    StableHlo.after (hostOps0_15 (F := Ideal)) V ⟪main_v30⟫
      = Host.roundeven (F := Ideal) (s := S2048x8192) (φ := .f32) (V ⟪main_v29⟫) := by
  host_reads

theorem s16_cst_15 :
    StableHlo.after (hostOps0_16 (F := Ideal)) V ⟪main_cst_15⟫ = constant (F := Ideal) S_ .f32 0xBF800000#32 := by
  host_reads

theorem s16_cst_16 :
    StableHlo.after (hostOps0_16 (F := Ideal)) V ⟪main_cst_16⟫ = constant (F := Ideal) S_ .f32 0x3F800000#32 := by
  host_reads

theorem s17_v31 :
    StableHlo.after (hostOps0_17 (F := Ideal)) V ⟪main_v31⟫
      = minimumf (F := Ideal) (s := S2048x8192) (φ := .f32)
          (broadcastInDim (s := S_) (α := Ideal .f32) S2048x8192 ![] bcast_S_S2048x8192 (V ⟪main_cst_16⟫))
          (maximumf (F := Ideal) (s := S2048x8192) (φ := .f32)
            (broadcastInDim (s := S_) (α := Ideal .f32) S2048x8192 ![] bcast_S_S2048x8192 (V ⟪main_cst_15⟫))
            (V ⟪main_v30⟫)) := by
  host_reads

/-! ### The last stretch: the third weight's division, and each weight transposed and narrowed -/

theorem s18_v35 :
    StableHlo.after (hostOps0_18 (F := Ideal)) V ⟪main_v35⟫
      = truncf (F := Ideal) .bf16
          (transpose (s := S8192x2048) (α := Ideal .f32) S2048x8192 [1, 0] (V ⟪main_v11⟫) transposes_S8192x2048_S2048x8192_1_0)
          bitsLt_bf16_f32 := by
  host_reads

theorem s18_v37 :
    StableHlo.after (hostOps0_18 (F := Ideal)) V ⟪main_v37⟫
      = truncf (F := Ideal) .bf16
          (transpose (s := S8192x2048) (α := Ideal .f32) S2048x8192 [1, 0] (V ⟪main_v22⟫) transposes_S8192x2048_S2048x8192_1_0)
          bitsLt_bf16_f32 := by
  host_reads

theorem s18_v39 :
    StableHlo.after (hostOps0_18 (F := Ideal)) V ⟪main_v39⟫
      = truncf (F := Ideal) .bf16
          (transpose (s := S2048x8192) (α := Ideal .f32) S8192x2048 [1, 0]
            (Host.divf (F := Ideal) (s := S2048x8192) (φ := .f32) (V ⟪main_v31⟫)
              (broadcastInDim (s := S_) (α := Ideal .f32) S2048x8192 ![] bcast_S_S2048x8192 (V ⟪main_v27⟫)))
            transposes_S2048x8192_S8192x2048_1_0)
          bitsLt_bf16_f32 := by
  host_reads

end Stretches2

/-! ## The fold through the stretches, from the launch memory -/

section Fold

variable (m : (ℓ : Loc nD τ sig) → Buf (Elt Ideal) ℓ) (ρ : Dev nD → PrngReg) (c : Dev nD)

/-! ### The first weight -/

theorem W1_v3 : W1 m ρ c ⟪main_v3⟫
    = meanMag (S := S8192x2048) reducesTo_S8192x2048_S_d0_1 (m ((c.tc : Thread nD τ).loc main_arg1)) := by
  show StableHlo.after hostOps0 (W0 m ρ c) ⟪main_v3⟫ = _
  rw [s0_v3]

theorem W1_cst_1 : W1 m ρ c ⟪main_cst_1⟫ = constant (F := Ideal) S_ .f32 0x3727C5AC#32 := by
  show StableHlo.after hostOps0 (W0 m ρ c) ⟪main_cst_1⟫ = _
  rw [s0_cst_1]

theorem W2_v4 : W2 m ρ c ⟪main_v4⟫
    = maximumf (constant (F := Ideal) S_ .f32 0x3727C5AC#32)
        (meanMag (S := S8192x2048) reducesTo_S8192x2048_S_d0_1 (m ((c.tc : Thread nD τ).loc main_arg1))) := by
  show StableHlo.after hostOps0_1 (W1 m ρ c) ⟪main_v4⟫ = _
  rw [s1_v4, W1_cst_1, W1_v3]

theorem W2_arg1 : W2 m ρ c ⟪main_arg1⟫ = m ((c.tc : Thread nD τ).loc main_arg1) := by
  host_keeps hostOps0_1
  host_keeps hostOps0
  rfl

theorem W3_v5 : W3 m ρ c ⟪main_v5⟫
    = scaleVec (S := S8192x2048) reducesTo_S8192x2048_S_d0_1 (m ((c.tc : Thread nD τ).loc main_arg1)) := by
  show StableHlo.after hostOps0_2 (W2 m ρ c) ⟪main_v5⟫ = _
  rw [s2_v5, W2_v4]
  rfl

theorem W3_v7 : W3 m ρ c ⟪main_v7⟫
    = scaledVec (S := S8192x2048) reducesTo_S8192x2048_S_d0_1 bcast_S_S8192x2048 (m ((c.tc : Thread nD τ).loc main_arg1)) := by
  show StableHlo.after hostOps0_2 (W2 m ρ c) ⟪main_v7⟫ = _
  rw [s2_v7, W2_v4, W2_arg1]
  rfl

theorem W4_v8 : W4 m ρ c ⟪main_v8⟫
    = Host.roundeven (F := Ideal)
        (scaledVec (S := S8192x2048) reducesTo_S8192x2048_S_d0_1 bcast_S_S8192x2048 (m ((c.tc : Thread nD τ).loc main_arg1))) := by
  show StableHlo.after hostOps0_3 (W3 m ρ c) ⟪main_v8⟫ = _
  rw [s3_v8, W3_v7]

theorem W5_cst_3 : W5 m ρ c ⟪main_cst_3⟫ = constant (F := Ideal) S_ .f32 0xBF800000#32 := by
  show StableHlo.after hostOps0_4 (W4 m ρ c) ⟪main_cst_3⟫ = _
  rw [s4_cst_3]

theorem W5_cst_4 : W5 m ρ c ⟪main_cst_4⟫ = constant (F := Ideal) S_ .f32 0x3F800000#32 := by
  show StableHlo.after hostOps0_4 (W4 m ρ c) ⟪main_cst_4⟫ = _
  rw [s4_cst_4]

theorem W5_v8 : W5 m ρ c ⟪main_v8⟫
    = Host.roundeven (F := Ideal)
        (scaledVec (S := S8192x2048) reducesTo_S8192x2048_S_d0_1 bcast_S_S8192x2048 (m ((c.tc : Thread nD τ).loc main_arg1))) := by
  host_keeps hostOps0_4
  exact W4_v8 m ρ c

theorem W6_v9 : W6 m ρ c ⟪main_v9⟫
    = clampVec (S := S8192x2048) bcast_S_S8192x2048 (Host.roundeven (F := Ideal)
        (scaledVec (S := S8192x2048) reducesTo_S8192x2048_S_d0_1 bcast_S_S8192x2048 (m ((c.tc : Thread nD τ).loc main_arg1)))) := by
  show StableHlo.after hostOps0_5 (W5 m ρ c) ⟪main_v9⟫ = _
  rw [s5_v9, W5_cst_4, W5_cst_3, W5_v8]
  rfl

theorem W6_v5 : W6 m ρ c ⟪main_v5⟫
    = scaleVec (S := S8192x2048) reducesTo_S8192x2048_S_d0_1 (m ((c.tc : Thread nD τ).loc main_arg1)) := by
  host_keeps hostOps0_5
  host_keeps hostOps0_4
  host_keeps hostOps0_3
  exact W3_v5 m ρ c

theorem W7_v11 : W7 m ρ c ⟪main_v11⟫
    = quantVec (S := S8192x2048) reducesTo_S8192x2048_S_d0_1 bcast_S_S8192x2048 (m ((c.tc : Thread nD τ).loc main_arg1)) := by
  show StableHlo.after hostOps0_6 (W6 m ρ c) ⟪main_v11⟫ = _
  rw [s6_v11, W6_v9, W6_v5]
  rfl

theorem W18_v11 : W18 m ρ c ⟪main_v11⟫
    = quantVec (S := S8192x2048) reducesTo_S8192x2048_S_d0_1 bcast_S_S8192x2048 (m ((c.tc : Thread nD τ).loc main_arg1)) := by
  host_keeps hostOps0_17
  host_keeps hostOps0_16
  host_keeps hostOps0_15
  host_keeps hostOps0_14
  host_keeps hostOps0_13
  host_keeps hostOps0_12
  host_keeps hostOps0_11
  host_keeps hostOps0_10
  host_keeps hostOps0_9
  host_keeps hostOps0_8
  host_keeps hostOps0_7
  exact W7_v11 m ρ c

end Fold

section Fold2

variable (m : (ℓ : Loc nD τ sig) → Buf (Elt Ideal) ℓ) (ρ : Dev nD → PrngReg) (c : Dev nD)

/-! ### The second weight -/

theorem W6_arg2 : W6 m ρ c ⟪main_arg2⟫ = m ((c.tc : Thread nD τ).loc main_arg2) := by
  host_keeps hostOps0_5
  host_keeps hostOps0_4
  host_keeps hostOps0_3
  host_keeps hostOps0_2
  host_keeps hostOps0_1
  host_keeps hostOps0
  rfl

theorem W8_arg2 : W8 m ρ c ⟪main_arg2⟫ = m ((c.tc : Thread nD τ).loc main_arg2) := by
  host_keeps hostOps0_7
  host_keeps hostOps0_6
  exact W6_arg2 m ρ c

theorem W7_v14 : W7 m ρ c ⟪main_v14⟫
    = meanMag (S := S8192x2048) reducesTo_S8192x2048_S_d0_1 (m ((c.tc : Thread nD τ).loc main_arg2)) := by
  show StableHlo.after hostOps0_6 (W6 m ρ c) ⟪main_v14⟫ = _
  rw [s6_v14, W6_arg2]

theorem W7_cst_7 : W7 m ρ c ⟪main_cst_7⟫ = constant (F := Ideal) S_ .f32 0x3727C5AC#32 := by
  show StableHlo.after hostOps0_6 (W6 m ρ c) ⟪main_cst_7⟫ = _
  rw [s6_cst_7]

theorem W8_v15 : W8 m ρ c ⟪main_v15⟫
    = maximumf (constant (F := Ideal) S_ .f32 0x3727C5AC#32)
        (meanMag (S := S8192x2048) reducesTo_S8192x2048_S_d0_1 (m ((c.tc : Thread nD τ).loc main_arg2))) := by
  show StableHlo.after hostOps0_7 (W7 m ρ c) ⟪main_v15⟫ = _
  rw [s7_v15, W7_cst_7, W7_v14]

theorem W9_v16 : W9 m ρ c ⟪main_v16⟫
    = scaleVec (S := S8192x2048) reducesTo_S8192x2048_S_d0_1 (m ((c.tc : Thread nD τ).loc main_arg2)) := by
  show StableHlo.after hostOps0_8 (W8 m ρ c) ⟪main_v16⟫ = _
  rw [s8_v16, W8_v15]
  rfl

theorem W9_v18 : W9 m ρ c ⟪main_v18⟫
    = scaledVec (S := S8192x2048) reducesTo_S8192x2048_S_d0_1 bcast_S_S8192x2048 (m ((c.tc : Thread nD τ).loc main_arg2)) := by
  show StableHlo.after hostOps0_8 (W8 m ρ c) ⟪main_v18⟫ = _
  rw [s8_v18, W8_v15, W8_arg2]
  rfl

theorem W10_v19 : W10 m ρ c ⟪main_v19⟫
    = Host.roundeven (F := Ideal)
        (scaledVec (S := S8192x2048) reducesTo_S8192x2048_S_d0_1 bcast_S_S8192x2048 (m ((c.tc : Thread nD τ).loc main_arg2))) := by
  show StableHlo.after hostOps0_9 (W9 m ρ c) ⟪main_v19⟫ = _
  rw [s9_v19, W9_v18]

theorem W11_cst_9 : W11 m ρ c ⟪main_cst_9⟫ = constant (F := Ideal) S_ .f32 0xBF800000#32 := by
  show StableHlo.after hostOps0_10 (W10 m ρ c) ⟪main_cst_9⟫ = _
  rw [s10_cst_9]

theorem W11_cst_10 : W11 m ρ c ⟪main_cst_10⟫ = constant (F := Ideal) S_ .f32 0x3F800000#32 := by
  show StableHlo.after hostOps0_10 (W10 m ρ c) ⟪main_cst_10⟫ = _
  rw [s10_cst_10]

theorem W11_v19 : W11 m ρ c ⟪main_v19⟫
    = Host.roundeven (F := Ideal)
        (scaledVec (S := S8192x2048) reducesTo_S8192x2048_S_d0_1 bcast_S_S8192x2048 (m ((c.tc : Thread nD τ).loc main_arg2))) := by
  host_keeps hostOps0_10
  exact W10_v19 m ρ c

theorem W12_v20 : W12 m ρ c ⟪main_v20⟫
    = clampVec (S := S8192x2048) bcast_S_S8192x2048 (Host.roundeven (F := Ideal)
        (scaledVec (S := S8192x2048) reducesTo_S8192x2048_S_d0_1 bcast_S_S8192x2048 (m ((c.tc : Thread nD τ).loc main_arg2)))) := by
  show StableHlo.after hostOps0_11 (W11 m ρ c) ⟪main_v20⟫ = _
  rw [s11_v20, W11_cst_10, W11_cst_9, W11_v19]
  rfl

theorem W12_v16 : W12 m ρ c ⟪main_v16⟫
    = scaleVec (S := S8192x2048) reducesTo_S8192x2048_S_d0_1 (m ((c.tc : Thread nD τ).loc main_arg2)) := by
  host_keeps hostOps0_11
  host_keeps hostOps0_10
  host_keeps hostOps0_9
  exact W9_v16 m ρ c

theorem W13_v22 : W13 m ρ c ⟪main_v22⟫
    = quantVec (S := S8192x2048) reducesTo_S8192x2048_S_d0_1 bcast_S_S8192x2048 (m ((c.tc : Thread nD τ).loc main_arg2)) := by
  show StableHlo.after hostOps0_12 (W12 m ρ c) ⟪main_v22⟫ = _
  rw [s12_v22, W12_v20, W12_v16]
  rfl

theorem W18_v22 : W18 m ρ c ⟪main_v22⟫
    = quantVec (S := S8192x2048) reducesTo_S8192x2048_S_d0_1 bcast_S_S8192x2048 (m ((c.tc : Thread nD τ).loc main_arg2)) := by
  host_keeps hostOps0_17
  host_keeps hostOps0_16
  host_keeps hostOps0_15
  host_keeps hostOps0_14
  host_keeps hostOps0_13
  exact W13_v22 m ρ c

/-! ### The third weight -/

theorem W12_arg3 : W12 m ρ c ⟪main_arg3⟫ = m ((c.tc : Thread nD τ).loc main_arg3) := by
  host_keeps hostOps0_11
  host_keeps hostOps0_10
  host_keeps hostOps0_9
  host_keeps hostOps0_8
  host_keeps hostOps0_7
  host_keeps hostOps0_6
  host_keeps hostOps0_5
  host_keeps hostOps0_4
  host_keeps hostOps0_3
  host_keeps hostOps0_2
  host_keeps hostOps0_1
  host_keeps hostOps0
  rfl

theorem W14_arg3 : W14 m ρ c ⟪main_arg3⟫ = m ((c.tc : Thread nD τ).loc main_arg3) := by
  host_keeps hostOps0_13
  host_keeps hostOps0_12
  exact W12_arg3 m ρ c

theorem W13_v25 : W13 m ρ c ⟪main_v25⟫
    = meanMag (S := S2048x8192) reducesTo_S2048x8192_S_d0_1 (m ((c.tc : Thread nD τ).loc main_arg3)) := by
  show StableHlo.after hostOps0_12 (W12 m ρ c) ⟪main_v25⟫ = _
  rw [s12_v25, W12_arg3]

theorem W13_cst_13 : W13 m ρ c ⟪main_cst_13⟫ = constant (F := Ideal) S_ .f32 0x3727C5AC#32 := by
  show StableHlo.after hostOps0_12 (W12 m ρ c) ⟪main_cst_13⟫ = _
  rw [s12_cst_13]

theorem W14_v26 : W14 m ρ c ⟪main_v26⟫
    = maximumf (constant (F := Ideal) S_ .f32 0x3727C5AC#32)
        (meanMag (S := S2048x8192) reducesTo_S2048x8192_S_d0_1 (m ((c.tc : Thread nD τ).loc main_arg3))) := by
  show StableHlo.after hostOps0_13 (W13 m ρ c) ⟪main_v26⟫ = _
  rw [s13_v26, W13_cst_13, W13_v25]

theorem W15_v27 : W15 m ρ c ⟪main_v27⟫
    = scaleVec (S := S2048x8192) reducesTo_S2048x8192_S_d0_1 (m ((c.tc : Thread nD τ).loc main_arg3)) := by
  show StableHlo.after hostOps0_14 (W14 m ρ c) ⟪main_v27⟫ = _
  rw [s14_v27, W14_v26]
  rfl

theorem W15_v29 : W15 m ρ c ⟪main_v29⟫
    = scaledVec (S := S2048x8192) reducesTo_S2048x8192_S_d0_1 bcast_S_S2048x8192 (m ((c.tc : Thread nD τ).loc main_arg3)) := by
  show StableHlo.after hostOps0_14 (W14 m ρ c) ⟪main_v29⟫ = _
  rw [s14_v29, W14_v26, W14_arg3]
  rfl

theorem W16_v30 : W16 m ρ c ⟪main_v30⟫
    = Host.roundeven (F := Ideal)
        (scaledVec (S := S2048x8192) reducesTo_S2048x8192_S_d0_1 bcast_S_S2048x8192 (m ((c.tc : Thread nD τ).loc main_arg3))) := by
  show StableHlo.after hostOps0_15 (W15 m ρ c) ⟪main_v30⟫ = _
  rw [s15_v30, W15_v29]

theorem W17_cst_15 : W17 m ρ c ⟪main_cst_15⟫ = constant (F := Ideal) S_ .f32 0xBF800000#32 := by
  show StableHlo.after hostOps0_16 (W16 m ρ c) ⟪main_cst_15⟫ = _
  rw [s16_cst_15]

theorem W17_cst_16 : W17 m ρ c ⟪main_cst_16⟫ = constant (F := Ideal) S_ .f32 0x3F800000#32 := by
  show StableHlo.after hostOps0_16 (W16 m ρ c) ⟪main_cst_16⟫ = _
  rw [s16_cst_16]

theorem W17_v30 : W17 m ρ c ⟪main_v30⟫
    = Host.roundeven (F := Ideal)
        (scaledVec (S := S2048x8192) reducesTo_S2048x8192_S_d0_1 bcast_S_S2048x8192 (m ((c.tc : Thread nD τ).loc main_arg3))) := by
  host_keeps hostOps0_16
  exact W16_v30 m ρ c

theorem W18_v31 : W18 m ρ c ⟪main_v31⟫
    = clampVec (S := S2048x8192) bcast_S_S2048x8192 (Host.roundeven (F := Ideal)
        (scaledVec (S := S2048x8192) reducesTo_S2048x8192_S_d0_1 bcast_S_S2048x8192 (m ((c.tc : Thread nD τ).loc main_arg3)))) := by
  show StableHlo.after hostOps0_17 (W17 m ρ c) ⟪main_v31⟫ = _
  rw [s17_v31, W17_cst_16, W17_cst_15, W17_v30]
  rfl

theorem W18_v27 : W18 m ρ c ⟪main_v27⟫
    = scaleVec (S := S2048x8192) reducesTo_S2048x8192_S_d0_1 (m ((c.tc : Thread nD τ).loc main_arg3)) := by
  host_keeps hostOps0_17
  host_keeps hostOps0_16
  host_keeps hostOps0_15
  exact W15_v27 m ρ c

/-! ### The last stretch -/

theorem W19_v35 : W19 m ρ c ⟪main_v35⟫
    = truncf (F := Ideal) .bf16
        (transpose S2048x8192 [1, 0]
          (quantVec (S := S8192x2048) reducesTo_S8192x2048_S_d0_1 bcast_S_S8192x2048 (m ((c.tc : Thread nD τ).loc main_arg1)))
          transposes_S8192x2048_S2048x8192_1_0)
        bitsLt_bf16_f32 := by
  show StableHlo.after hostOps0_18 (W18 m ρ c) ⟪main_v35⟫ = _
  rw [s18_v35, W18_v11]

theorem W19_v37 : W19 m ρ c ⟪main_v37⟫
    = truncf (F := Ideal) .bf16
        (transpose S2048x8192 [1, 0]
          (quantVec (S := S8192x2048) reducesTo_S8192x2048_S_d0_1 bcast_S_S8192x2048 (m ((c.tc : Thread nD τ).loc main_arg2)))
          transposes_S8192x2048_S2048x8192_1_0)
        bitsLt_bf16_f32 := by
  show StableHlo.after hostOps0_18 (W18 m ρ c) ⟪main_v37⟫ = _
  rw [s18_v37, W18_v22]

theorem W19_v39 : W19 m ρ c ⟪main_v39⟫
    = truncf (F := Ideal) .bf16
        (transpose S8192x2048 [1, 0]
          (quantVec (S := S2048x8192) reducesTo_S2048x8192_S_d0_1 bcast_S_S2048x8192 (m ((c.tc : Thread nD τ).loc main_arg3)))
          transposes_S2048x8192_S8192x2048_1_0)
        bitsLt_bf16_f32 := by
  show StableHlo.after hostOps0_18 (W18 m ρ c) ⟪main_v39⟫ = _
  rw [s18_v39, W18_v31, W18_v27]
  rfl

/-! ### The input flattened -/

theorem W19_v0 : W19 m ρ c ⟪main_v0⟫
    = shapeCast (s := S2x2048x2048) (α := Ideal .f32) S4096x2048 (m ((c.tc : Thread nD τ).loc main_arg0))
        shapeCasts_S2x2048x2048_S4096x2048 := by
  host_keeps hostOps0_18
  host_keeps hostOps0_17
  host_keeps hostOps0_16
  host_keeps hostOps0_15
  host_keeps hostOps0_14
  host_keeps hostOps0_13
  host_keeps hostOps0_12
  host_keeps hostOps0_11
  host_keeps hostOps0_10
  host_keeps hostOps0_9
  host_keeps hostOps0_8
  host_keeps hostOps0_7
  host_keeps hostOps0_6
  host_keeps hostOps0_5
  host_keeps hostOps0_4
  host_keeps hostOps0_3
  host_keeps hostOps0_2
  host_keeps hostOps0_1
  show StableHlo.after hostOps0 (W0 m ρ c) ⟪main_v0⟫ = _
  rw [s0_v0]

end Fold2

/-! ## Entry by entry -/

/-- A quantised tensor transposed and narrowed reads, at `(p, q)`, the tensor's quantised entry `(q, p)`. -/
theorem quantVec_transposed_apply {a b : ℕ} (hr : (⟨2, ![a, b]⟩ : Shape).ReducesTo [0, 1] S_)
    (hb : S_.BroadcastsInDim (⟨2, ![a, b]⟩ : Shape) (![] : Fin 0 → Fin 2))
    (ht : (⟨2, ![a, b]⟩ : Shape).Transposes [1, 0] ⟨2, ![b, a]⟩) (hlt : FTy.bits .bf16 < FTy.bits .f32)
    (w : FVec Ideal ⟨2, ![a, b]⟩ .f32) (i : (⟨2, ![b, a]⟩ : Shape).Idx) :
    truncf (F := Ideal) .bf16 (transpose ⟨2, ![b, a]⟩ [1, 0] (quantVec hr hb w) ht) hlt i
      = tensorQ w (ix2 (i 1) (i 0)) := by
  show transpose ⟨2, ![b, a]⟩ [1, 0] (quantVec hr hb w) ht i = _
  rw [transpose_apply [1, 0] (quantVec hr hb w) ht i (ix2 (i 1) (i 0))
    (fun d => match d with | ⟨0, _⟩ => rfl | ⟨1, _⟩ => rfl)]
  exact quantVec_apply hr hb w _

variable (m : (ℓ : Loc nD τ sig) → Buf (Elt Ideal) ℓ) (ρ : Dev nD → PrngReg)

/-- The tokens: the input read as 4096 rows. -/
theorem tokens_entry (c : Dev nD) :
    V19 (F := Ideal) m ρ c main_v0 = flatten (m ((c.tc : Thread nD τ).loc main_arg0)) := by
  show W19 m ρ c ⟪main_v0⟫ = _
  rw [W19_v0]
  funext i
  unfold flatten
  refine shapeCast_apply _ _ i _ ?_
  rw [Shape.rowMajor_val_three, Shape.rowMajor_val_two]
  show ((i 0).val / 2048 * 2048 + (i 0).val % 2048) * 2048 + (i 1).val = (i 0).val * 2048 + (i 1).val
  omega

/-- The first weight, quantised and transposed. -/
theorem gate_weight_entry (c : Dev nD) :
    V19 (F := Ideal) m ρ c main_v35 = quantT (m ((c.tc : Thread nD τ).loc main_arg1)) := by
  show W19 m ρ c ⟪main_v35⟫ = _
  rw [W19_v35]
  funext i
  exact quantVec_transposed_apply _ _ _ _ _ i

/-- The second weight, quantised and transposed. -/
theorem up_weight_entry (c : Dev nD) :
    V19 (F := Ideal) m ρ c main_v37 = quantT (m ((c.tc : Thread nD τ).loc main_arg2)) := by
  show W19 m ρ c ⟪main_v37⟫ = _
  rw [W19_v37]
  funext i
  exact quantVec_transposed_apply _ _ _ _ _ i

/-- The third weight, quantised and transposed. -/
theorem down_weight_entry (c : Dev nD) :
    V19 (F := Ideal) m ρ c main_v39 = quantT' (m ((c.tc : Thread nD τ).loc main_arg3)) := by
  show W19 m ρ c ⟪main_v39⟫ = _
  rw [W19_v39]
  funext i
  exact quantVec_transposed_apply _ _ _ _ _ i

end Cert.KValue.Host

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KReg0.lean ====
/-
  The first launch, array by array. Its grid is 8 by 8; point (a, b) takes rows 512a … 512a+511 of the tokens whole and columns 1024b … 1024b+1023 of each transposed weight whole, quantises each of its rows against that row's own largest magnitude, and writes the two 512 by 1024 blocks of products. A row's quantisation sees the whole row, so block (a, b) of each result is the block of one function of the whole arrays, and the 64 blocks tile the result.
-/
import proofs.«159768_j74139725463734_1_alg».proof.Proof.Gen.KernelIdeal.Frame
import proofs.«159768_j74139725463734_1_alg».proof.Proof.Arrays
import proofs.«159768_j74139725463734_1_alg».proof.Proof.Consts
import proofs.«159768_j74139725463734_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KValue.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec Cert.Arrays

-- the buffer contents the launch is entered with: any
variable (V : (c : Dev nD) → (b : Ref sig .tc) → Buf (Elt Ideal) ((c : Thread nD τ).loc b))

/-! ## The token block quantised, entry by entry -/

/-- The reduced row index with column `k` put back is `(p, k)`. -/
theorem lift_row (h : S512x2048.Reduces [1] S512) (p : Fin 512) (k : Fin (S512x2048.size 1)) :
    h.lift (ix1 p) k = ix2 p (⟨k.val, k.isLt⟩ : Fin 2048) := by
  funext c; apply Fin.ext
  fin_cases c <;> rfl

/-- The column of row maxima laid as `[512, 1]` reads row `p` at `(p, 0)`. -/
theorem cast_col (v : S512.Idx → EReal) (h : S512.ShapeCasts S512x1) (p : Fin 512) :
    shapeCast S512x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A `[512, 1]` column laid across the `2048` columns reads, at `(p, k)`, the column's entry of row `p`. -/
theorem bcast_col (v : S512x1.Idx → EReal) (h : S512x1.Broadcasts S512x2048) (p : Fin 512) (k : Fin 2048) :
    broadcastTo S512x2048 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The block's row reduction of the magnitudes is the row's largest magnitude. -/
theorem rowmax_apply (x : FVec Ideal S512x2048 .f32) (h : S512x2048.Reduces [1] S512) (hφ : FKind.Formats .f32)
    (hacc : (0xFF800000#32 : BitVec 32) = 0xFF800000#32) (p : Fin 512) :
    multiReduction .maximumf [1] S512 (absf x) 0xFF800000#32 h hφ hacc (ix1 p)
      = rowMax (fun k : Fin 2048 => x (ix2 p k)) := by
  refine (Ideal.multiReduction_maximumf_single (absf x) 0xFF800000#32 h hφ hacc (ix1 p)).trans ?_
  unfold rowMax cNegInf mag
  show (Finset.univ : Finset (Fin 2048)).fold max (Ideal.ofBits .f32 0xFF800000#32) (fun k => absf x (h.lift (ix1 p) k)) = _
  refine congrArg (fun f => (Finset.univ : Finset (Fin 2048)).fold max (Ideal.ofBits .f32 0xFF800000#32) f) (funext fun k => ?_)
  show FloatOps.absf (x (h.lift (ix1 p) k)) = _
  rw [lift_row h p k, Ideal.absf_def]
  rfl

/-- The quantised token block at `(p, k)` is entry `k` of row `p` quantised against that row's largest magnitude. -/
theorem roundeven_apply {s : Shape} {φ : FTy} (a : FVec Ideal s φ) (i : s.Idx) :
    roundeven a i = Ideal.liftRound Ideal.roundHalfEven (a i) := rfl

/-- The quantised token block at `(p, k)` is entry `k` of row `p` quantised against that row's largest magnitude. -/
theorem quant_apply (x0 : Vec Ideal S512x2048 .f32) (p : Fin 512) (k : Fin 2048) :
    k0_pay1 (F := Ideal) x0 (ix2 p k) = rowQ (fun k : Fin 2048 => x0 (ix2 p k)) k := by
  unfold k0_pay1
  simp only [shapeCast_self]
  rw [truncf_apply, divf_apply, minimumf_apply, maximumf_apply, roundeven_apply, mulf_apply]
  rw [broadcast_apply, broadcast_apply, bcast_col, divf_apply, maximumf_apply, broadcast_apply, broadcast_apply, cast_col,
    rowmax_apply]
  rfl

/-! ## A block of products, entry by entry -/

theorem lhs_gateup_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_gateup_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_gateup_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_gateup_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry `(p, q)` of a block of products: row `p` of the token block, quantised, against column `q` of the weight block. -/
theorem prod_apply (x0 : Vec Ideal S512x2048 .f32) (w : Vec Ideal S2048x1024 .bf16) (p : Fin 512) (q : Fin 1024) :
    k0_pay2 (F := Ideal) x0 w (ix2 p q)
      = dotQ (fun k : Fin 2048 => x0 (ix2 p k)) (fun k : Fin 2048 => w (ix2 k q)) := by
  unfold k0_pay2
  simp only [shapeCast_self]
  refine (Ideal.matmul_constant_zero_apply dot_S512x2048_S2048x1024_S512x1024_1_0_0_1_n_n none (k0_pay1 (F := Ideal) x0) w (ix2 p q)).trans ?_
  refine (Cert.LibPlainDot.sum_plain dot_S512x2048_S2048x1024_S512x1024_1_0_0_1_n_n rfl rfl lhs_gateup_0 lhs_gateup_1
    rhs_gateup_0 rhs_gateup_1 (k0_pay1 (F := Ideal) x0) w p q).trans ?_
  unfold dotQ
  refine Finset.sum_congr rfl fun k _ => ?_
  rw [quant_apply]

/-- The second block of products is the same term of its weight block. -/
theorem prod_apply' (x0 : Vec Ideal S512x2048 .f32) (w : Vec Ideal S2048x1024 .bf16) (p : Fin 512) (q : Fin 1024) :
    k0_pay3 (F := Ideal) x0 w (ix2 p q)
      = dotQ (fun k : Fin 2048 => x0 (ix2 p k)) (fun k : Fin 2048 => w (ix2 k q)) :=
  prod_apply x0 w p q

/-! ## From the blocks to the arrays -/

theorem zero_offsets : (![0, 0] : Fin 2 → Nat) = fun _ => 0 := funext fun a => by fin_cases a <;> rfl

/-- The index maps over the grid: the token block moves with the result's row block and takes the rows whole; each weight
    block moves with the result's column block and takes the columns whole; the two results move together. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block of the result is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- A block of products whose token block is rows `512a …` of the tokens and whose weight block is columns `1024b …` of
    the transposed weight is, entry by entry, the projection of the whole arrays at row `512a + ·`, column `1024b + ·`:
    a row of the block is a whole row of the tokens, a column of the block a whole column of the weight. -/
theorem prod_block (X : Tok.Idx → EReal) (WT : Tall.Idx → EReal)
    (x0 : Vec Ideal S512x2048 .f32) (w : Vec Ideal S2048x1024 .bf16) (a b : Nat)
    (y : S512x1024.Idx) (i : Hid.Idx)
    (hi0 : (i 0).val = a * 512 + 1 * (y 0).val) (hi1 : (i 1).val = b * 1024 + 1 * (y 1).val)
    (hx : ∀ (z : S512x2048.Idx) (k : Tok.Idx), (k 0).val = a * 512 + 1 * (z 0).val → (k 1).val = (z 1).val → x0 z = X k)
    (hw : ∀ (z : S2048x1024.Idx) (k : Tall.Idx), (k 0).val = (z 0).val → (k 1).val = b * 1024 + 1 * (z 1).val → w z = WT k) :
    k0_pay2 (F := Ideal) x0 w y = proj X WT i := by
  obtain ⟨p, q, rfl⟩ : ∃ (p : Fin 512) (q : Fin 1024), y = ix2 p q := ⟨y 0, y 1, eq_ix2 y⟩
  rw [prod_apply]
  unfold proj
  congr 1
  · funext k; exact hx (ix2 p k) (ix2 (i 0) k) hi0 rfl
  · funext k; exact hw (ix2 k q) (ix2 k (i 1)) rfl hi1

/-- What point `t` writes back to the first result: block `t` of the projection of the whole arrays. -/
theorem gate_flushed (c : Dev nD) (t : Fin cfg0.N) :
    (dat0 (F := Ideal) V c).flushed 3 t
      = ((cfg0.win 3).blk t).view.read (Elt Ideal) (proj (V c main_v0) (V c main_v35)) := by
  show (cfg0.win 3).cut (grid0.coords t) ((dat0 (F := Ideal) V c).after 3 t) = _
  rw [after0_3]
  unfold out0_3
  rw [View.canon_unit_zero zero_offsets]
  simp only [View.ld_unit_zero (S := S512x2048) zero_offsets, View.ld_unit_zero (S := S2048x1024) zero_offsets]
  obtain ⟨e0, e1, e2, e3, e4, e5, e6, e7, e8, e9⟩ := idx_facts t
  funext j
  show k0_pay2 (F := Ideal) (iblk0 V c 0 t) (iblk0 V c 1 t) ((cfg0.win 3).xinj (grid0.coords t) j)
    = proj (V c main_v0) (V c main_v35) (((cfg0.win 3).blk t).view.emb j)
  refine prod_block (V c main_v0) (V c main_v35) (iblk0 V c 0 t) (iblk0 V c 1 t)
    (win0_3.index t (0 : Fin 2)) (win0_3.index t (1 : Fin 2)) _ _ rfl rfl ?_ ?_
  · intro z k h0 h1
    show V c main_v0 (((cfg0.win 0).blk t).view.emb z) = V c main_v0 k
    refine congrArg _ (funext fun a => Fin.ext ?_)
    match a with
    | ⟨0, _⟩ => show win0_0.index t (0 : Fin 2) * 512 + 1 * (z 0).val = (k 0).val; rw [h0, e0]
    | ⟨1, _⟩ => show win0_0.index t (1 : Fin 2) * 2048 + 1 * (z 1).val = (k 1).val; rw [h1, e1]; omega
  · intro z k h0 h1
    show V c main_v35 (((cfg0.win 1).blk t).view.emb z) = V c main_v35 k
    refine congrArg _ (funext fun a => Fin.ext ?_)
    match a with
    | ⟨0, _⟩ => show win0_1.index t (0 : Fin 2) * 2048 + 1 * (z 0).val = (k 0).val; rw [h0, e2]; omega
    | ⟨1, _⟩ => show win0_1.index t (1 : Fin 2) * 1024 + 1 * (z 1).val = (k 1).val; rw [h1, e3]

/-- … and to the second: the same with the second weight. -/
theorem up_flushed (c : Dev nD) (t : Fin cfg0.N) :
    (dat0 (F := Ideal) V c).flushed 4 t
      = ((cfg0.win 4).blk t).view.read (Elt Ideal) (proj (V c main_v0) (V c main_v37)) := by
  show (cfg0.win 4).cut (grid0.coords t) ((dat0 (F := Ideal) V c).after 4 t) = _
  rw [after0_4]
  unfold out0_4
  rw [View.canon_unit_zero zero_offsets]
  simp only [View.ld_unit_zero (S := S512x2048) zero_offsets, View.ld_unit_zero (S := S2048x1024) zero_offsets]
  obtain ⟨e0, e1, e2, e3, e4, e5, e6, e7, e8, e9⟩ := idx_facts t
  funext j
  show k0_pay2 (F := Ideal) (iblk0 V c 0 t) (iblk0 V c 2 t) ((cfg0.win 4).xinj (grid0.coords t) j)
    = proj (V c main_v0) (V c main_v37) (((cfg0.win 4).blk t).view.emb j)
  refine prod_block (V c main_v0) (V c main_v37) (iblk0 V c 0 t) (iblk0 V c 2 t)
    (win0_4.index t (0 : Fin 2)) (win0_4.index t (1 : Fin 2)) _ _ rfl rfl ?_ ?_
  · intro z k h0 h1
    show V c main_v0 (((cfg0.win 0).blk t).view.emb z) = V c main_v0 k
    refine congrArg _ (funext fun a => Fin.ext ?_)
    match a with
    | ⟨0, _⟩ => show win0_0.index t (0 : Fin 2) * 512 + 1 * (z 0).val = (k 0).val; rw [h0, e0, e6]
    | ⟨1, _⟩ => show win0_0.index t (1 : Fin 2) * 2048 + 1 * (z 1).val = (k 1).val; rw [h1, e1]; omega
  · intro z k h0 h1
    show V c main_v37 (((cfg0.win 2).blk t).view.emb z) = V c main_v37 k
    refine congrArg _ (funext fun a => Fin.ext ?_)
    match a with
    | ⟨0, _⟩ => show win0_2.index t (0 : Fin 2) * 2048 + 1 * (z 0).val = (k 0).val; rw [h0, e4]; omega
    | ⟨1, _⟩ => show win0_2.index t (1 : Fin 2) * 1024 + 1 * (z 1).val = (k 1).val; rw [h1, e5, e7]

/-- An index of the first result is in point `t`'s block iff each coordinate is in the block's range on its axis. -/
theorem gate_mem_blk (t : Fin cfg0.N) (i : S4096x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v40_0).slice (win0_3.rect t)).set ↔ _
  rw [View.set_slice_whole, Rect.mem_set_unit]
  exact Iff.rfl

/-- The same of the second result. -/
theorem up_mem_blk (t : Fin cfg0.N) (i : S4096x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v40_1).slice (win0_4.rect t)).set ↔ _
  rw [View.set_slice_whole, Rect.mem_set_unit]
  exact Iff.rfl

/-- The 64 blocks tile the first result: row `r`, column `s` lies in the block of the point at `(r / 512, s / 1024)`. -/
theorem gate_cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [gate_mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- … and the second. -/
theorem up_cover (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  obtain ⟨e0, e1, e2, e3, e4, e5, e6, e7, e8, e9⟩ := idx_facts t
  refine ⟨t, flush0_4 t, ?_⟩
  rw [up_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the launch the first result array holds every token's quantised row against every column of the first weight. -/
theorem gate_array (c : Dev nD) :
    (dat0 (F := Ideal) V c).arrAt 3 cfg0.N = proj (V c main_v0) (V c main_v35) := by
  exact (dat0 (F := Ideal) V c).arrAt_eq_of_cover 3 (proj (V c main_v0) (V c main_v35))
    (fun t _ => gate_flushed V c t) gate_cover

/-- … and the second result array the same against the second weight. -/
theorem up_array (c : Dev nD) :
    (dat0 (F := Ideal) V c).arrAt 4 cfg0.N = proj (V c main_v0) (V c main_v37) := by
  exact (dat0 (F := Ideal) V c).arrAt_eq_of_cover 4 (proj (V c main_v0) (V c main_v37))
    (fun t _ => up_flushed V c t) up_cover

end Cert.KValue.Region0

end
-- ==== Proof.KReg1.lean ====
/-
  The second launch, array by array. Its grid has 32 points; point a takes rows 128a … 128a+127 of the two projections whole and the scale row, gates them, divides each row by the root of its own mean square and scales it. A row's mean square sees the whole row, so block a of the result is the block of one function of the whole arrays, and the 32 blocks tile the result.
-/
import proofs.«159768_j74139725463734_1_alg».proof.Proof.Gen.KernelIdeal.Frame
import proofs.«159768_j74139725463734_1_alg».proof.Proof.Arrays
import proofs.«159768_j74139725463734_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KValue.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec Cert.Arrays

/-! ## Layout operations and the row sum, read at an entry -/

/-- A vector `[a]` viewed as a column `[a, 1]` reads, at `(i, u)`, its entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` laid across `b` columns reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row of a `[128, 8192]` block, read at row `p`: the sum of the row's entries. -/
theorem rowSum_apply (x : FVec Ideal S128x8192 .f32) (hφ : FKind.Formats .f32)
    (hacc : (0x00000000#32 : BitVec 32) = 0x00000000#32) (p : Fin 128) :
    multiReduction .add [1] S128 x 0x00000000#32 reduces_S128x8192_S128 hφ hacc (ix1 p)
      = ∑ k : Fin 8192, x (ix2 p k) := by
  refine (Ideal.multiReduction_add_single x 0x00000000#32 reduces_S128x8192_S128 hφ hacc (ix1 p)).trans ?_
  refine Finset.sum_congr rfl fun k _ => ?_
  congr 1
  funext a
  match a with
  | ⟨0, _⟩ => exact Fin.ext rfl
  | ⟨1, _⟩ => exact Fin.ext rfl

/-- A reciprocal root at an index is the entry's. -/
theorem rsqrt_apply {s : Shape} {φ : FTy} (a : FVec Ideal s φ) (i : s.Idx) : rsqrt a i = Ideal.rsqrt (a i) := rfl
/-- A logistic at an index is the entry's. -/
theorem logistic_apply {s : Shape} {φ : FTy} (a : FVec Ideal s φ) (i : s.Idx) : logistic a i = Ideal.logistic (a i) := rfl

/-! ## What the body computes, entry by entry -/

/-- Entry `(p, j)` of what the body stores is the normalised, scaled gate of row `p` of the two projection blocks:
    the mean square under the root is the whole row's. -/
theorem body_entry (v0 v2 : Vec Ideal S128x8192 .f32) (v15 : Vec Ideal S1x8192 .f32) (p : Fin 128) (j : Fin 8192) :
    k1_pay1 (F := Ideal) v0 v2 v15 (ix2 p j)
      = normed (fun j' => v0 (ix2 p j')) (fun j' => v2 (ix2 p j')) (fun j' => v15 (ix2 (0 : Fin 1) j')) j := by
  unfold k1_pay1
  dsimp only
  simp only [shapeCast_self, mulf_apply, broadcastTo_1b_ab_apply, broadcastTo_col_apply, rsqrt_apply, addf_apply,
    divf_apply, broadcast_apply, shapeCast_a_a1_apply, logistic_apply, Ideal.ofBits_def]
  rw [rowSum_apply]
  simp only [mulf_apply, logistic_apply]
  rfl

-- the buffer contents the launch is entered with: any
variable (V : (c : Dev nD) → (b : Ref sig .tc) → Buf (Elt Ideal) ((c : Thread nD τ).loc b))

/-! ## The blocks of the windows, as rows of the arrays -/

theorem zero_offsets : (![0, 0] : Fin 2 → Nat) = fun _ => 0 := funext fun a => by fin_cases a <;> rfl

/-- The printed index maps over the grid: at point `t` each projection window and the result window sit at block
    `(t, 0)`, the scale row's window at `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the first projection's block at point `t` is row `128 t + p` of the array. -/
theorem gate_block_apply (c : Dev nD) (t : Fin cfg1.N) (p : Fin 128) (j : Fin 8192) (r : Fin 4096)
    (hr : r.val = t.val * 128 + p.val) :
    (iblk1 (F := Ideal) V c 0 t : Vec Ideal S128x8192 .f32) (ix2 p j) = (V c main_v40_0 : Hid.Idx → EReal) (ix2 r j) := by
  obtain ⟨e0, e1, -⟩ := block_indices t
  unfold iblk1
  show V c main_v40_0 (((cfg1.win 0).blk t).view.emb (ix2 p j)) = V c main_v40_0 (ix2 r j)
  congr 1
  funext a
  apply Fin.ext
  match a with
  | ⟨0, _⟩ => show win1_0.index t (0 : Fin 2) * 128 + 1 * p.val = r.val; omega
  | ⟨1, _⟩ => show win1_0.index t (1 : Fin 2) * 8192 + 1 * j.val = j.val; omega

/-- Row `p` of the second projection's block at point `t` is row `128 t + p` of the array. -/
theorem up_block_apply (c : Dev nD) (t : Fin cfg1.N) (p : Fin 128) (j : Fin 8192) (r : Fin 4096)
    (hr : r.val = t.val * 128 + p.val) :
    (iblk1 (F := Ideal) V c 1 t : Vec Ideal S128x8192 .f32) (ix2 p j) = (V c main_v40_1 : Hid.Idx → EReal) (ix2 r j) := by
  obtain ⟨-, -, e0, e1, -⟩ := block_indices t
  unfold iblk1
  show V c main_v40_1 (((cfg1.win 1).blk t).view.emb (ix2 p j)) = V c main_v40_1 (ix2 r j)
  congr 1
  funext a
  apply Fin.ext
  match a with
  | ⟨0, _⟩ => show win1_1.index t (0 : Fin 2) * 128 + 1 * p.val = r.val; omega
  | ⟨1, _⟩ => show win1_1.index t (1 : Fin 2) * 8192 + 1 * j.val = j.val; omega

/-- The scale row's block is the scale row, at every point. -/
theorem scale_block_apply (c : Dev nD) (t : Fin cfg1.N) (j : Fin 8192) :
    (iblk1 (F := Ideal) V c 2 t : Vec Ideal S1x8192 .f32) (ix2 (0 : Fin 1) j) = (V c main_v41 : OneRow.Idx → EReal) (ix2 (0 : Fin 1) j) := by
  obtain ⟨-, -, -, -, e0, e1, -⟩ := block_indices t
  unfold iblk1
  show V c main_v41 (((cfg1.win 2).blk t).view.emb (ix2 (0 : Fin 1) j)) = V c main_v41 (ix2 (0 : Fin 1) j)
  congr 1
  funext a
  apply Fin.ext
  match a with
  | ⟨0, _⟩ => show win1_2.index t (0 : Fin 2) * 1 + 1 * 0 = 0; omega
  | ⟨1, _⟩ => show win1_2.index t (1 : Fin 2) * 8192 + 1 * j.val = j.val; omega

/-! ## What a point writes back, and the cover -/

/-- The normalisation depends on its three rows and its column only. -/
theorem normed_congr {g g' u u' l l' : Fin 8192 → EReal} {a a' : Fin 8192} (hg : g = g') (hu : u = u') (hl : l = l')
    (ha : a = a') : normed g u l a = normed g' u' l' a' := by
  subst hg hu hl ha; rfl

/-- What point `t` writes back is block `t` of the hidden activations of the whole arrays. -/
theorem hidden_block (c : Dev nD) (t : Fin cfg1.N) :
    (dat1 (F := Ideal) V c).flushed 3 t
      = ((cfg1.win 3).blk t).view.read (Elt Ideal) (hidden (V c main_v40_0) (V c main_v40_1) (V c main_v41)) := by
  show (cfg1.win 3).cut (grid1.coords t) ((dat1 V c).after 3 t) = _
  rw [after1_3]
  unfold out1_3
  rw [View.canon_unit_zero zero_offsets]
  simp only [View.ld_unit_zero (S := S128x8192) zero_offsets, View.ld_unit_zero (S := S1x8192) zero_offsets]
  obtain ⟨-, -, -, -, -, -, e0, e1⟩ := block_indices t
  funext y
  have hy0 : (y 0).val < 128 := (y 0).isLt
  have hy1 : (y 1).val < 8192 := (y 1).isLt
  show k1_pay1 (iblk1 V c 0 t) (iblk1 V c 1 t) (iblk1 V c 2 t) ((cfg1.win 3).xinj (grid1.coords t) y)
    = hidden (V c main_v40_0) (V c main_v40_1) (V c main_v41) (((cfg1.win 3).blk t).view.emb y)
  have hx : (cfg1.win 3).xinj (grid1.coords t) y = ix2 (⟨(y 0).val, hy0⟩ : Fin 128) (⟨(y 1).val, hy1⟩ : Fin 8192) :=
    funext fun a => by match a with | ⟨0, _⟩ => rfl | ⟨1, _⟩ => rfl
  refine (congrArg (k1_pay1 (iblk1 V c 0 t) (iblk1 V c 1 t) (iblk1 V c 2 t)) hx).trans ?_
  refine (body_entry _ _ _ _ _).trans ?_
  unfold Cert.Arrays.hidden
  have hr : ((((cfg1.win 3).blk t).view.emb y) 0).val = t.val * 128 + (y 0).val := by
    show win1_3.index t (0 : Fin 2) * 128 + 1 * (y 0).val = _; omega
  have hq : ((((cfg1.win 3).blk t).view.emb y) 1).val = (y 1).val := by
    show win1_3.index t (1 : Fin 2) * 8192 + 1 * (y 1).val = _; omega
  exact normed_congr (funext fun j => gate_block_apply V c t _ j _ hr) (funext fun j => up_block_apply V c t _ j _ hr)
    (funext fun j => scale_block_apply V c t j) (Fin.ext hq.symm)

/-- An index of the result is in point `t`'s block iff each coordinate is in the block's range on its axis. -/
theorem mem_block (t : Fin cfg1.N) (i : S4096x8192.Idx) :
    i ∈ ((cfg1.win 3).blk t).view.set ↔ ∀ a : Fin 2, win1_3.index t a * S128x8192.size a ≤ (i a).val ∧ (i a).val < win1_3.index t a * S128x8192.size a + S128x8192.size a := by
  show i ∈ ((View.whole main_v42).slice (win1_3.rect t)).set ↔ _
  rw [View.set_slice_whole, Rect.mem_set_unit]
  exact Iff.rfl

/-- Every row block is some point's. -/
theorem block_onto : ∀ q : Fin 32, ∃ t : Fin cfg1.N, win1_3.index t = ![q.val, 0] :=
  (by decide +kernel : ∀ q : Fin 32, ∃ t : Fin grid1.N, win1_3.index t = ![q.val, 0])

/-- Every index of the result lies in the block of the point of its row block. -/
theorem covered (i : S4096x8192.Idx) :
    ∃ t : Fin cfg1.N, (cfg1.win 3).flush t = true ∧ i ∈ ((cfg1.win 3).blk t).view.set := by
  have hi0 : (i 0).val < 4096 := (i 0).isLt
  have hi1 : (i 1).val < 8192 := (i 1).isLt
  obtain ⟨t, ht⟩ := block_onto ⟨(i 0).val / 128, by omega⟩
  have q0 : win1_3.index t (0 : Fin 2) = (i 0).val / 128 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 8192 ≤ (i 1).val ∧ (i 1).val < win1_3.index t (1 : Fin 2) * 8192 + 8192; omega

/-! ## The array after the launch -/

/-- After the launch the result array holds every token's gated, normalised, scaled row. -/
theorem hidden_array (c : Dev nD) :
    (dat1 (F := Ideal) V c).arrAt 3 cfg1.N = hidden (V c main_v40_0) (V c main_v40_1) (V c main_v41) :=
  (dat1 (F := Ideal) V c).arrAt_eq_of_cover 3 (hidden (V c main_v40_0) (V c main_v40_1) (V c main_v41))
    (fun t _ => hidden_block V c t) covered

end Cert.KValue.Region1

end
-- ==== Proof.KReg2.lean ====
/-
  The third launch, array by array. Its grid is 16 by 4; point (a, b) takes rows 256a … 256a+255 of the hidden activations whole and columns 512b … 512b+511 of the transposed third weight whole, quantises each row against its own largest magnitude and writes the 256 by 512 block of products. The 64 blocks tile the result.
-/
import proofs.«159768_j74139725463734_1_alg».proof.Proof.Gen.KernelIdeal.Frame
import proofs.«159768_j74139725463734_1_alg».proof.Proof.Arrays
import proofs.«159768_j74139725463734_1_alg».proof.Proof.Consts
import proofs.«159768_j74139725463734_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KValue.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec Cert.Arrays

-- the buffer contents the launch is entered with: any
variable (V : (c : Dev nD) → (b : Ref sig .tc) → Buf (Elt Ideal) ((c : Thread nD τ).loc b))

/-! ## The block of products at one entry -/

/-- The product's operand indices, coordinate by coordinate: the left operand is read at the entry's row and the shared
    coordinate, the right at the shared coordinate and the entry's column. -/
theorem lhs_down_0 (i : S256x512.Idx) (q : dot_S256x8192_S8192x512_S256x512_1_0_0_1_n_n.contr.Idx) :
    (dot_S256x8192_S8192x512_S256x512_1_0_0_1_n_n.lhsIdx i q 0).val = (i 0).val := by
  unfold DotDims.lhsIdx
  rw [dif_neg (show ¬(0 : Fin S256x8192.rank) ∈ dot_S256x8192_S8192x512_S256x512_1_0_0_1_n_n.lhsBatch by decide), dif_pos (show (0 : Fin S256x8192.rank) ∈ dot_S256x8192_S8192x512_S256x512_1_0_0_1_n_n.lhsNonContracting by decide)]
  rfl
theorem lhs_down_1 (i : S256x512.Idx) (q : dot_S256x8192_S8192x512_S256x512_1_0_0_1_n_n.contr.Idx) :
    (dot_S256x8192_S8192x512_S256x512_1_0_0_1_n_n.lhsIdx i q 1).val = (q ⟨0, by decide⟩).val :=
  dot_S256x8192_S8192x512_S256x512_1_0_0_1_n_n.lhsIdx_val_of_single rfl i q
theorem rhs_down_0 (i : S256x512.Idx) (q : dot_S256x8192_S8192x512_S256x512_1_0_0_1_n_n.contr.Idx) :
    (dot_S256x8192_S8192x512_S256x512_1_0_0_1_n_n.rhsIdx i q 0).val = (q ⟨0, by decide⟩).val :=
  dot_S256x8192_S8192x512_S256x512_1_0_0_1_n_n.rhsIdx_val_of_single rfl i q
theorem rhs_down_1 (i : S256x512.Idx) (q : dot_S256x8192_S8192x512_S256x512_1_0_0_1_n_n.contr.Idx) :
    (dot_S256x8192_S8192x512_S256x512_1_0_0_1_n_n.rhsIdx i q 1).val = (i 1).val := by
  unfold DotDims.rhsIdx
  rw [dif_neg (show ¬(1 : Fin S8192x512.rank) ∈ dot_S256x8192_S8192x512_S256x512_1_0_0_1_n_n.rhsBatch by decide), dif_pos (show (1 : Fin S8192x512.rank) ∈ dot_S256x8192_S8192x512_S256x512_1_0_0_1_n_n.rhsNonContracting by decide)]
  rfl

/-- Rounding, entry by entry. -/
theorem roundeven_read {s : Shape} (a : FVec Ideal s .f32) (i : s.Idx) : roundeven a i = rne (a i) := rfl

/-- The index the row reduction reads at column `k` of row `p`. -/
theorem lift_row (p : Fin 256) (k : Fin 8192) :
    reduces_S256x8192_S256.lift (ix1 p) k = ix2 p k :=
  funext fun a => Fin.ext (by
    match a with
    | ⟨0, _⟩ => rfl
    | ⟨1, _⟩ => rfl)

/-- The row reduction at row `p` is the largest magnitude of that row. -/
theorem rowMax_read (v0 : Vec Ideal S256x8192 .f32) (hφ : FKind.Formats .f32)
    (hacc : (0xFF800000#32 : BitVec 32) = FKind.maximumf.neutral .f32 hφ) (p : Fin 256) :
    multiReduction (F := Ideal) .maximumf [1] S256 (absf v0) 0xFF800000#32 reduces_S256x8192_S256 hφ hacc (ix1 p)
      = rowMax (fun j : Fin 8192 => v0 (ix2 p j)) := by
  refine (Ideal.multiReduction_maximumf_single (φ := .f32) (absf v0) _ reduces_S256x8192_S256 hφ hacc (ix1 p)).trans ?_
  unfold rowMax
  refine congrArg (fun f : Fin 8192 → EReal => (Finset.univ : Finset (Fin 8192)).fold max cNegInf f) (funext fun (k : Fin 8192) => ?_)
  exact congrArg (fun i => mag (v0 i)) (lift_row p k)

/-- The column of scales, laid across the row, is the row's scale at every entry. -/
theorem scale_read (v0 : Vec Ideal S256x8192 .f32) (hφ : FKind.Formats .f32)
    (hacc : (0xFF800000#32 : BitVec 32) = FKind.maximumf.neutral .f32 hφ) (p : Fin 256) (k : Fin 8192) :
    broadcastTo S256x8192
        (divf (F := Ideal) (φ := .f32) (broadcast S256x1 (FloatOps.ofBits .f32 0x42FE0000#32))
          (maximumf (broadcast S256x1 (FloatOps.ofBits .f32 0x3727C5AC#32))
            (shapeCast S256x1
              (multiReduction .maximumf [1] S256 (absf v0) 0xFF800000#32 reduces_S256x8192_S256 hφ hacc)
              shapeCasts_S256_S256x1)))
        broadcasts_S256x1_S256x8192 (ix2 p k)
      = rowScale (fun j : Fin 8192 => v0 (ix2 p j)) := by
  refine (Cert.LibPlainDot.broadcastTo_a1_ab_apply _ broadcasts_S256x1_S256x8192 p k).trans ?_
  have hcast : shapeCast S256x1
      (multiReduction (F := Ideal) .maximumf [1] S256 (absf v0) 0xFF800000#32 reduces_S256x8192_S256 hφ hacc)
      shapeCasts_S256_S256x1 (ix2 p (0 : Fin 1)) = rowMax (fun j : Fin 8192 => v0 (ix2 p j)) := by
    refine (shapeCast_apply _ shapeCasts_S256_S256x1 (ix2 p (0 : Fin 1)) (ix1 p) ?_).trans (rowMax_read v0 hφ hacc p)
    rw [Shape.rowMajor_val_two, Shape.rowMajor_val_one]
    show p.val = p.val * 1 + 0
    omega
  rw [divf_apply, maximumf_apply, broadcast_apply, broadcast_apply, hcast]
  rfl

/-- Entry `(p, q)` of the block a point computes: row `p` of the hidden block, quantised against its own largest
    magnitude, against column `q` of the weight block. -/
theorem block_product_apply (v0 : Vec Ideal S256x8192 .f32) (v19 : Vec Ideal S8192x512 .bf16) (p : Fin 256) (q : Fin 512) :
    k2_pay1 (F := Ideal) v0 v19 (ix2 p q) = dotQ (fun j : Fin 8192 => v0 (ix2 p j)) (fun j : Fin 8192 => v19 (ix2 j q)) := by
  unfold k2_pay1
  simp only [shapeCast_self]
  refine (Ideal.matmul_constant_zero_apply (φ₁ := .bf16) (φ₂ := .bf16) _ none _ _ (ix2 p q)).trans ?_
  refine (Cert.LibPlainDot.sum_plain dot_S256x8192_S8192x512_S256x512_1_0_0_1_n_n rfl rfl lhs_down_0 lhs_down_1 rhs_down_0 rhs_down_1 _ _ p q).trans ?_
  unfold dotQ
  refine Finset.sum_congr rfl fun k _ => ?_
  refine congrArg (· * v19 (ix2 k q)) ?_
  have hs := scale_read v0 (.inl rfl) rfl p k
  rw [truncf_apply, divf_apply, minimumf_apply, maximumf_apply, broadcast_apply, broadcast_apply, roundeven_read, mulf_apply, hs]
  rfl

/-! ## From the blocks to the array -/

theorem zeros2 : (![0, 0] : Fin 2 → Nat) = fun _ => 0 := funext fun a => by fin_cases a <;> rfl

/-- The windows' index maps over the grid: the hidden block moves with the result's rows and starts at column 0; the
    weight block starts at row 0 and moves with the result's columns; the result's block indices stay in range. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 15 ∧ win2_2.index t (1 : Fin 2) ≤ 3 :=
  (by decide +kernel : ∀ t : Fin grid2.N, _)

/-- Every block of the result is some point's. -/
theorem index_onto : ∀ (q0 : Fin 16) (q1 : Fin 4), ∃ t : Fin cfg2.N, win2_2.index t = ![q0.val, q1.val] :=
  (by decide +kernel : ∀ (q0 : Fin 16) (q1 : Fin 4), ∃ t : Fin grid2.N, win2_2.index t = ![q0.val, q1.val])

/-- What point `t` writes back is its block of the array of products. -/
theorem flushed_down (c : Dev nD) (t : Fin cfg2.N) :
    (dat2 (F := Ideal) V c).flushed 2 t
      = ((cfg2.win 2).blk t).view.read (Elt Ideal) (down (V c main_v42) (V c main_v39)) := by
  show (cfg2.win 2).cut (grid2.coords t) ((dat2 V c).after 2 t) = _
  rw [after2_2]
  unfold out2_2
  rw [View.canon_unit_zero zeros2]
  simp only [View.ld_unit_zero (S := S256x8192) zeros2, View.ld_unit_zero (S := S8192x512) zeros2]
  obtain ⟨e0, e1, e2, e3, e4, e5⟩ := index_facts t
  refine funext fun (j : S256x512.Idx) => ?_
  obtain ⟨p, q, rfl⟩ : ∃ (p : Fin 256) (q : Fin 512), j = ix2 p q := ⟨j 0, j 1, eq_ix2 j⟩
  have hp := p.isLt
  have hq := q.isLt
  show k2_pay1 (iblk2 V c 0 t) (iblk2 V c 1 t) (ix2 p q)
    = down (V c main_v42) (V c main_v39) (((cfg2.win 2).blk t).view.emb (ix2 p q))
  refine (block_product_apply (iblk2 V c 0 t) (iblk2 V c 1 t) p q).trans ?_
  have hemb : ((cfg2.win 2).blk t).view.emb (ix2 p q)
      = (ix2 (⟨win2_2.index t (0 : Fin 2) * 256 + p.val, by omega⟩ : Fin 4096)
          (⟨win2_2.index t (1 : Fin 2) * 512 + q.val, by omega⟩ : Fin 2048) : S4096x2048.Idx) :=
    funext fun a => Fin.ext (by
      match a with
      | ⟨0, _⟩ => show win2_2.index t (0 : Fin 2) * 256 + 1 * p.val = win2_2.index t (0 : Fin 2) * 256 + p.val; omega
      | ⟨1, _⟩ => show win2_2.index t (1 : Fin 2) * 512 + 1 * q.val = win2_2.index t (1 : Fin 2) * 512 + q.val; omega)
  refine Eq.trans ?_ (congrArg (down (V c main_v42) (V c main_v39)) hemb.symm)
  have hrow : (fun j : Fin 8192 => iblk2 V c 0 t (ix2 p j))
      = fun j : Fin 8192 => V c main_v42 (ix2 (⟨win2_2.index t (0 : Fin 2) * 256 + p.val, by omega⟩ : Fin 4096) j) :=
    funext fun j => by
      have hj := j.isLt
      show V c main_v42 (((cfg2.win 0).blk t).view.emb (ix2 p j)) = _
      refine congrArg (V c main_v42) (funext fun a => Fin.ext ?_)
      match a with
      | ⟨0, _⟩ => show win2_0.index t (0 : Fin 2) * 256 + 1 * p.val = win2_2.index t (0 : Fin 2) * 256 + p.val; omega
      | ⟨1, _⟩ => show win2_0.index t (1 : Fin 2) * 8192 + 1 * j.val = j.val; omega
  have hcol : (fun j : Fin 8192 => iblk2 V c 1 t (ix2 j q))
      = fun j : Fin 8192 => V c main_v39 (ix2 j (⟨win2_2.index t (1 : Fin 2) * 512 + q.val, by omega⟩ : Fin 2048)) :=
    funext fun j => by
      have hj := j.isLt
      show V c main_v39 (((cfg2.win 1).blk t).view.emb (ix2 j q)) = _
      refine congrArg (V c main_v39) (funext fun a => Fin.ext ?_)
      match a with
      | ⟨0, _⟩ => show win2_1.index t (0 : Fin 2) * 8192 + 1 * j.val = j.val; omega
      | ⟨1, _⟩ => show win2_1.index t (1 : Fin 2) * 512 + 1 * q.val = win2_2.index t (1 : Fin 2) * 512 + q.val; omega
  exact congrArg₂ dotQ hrow hcol

/-- An index of the result is in point `t`'s block iff each coordinate is in the block's range on its axis. -/
theorem mem_block (t : Fin cfg2.N) (i : S4096x2048.Idx) :
    i ∈ ((cfg2.win 2).blk t).view.set ↔ ∀ a : Fin 2, win2_2.index t a * S256x512.size a ≤ (i a).val ∧ (i a).val < win2_2.index t a * S256x512.size a + S256x512.size a := by
  show i ∈ ((View.whole main_v43).slice (win2_2.rect t)).set ↔ _
  rw [View.set_slice_whole, Rect.mem_set_unit]
  exact Iff.rfl

/-- The 64 blocks tile the result: every index lies in the block of the point at its row over 256 and column over 512. -/
theorem covered (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := index_onto ⟨(i 0).val / 256, by omega⟩ ⟨(i 1).val / 512, by omega⟩
  have q0 : win2_2.index t (0 : Fin 2) = (i 0).val / 256 := congrFun ht 0
  have q1 : win2_2.index t (1 : Fin 2) = (i 1).val / 512 := congrFun ht 1
  refine ⟨t, flush2_2 t, ?_⟩
  rw [mem_block]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 512 ≤ (i 1).val ∧ (i 1).val < win2_2.index t (1 : Fin 2) * 512 + 512; omega

/-- After the launch the result array holds every token's quantised hidden row against every column of the third weight. -/
theorem down_array (c : Dev nD) :
    (dat2 (F := Ideal) V c).arrAt 2 cfg2.N = down (V c main_v42) (V c main_v39) :=
  (dat2 (F := Ideal) V c).arrAt_eq_of_cover 2 (down (V c main_v42) (V c main_v39))
    (fun t _ => flushed_down V c t) covered

end Cert.KValue.Region2

end
-- ==== Proof.KValue.lean ====
/-
  The kernel's result, composed. The host lines flatten the input and quantise and transpose the three weights; the
  first launch writes the two projections; a host line lays the scale vector as a row; the second launch writes the
  hidden activations; the third launch writes the flat result; the last host line reads it back as batch by sequence
  by width. A buffer that a stretch or a launch does not write is carried over unchanged. Composed, the result array is
  `pipeline` of the five arguments.
-/
import proofs.«159768_j74139725463734_1_alg».proof.Proof.Gen.KernelIdeal.Frame
import proofs.«159768_j74139725463734_1_alg».proof.Proof.Arrays
import proofs.«159768_j74139725463734_1_alg».proof.Proof.KHost
import proofs.«159768_j74139725463734_1_alg».proof.Proof.KReg0
import proofs.«159768_j74139725463734_1_alg».proof.Proof.KReg1
import proofs.«159768_j74139725463734_1_alg».proof.Proof.KReg2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec Cert.Arrays

variable (m : (ℓ : Loc nD τ sig) → Buf (Elt Ideal) ℓ) (ρ : Dev nD → PrngReg)

/-! ## The two casts of the host lines, read at an index -/

/-- A vector of 8192 entries cast to one row reads, at (0, j), its entry j. -/
theorem cast_asRow (x : Vec8192.Idx → EReal) (h : Vec8192.ShapeCasts OneRow) : shapeCast OneRow x h = asRow x := by
  funext i
  unfold asRow
  refine shapeCast_apply x h i (ix1 (i 1)) ?_
  rw [Shape.rowMajor_val_one, Shape.rowMajor_val_two]
  have h0 : (i 0).val < 1 := (i 0).isLt
  show (i 1).val = (i 0).val * 8192 + (i 1).val
  omega

/-- The flat result cast to batch by sequence by width reads, at (b, s, c), row 2048 b + s at column c. -/
theorem cast_unflatten (y : Tok.Idx → EReal) (h : Tok.ShapeCasts In3) : shapeCast In3 y h = unflatten y := by
  funext i
  unfold unflatten
  refine shapeCast_apply y h i _ ?_
  rw [Shape.rowMajor_val_two, Shape.rowMajor_val_three]
  rfl

/-! ## Buffers carried over a stretch or a launch that does not write them -/

/-- The scale vector reaches the second host stretch as launched. -/
theorem scale_at_20 (c : Dev nD) :
    W20 (F := Ideal) m ρ c (Proc.devRef .tc main_arg4) = m ((c : Thread nD τ).loc main_arg4) := by
  have e24 := W24_main_arg4 (F := Ideal) m ρ c
  have s1 : W24 (F := Ideal) m ρ c (Proc.devRef .tc main_arg4) = W23 m ρ c (Proc.devRef .tc main_arg4) :=
    StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have s2 : W23 (F := Ideal) m ρ c (Proc.devRef .tc main_arg4) = W22 m ρ c (Proc.devRef .tc main_arg4) :=
    W23_of_ne m ρ c main_arg4 (by decide)
  have s3 : W22 (F := Ideal) m ρ c (Proc.devRef .tc main_arg4) = W21 m ρ c (Proc.devRef .tc main_arg4) :=
    W22_of_ne m ρ c main_arg4 (by decide)
  have s4 : W21 (F := Ideal) m ρ c (Proc.devRef .tc main_arg4) = W20 m ρ c (Proc.devRef .tc main_arg4) :=
    StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  rw [← s4, ← s3, ← s2, ← s1]; exact e24

/-- The third weight, quantised and transposed before the first launch, reaches the third launch unchanged. -/
theorem down_weight_at_22 (c : Dev nD) :
    V22 (F := Ideal) m ρ c main_v39 = V19 m ρ c main_v39 := by
  have s3 : W22 (F := Ideal) m ρ c (Proc.devRef .tc main_v39) = W21 m ρ c (Proc.devRef .tc main_v39) :=
    W22_of_ne m ρ c main_v39 (by decide)
  have s4 : W21 (F := Ideal) m ρ c (Proc.devRef .tc main_v39) = W20 m ρ c (Proc.devRef .tc main_v39) :=
    StableHlo.after_of_forall_not_mem (b := Proc.devRef .tc main_v39) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have s5 : W20 (F := Ideal) m ρ c (Proc.devRef .tc main_v39) = W19 m ρ c (Proc.devRef .tc main_v39) :=
    W20_of_ne m ρ c main_v39 (by decide)
  exact s3.trans (s4.trans s5)

/-- The first projection, as the first launch leaves it, reaches the second launch unchanged. -/
theorem gate_at_21 (c : Dev nD) :
    V21 (F := Ideal) m ρ c main_v40_0 = (dat0 (F := Ideal) (V19 m ρ) c).arrAt 3 cfg0.N := by
  have s4 : W21 (F := Ideal) m ρ c (Proc.devRef .tc main_v40_0) = W20 m ρ c (Proc.devRef .tc main_v40_0) :=
    StableHlo.after_of_forall_not_mem (b := Proc.devRef .tc main_v40_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact s4.trans (W20_arr m ρ c 3)

/-- The second projection likewise. -/
theorem up_at_21 (c : Dev nD) :
    V21 (F := Ideal) m ρ c main_v40_1 = (dat0 (F := Ideal) (V19 m ρ) c).arrAt 4 cfg0.N := by
  have s4 : W21 (F := Ideal) m ρ c (Proc.devRef .tc main_v40_1) = W20 m ρ c (Proc.devRef .tc main_v40_1) :=
    StableHlo.after_of_forall_not_mem (b := Proc.devRef .tc main_v40_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact s4.trans (W20_arr m ρ c 4)

/-- The scale vector laid as a row by the host line between the first two launches. -/
theorem scale_row_at_21 (c : Dev nD) :
    V21 (F := Ideal) m ρ c main_v41 = asRow (m ((c : Thread nD τ).loc main_arg4)) := by
  have h : V21 (F := Ideal) m ρ c main_v41 = asRow (W20 (F := Ideal) m ρ c (Proc.devRef .tc main_arg4)) := by
    show StableHlo.after hostOps1 (W20 m ρ c) (Proc.devRef .tc main_v41) = _
    after_results
    exact cast_asRow (W20 (F := Ideal) m ρ c (Proc.devRef .tc main_arg4)) shapeCasts_S8192_S1x8192
  rw [h, scale_at_20]

/-- The last host line reads the flat result back as batch by sequence by width. -/
theorem result_at_24 (c : Dev nD) :
    W24 (F := Ideal) m ρ c (Proc.devRef .tc main_v44) = unflatten (W23 (F := Ideal) m ρ c (Proc.devRef .tc main_v43)) := by
  show StableHlo.after hostOps3 (W23 m ρ c) (Proc.devRef .tc main_v44) = _
  after_results
  exact cast_unflatten (W23 (F := Ideal) m ρ c (Proc.devRef .tc main_v43)) shapeCasts_S4096x2048_S2x2048x2048

/-! ## The composition -/

/-- THE KERNEL'S RESULT at the last boundary is `pipeline` of the five arguments. -/
theorem result_eq (c : Dev nD) :
    W24 (F := Ideal) m ρ c (Proc.devRef .tc main_v44)
      = pipeline (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_at_24]
  have h23 : W23 (F := Ideal) m ρ c (Proc.devRef .tc main_v43) = (dat2 (F := Ideal) (V22 m ρ) c).arrAt 2 cfg2.N :=
    W23_arr m ρ c 2
  have h22 : V22 (F := Ideal) m ρ c main_v42 = (dat1 (F := Ideal) (V21 m ρ) c).arrAt 3 cfg1.N :=
    W22_arr m ρ c 3
  rw [h23, Region2.down_array (V22 m ρ) c, h22, Region1.hidden_array (V21 m ρ) c, down_weight_at_22,
    Host.down_weight_entry, gate_at_21, up_at_21, Region0.gate_array (V19 m ρ) c, Region0.up_array (V19 m ρ) c,
    Host.tokens_entry, Host.gate_weight_entry, Host.up_weight_entry, scale_row_at_21]
  rfl

end Cert.KValue

end
-- ==== Proof.RefFoldArgs.lean ====
/-
  The reference writes none of its five arguments: each of its 182 host operations writes a buffer of its own, so the
  fold of the operations over the launch contents, read at an argument, is the launch contents.
-/
import proofs.«159768_j74139725463734_1_alg».proof.Proof.RefRun
import Idealize.ShloMosaic.Lib.StableHlo.Run

noncomputable section

namespace Cert.ReferenceIdeal.FoldArgs

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! Each of the five proofs is the same: every operation of the list writes one buffer, its result, and that buffer is
    not the argument (the two references are told apart by computation), so the argument keeps its launch contents
    through the whole fold. -/

set_option maxRecDepth 8192 in
/-- No operation writes argument 0: the fold leaves it as launched. -/
theorem arg0_fold (m : (ℓ : Loc nD τ sig) → Buf (Elt F) ℓ) (c : Dev nD) :
    after (ops (F := F)) (launchContents m c) (Proc.devRef .tc main_arg0) = m ((c.tc : Thread nD τ).loc main_arg0) := by
  refine (after_of_forall_not_mem (b := Proc.devRef .tc main_arg0) _ _ (List.forall_iff_forall_mem.mp ?_)).trans rfl
  simp only [ops, List.Forall, nullary_writes, unary_writes, binary_writes, Finset.mem_singleton]
  repeat' apply And.intro
  all_goals exact devRef_ne_of_ne (by decide)

set_option maxRecDepth 8192 in
/-- No operation writes argument 1: the fold leaves it as launched. -/
theorem arg1_fold (m : (ℓ : Loc nD τ sig) → Buf (Elt F) ℓ) (c : Dev nD) :
    after (ops (F := F)) (launchContents m c) (Proc.devRef .tc main_arg1) = m ((c.tc : Thread nD τ).loc main_arg1) := by
  refine (after_of_forall_not_mem (b := Proc.devRef .tc main_arg1) _ _ (List.forall_iff_forall_mem.mp ?_)).trans rfl
  simp only [ops, List.Forall, nullary_writes, unary_writes, binary_writes, Finset.mem_singleton]
  repeat' apply And.intro
  all_goals exact devRef_ne_of_ne (by decide)

set_option maxRecDepth 8192 in
/-- No operation writes argument 2: the fold leaves it as launched. -/
theorem arg2_fold (m : (ℓ : Loc nD τ sig) → Buf (Elt F) ℓ) (c : Dev nD) :
    after (ops (F := F)) (launchContents m c) (Proc.devRef .tc main_arg2) = m ((c.tc : Thread nD τ).loc main_arg2) := by
  refine (after_of_forall_not_mem (b := Proc.devRef .tc main_arg2) _ _ (List.forall_iff_forall_mem.mp ?_)).trans rfl
  simp only [ops, List.Forall, nullary_writes, unary_writes, binary_writes, Finset.mem_singleton]
  repeat' apply And.intro
  all_goals exact devRef_ne_of_ne (by decide)

set_option maxRecDepth 8192 in
/-- No operation writes argument 3: the fold leaves it as launched. -/
theorem arg3_fold (m : (ℓ : Loc nD τ sig) → Buf (Elt F) ℓ) (c : Dev nD) :
    after (ops (F := F)) (launchContents m c) (Proc.devRef .tc main_arg3) = m ((c.tc : Thread nD τ).loc main_arg3) := by
  refine (after_of_forall_not_mem (b := Proc.devRef .tc main_arg3) _ _ (List.forall_iff_forall_mem.mp ?_)).trans rfl
  simp only [ops, List.Forall, nullary_writes, unary_writes, binary_writes, Finset.mem_singleton]
  repeat' apply And.intro
  all_goals exact devRef_ne_of_ne (by decide)

set_option maxRecDepth 8192 in
/-- No operation writes argument 4: the fold leaves it as launched. -/
theorem arg4_fold (m : (ℓ : Loc nD τ sig) → Buf (Elt F) ℓ) (c : Dev nD) :
    after (ops (F := F)) (launchContents m c) (Proc.devRef .tc main_arg4) = m ((c.tc : Thread nD τ).loc main_arg4) := by
  refine (after_of_forall_not_mem (b := Proc.devRef .tc main_arg4) _ _ (List.forall_iff_forall_mem.mp ?_)).trans rfl
  simp only [ops, List.Forall, nullary_writes, unary_writes, binary_writes, Finset.mem_singleton]
  repeat' apply And.intro
  all_goals exact devRef_ne_of_ne (by decide)

end Cert.ReferenceIdeal.FoldArgs

end
-- ==== Proof.RefFold.lean ====
/-
  The reference's run, read. Its @main is a straight line of 182 host operations, so every execution ends with each
  buffer at the fold of the operations over the launch contents. The operations are cut into eight stretches; each
  stretch, read at any contents, leaves in the buffer the later stretches read that buffer's stage of the chain of
  stages, each the operation's function of the stages before it; folded from the launch memory, the result buffer holds
  the last stage. No operation writes an argument.
-/
import proofs.«159768_j74139725463734_1_alg».proof.Proof.RefRun
import proofs.«159768_j74139725463734_1_alg».proof.Proof.RefRead
import proofs.«159768_j74139725463734_1_alg».proof.Proof.RefFoldArgs
import Idealize.ShloMosaic.Lib.StableHlo.Run
import Idealize.ShloMosaic.Lib.Pipeline.Frame

noncomputable section

namespace Cert.ReferenceIdeal.Fold

open Cert.ReferenceIdeal Cert.ReferenceIdeal.Gen Cert.ReferenceIdeal.ValueP Cert.ReferenceIdeal.ReadP
open Cert.ReferenceIdeal.FoldArgs
open Idealize.ShloMosaic Idealize.ShloMosaic.TcCoe Idealize.SL.Sem Idealize.ShloMosaic.StableHlo

variable {F : FTy → Type} [FloatOps F]

/-! ## The operations in eight stretches

The same 182 operations, in order, cut where few buffers are live. A called function's operations are written here with
the plain builders: an operation spelt over typed references is the plain operation at the same buffers, its function
moved along type equations that are identities at these literal references. -/

/-- Stretch 1, 26 operations: the input with each row quantised to eight bits (13 lines and the two clamps). -/
abbrev c1 : List (HloOp τ sig (Elt F)) :=
  [ unary main_arg0 main_v0 (Host.absf : (⟨S2x2048x2048, .f32⟩ : BufTy).Contents (Elt F) → (⟨S2x2048x2048, .f32⟩ : BufTy).Contents (Elt F)),
    nullary main_cst (constant S_ .f32 0xFF800000#32),
    binary main_v0 main_cst main_v1 ((fun x v => Host.reduce FloatOps.maximumf x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v1 main_v2 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S2x2048x1 ![] bcast_S_S2x2048x1) : (⟨S_, .f32⟩ : BufTy).Contents (Elt F) → (⟨S2x2048x1, .f32⟩ : BufTy).Contents (Elt F)),
    binary main_call0_v1 main_v2 main_v3 (maximumf : (⟨S2x2048x1, .f32⟩ : BufTy).Contents (Elt F) → (⟨S2x2048x1, .f32⟩ : BufTy).Contents (Elt F) → (⟨S2x2048x1, .f32⟩ : BufTy).Contents (Elt F)),
    nullary main_cst_1 (constant S_ .f32 0x42FE0000#32),
    unary main_cst_1 main_v4 (broadcastInDim S2x2048x1 ![] bcast_S_S2x2048x1 : (⟨S_, .f32⟩ : BufTy).Contents (Elt F) → (⟨S2x2048x1, .f32⟩ : BufTy).Contents (Elt F)),
    binary main_v4 main_v3 main_v5 (Host.divf : (⟨S2x2048x1, .f32⟩ : BufTy).Contents (Elt F) → (⟨S2x2048x1, .f32⟩ : BufTy).Contents (Elt F) → (⟨S2x2048x1, .f32⟩ : BufTy).Contents (Elt F)),
    unary main_v5 main_v6 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v6 main_v7 (mulf : (⟨S2x2048x2048, .f32⟩ : BufTy).Contents (Elt F) → (⟨S2x2048x2048, .f32⟩ : BufTy).Contents (Elt F) → (⟨S2x2048x2048, .f32⟩ : BufTy).Contents (Elt F)),
    unary main_v7 main_v8 (Host.roundeven : (⟨S2x2048x2048, .f32⟩ : BufTy).Contents (Elt F) → (⟨S2x2048x2048, .f32⟩ : BufTy).Contents (Elt F)),
    nullary main_c (constantI S_ 32 4294967168#32),
    nullary main_c_2 (constantI S_ 32 127#32),
    unary main_c main_call2_v0 ((sitofp .f32) : (⟨S_, .i32⟩ : BufTy).Contents (Elt F) → (⟨S_, .f32⟩ : BufTy).Contents (Elt F)),
    unary main_call2_v0 main_call2_v1 ((broadcastInDim S2x2048x2048 ![] bcast_S_S2x2048x2048) : (⟨S_, .f32⟩ : BufTy).Contents (Elt F) → (⟨S2x2048x2048, .f32⟩ : BufTy).Contents (Elt F)),
    binary main_call2_v1 main_v8 main_call2_v2 (maximumf : (⟨S2x2048x2048, .f32⟩ : BufTy).Contents (Elt F) → (⟨S2x2048x2048, .f32⟩ : BufTy).Contents (Elt F) → (⟨S2x2048x2048, .f32⟩ : BufTy).Contents (Elt F)),
    unary main_c_2 main_call2_v3 ((sitofp .f32) : (⟨S_, .i32⟩ : BufTy).Contents (Elt F) → (⟨S_, .f32⟩ : BufTy).Contents (Elt F)),
    unary main_call2_v3 main_call2_v4 ((broadcastInDim S2x2048x2048 ![] bcast_S_S2x2048x2048) : (⟨S_, .f32⟩ : BufTy).Contents (Elt F) → (⟨S2x2048x2048, .f32⟩ : BufTy).Contents (Elt F)),
    binary main_call2_v4 main_call2_v2 main_v9 (minimumf : (⟨S2x2048x2048, .f32⟩ : BufTy).Contents (Elt F) → (⟨S2x2048x2048, .f32⟩ : BufTy).Contents (Elt F) → (⟨S2x2048x2048, .f32⟩ : BufTy).Contents (Elt F)),
    unary main_v5 main_v10 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v9 main_v10 main_v11 (Host.divf : (⟨S2x2048x2048, .f32⟩ : BufTy).Contents (Elt F) → (⟨S2x2048x2048, .f32⟩ : BufTy).Contents (Elt F) → (⟨S2x2048x2048, .f32⟩ : BufTy).Contents (Elt F)),
    binary main_v11 main_arg0 main_v12 (subf : (⟨S2x2048x2048, .f32⟩ : BufTy).Contents (Elt F) → (⟨S2x2048x2048, .f32⟩ : BufTy).Contents (Elt F) → (⟨S2x2048x2048, .f32⟩ : BufTy).Contents (Elt F)),
    binary main_arg0 main_v12 main_v13 (addf : (⟨S2x2048x2048, .f32⟩ : BufTy).Contents (Elt F) → (⟨S2x2048x2048, .f32⟩ : BufTy).Contents (Elt F) → (⟨S2x2048x2048, .f32⟩ : BufTy).Contents (Elt F)) ]

/-- Stretch 2, 26 operations: the first weight quantised to three levels, and the first product. -/
abbrev c2 : List (HloOp τ sig (Elt F)) :=
  [ unary main_arg1 main_v14 (Host.absf : (⟨S8192x2048, .f32⟩ : BufTy).Contents (Elt F) → (⟨S8192x2048, .f32⟩ : BufTy).Contents (Elt F)),
    nullary main_cst_3 (constant S_ .f32 0x00000000#32),
    binary main_v14 main_cst_3 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_4 (constant S_ .f32 0x4B800000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    unary main_cst_5 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    unary main_v20 main_v21 (Host.roundeven : (⟨S8192x2048, .f32⟩ : BufTy).Contents (Elt F) → (⟨S8192x2048, .f32⟩ : BufTy).Contents (Elt F)),
    nullary main_cst_7 (constant S_ .f32 0xBF800000#32),
    nullary main_cst_8 (constant S_ .f32 0x3F800000#32),
    unary main_cst_7 main_call5_v0 (id : (⟨S_, .f32⟩ : BufTy).Contents (Elt F) → (⟨S_, .f32⟩ : BufTy).Contents (Elt F)),
    unary main_call5_v0 main_call5_v1 ((broadcastInDim S8192x2048 ![] bcast_S_S8192x2048) : (⟨S_, .f32⟩ : BufTy).Contents (Elt F) → (⟨S8192x2048, .f32⟩ : BufTy).Contents (Elt F)),
    binary main_call5_v1 main_v21 main_call5_v2 (maximumf : (⟨S8192x2048, .f32⟩ : BufTy).Contents (Elt F) → (⟨S8192x2048, .f32⟩ : BufTy).Contents (Elt F) → (⟨S8192x2048, .f32⟩ : BufTy).Contents (Elt F)),
    unary main_cst_8 main_call5_v3 (id : (⟨S_, .f32⟩ : BufTy).Contents (Elt F) → (⟨S_, .f32⟩ : BufTy).Contents (Elt F)),
    unary main_call5_v3 main_call5_v4 ((broadcastInDim S8192x2048 ![] bcast_S_S8192x2048) : (⟨S_, .f32⟩ : BufTy).Contents (Elt F) → (⟨S8192x2048, .f32⟩ : BufTy).Contents (Elt F)),
    binary main_call5_v4 main_call5_v2 main_v22 (minimumf : (⟨S8192x2048, .f32⟩ : BufTy).Contents (Elt F) → (⟨S8192x2048, .f32⟩ : BufTy).Contents (Elt F) → (⟨S8192x2048, .f32⟩ : BufTy).Contents (Elt F)),
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)),
    binary main_v13 main_v26 main_v27 ((fun l r => Host.dotGeneral dot_S2x2048x2048_S8192x2048_S2x2048x8192_2_1_01_0_n_n none l r) : (⟨S2x2048x2048, .f32⟩ : BufTy).Contents (Elt F) → (⟨S8192x2048, .f32⟩ : BufTy).Contents (Elt F) → (⟨S2x2048x8192, .f32⟩ : BufTy).Contents (Elt F)) ]

/-- Stretch 3, 9 operations: the gate: the first product times its logistic. -/
abbrev c3 : List (HloOp τ sig (Elt F)) :=
  [ unary main_v27 main_call6_v0 (Host.negf : (⟨S2x2048x8192, .f32⟩ : BufTy).Contents (Elt F) → (⟨S2x2048x8192, .f32⟩ : BufTy).Contents (Elt F)),
    unary main_call6_v0 main_call6_v1 (Host.exp : (⟨S2x2048x8192, .f32⟩ : BufTy).Contents (Elt F) → (⟨S2x2048x8192, .f32⟩ : BufTy).Contents (Elt F)),
    nullary main_call6_cst ((constant S_ .f32 0x3F800000#32) : (⟨S_, .f32⟩ : BufTy).Contents (Elt F)),
    unary main_call6_cst main_call6_v2 ((broadcastInDim S2x2048x8192 ![] bcast_S_S2x2048x8192) : (⟨S_, .f32⟩ : BufTy).Contents (Elt F) → (⟨S2x2048x8192, .f32⟩ : BufTy).Contents (Elt F)),
    binary main_call6_v2 main_call6_v1 main_call6_v3 (addf : (⟨S2x2048x8192, .f32⟩ : BufTy).Contents (Elt F) → (⟨S2x2048x8192, .f32⟩ : BufTy).Contents (Elt F) → (⟨S2x2048x8192, .f32⟩ : BufTy).Contents (Elt F)),
    nullary main_call6_cst_0 ((constant S_ .f32 0x3F800000#32) : (⟨S_, .f32⟩ : BufTy).Contents (Elt F)),
    unary main_call6_cst_0 main_call6_v4 ((broadcastInDim S2x2048x8192 ![] bcast_S_S2x2048x8192) : (⟨S_, .f32⟩ : BufTy).Contents (Elt F) → (⟨S2x2048x8192, .f32⟩ : BufTy).Contents (Elt F)),
    binary main_call6_v4 main_call6_v3 main_call6_v5 (Host.divf : (⟨S2x2048x8192, .f32⟩ : BufTy).Contents (Elt F) → (⟨S2x2048x8192, .f32⟩ : BufTy).Contents (Elt F) → (⟨S2x2048x8192, .f32⟩ : BufTy).Contents (Elt F)),
    binary main_v27 main_call6_v5 main_v28 (mulf : (⟨S2x2048x8192, .f32⟩ : BufTy).Contents (Elt F) → (⟨S2x2048x8192, .f32⟩ : BufTy).Contents (Elt F) → (⟨S2x2048x8192, .f32⟩ : BufTy).Contents (Elt F)) ]

/-- Stretch 4, 26 operations: the input with each row quantised, again. -/
abbrev c4 : List (HloOp τ sig (Elt F)) :=
  [ unary main_arg0 main_v29 (Host.absf : (⟨S2x2048x2048, .f32⟩ : BufTy).Contents (Elt F) → (⟨S2x2048x2048, .f32⟩ : BufTy).Contents (Elt F)),
    nullary main_cst_9 (constant S_ .f32 0xFF800000#32),
    binary main_v29 main_cst_9 main_v30 ((fun x v => Host.reduce FloatOps.maximumf x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v30 main_v31 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_10 (constant S_ .f32 0x3727C5AC#32),
    unary main_cst_10 main_call7_v0 (id : (⟨S_, .f32⟩ : BufTy).Contents (Elt F) → (⟨S_, .f32⟩ : BufTy).Contents (Elt F)),
    unary main_call7_v0 main_call7_v1 ((broadcastInDim S2x2048x1 ![] bcast_S_S2x2048x1) : (⟨S_, .f32⟩ : BufTy).Contents (Elt F) → (⟨S2x2048x1, .f32⟩ : BufTy).Contents (Elt F)),
    binary main_call7_v1 main_v31 main_v32 (maximumf : (⟨S2x2048x1, .f32⟩ : BufTy).Contents (Elt F) → (⟨S2x2048x1, .f32⟩ : BufTy).Contents (Elt F) → (⟨S2x2048x1, .f32⟩ : BufTy).Contents (Elt F)),
    nullary main_cst_11 (constant S_ .f32 0x42FE0000#32),
    unary main_cst_11 main_v33 (broadcastInDim S2x2048x1 ![] bcast_S_S2x2048x1 : (⟨S_, .f32⟩ : BufTy).Contents (Elt F) → (⟨S2x2048x1, .f32⟩ : BufTy).Contents (Elt F)),
    binary main_v33 main_v32 main_v34 (Host.divf : (⟨S2x2048x1, .f32⟩ : BufTy).Contents (Elt F) → (⟨S2x2048x1, .f32⟩ : BufTy).Contents (Elt F) → (⟨S2x2048x1, .f32⟩ : BufTy).Contents (Elt F)),
    unary main_v34 main_v35 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v35 main_v36 (mulf : (⟨S2x2048x2048, .f32⟩ : BufTy).Contents (Elt F) → (⟨S2x2048x2048, .f32⟩ : BufTy).Contents (Elt F) → (⟨S2x2048x2048, .f32⟩ : BufTy).Contents (Elt F)),
    unary main_v36 main_v37 (Host.roundeven : (⟨S2x2048x2048, .f32⟩ : BufTy).Contents (Elt F) → (⟨S2x2048x2048, .f32⟩ : BufTy).Contents (Elt F)),
    nullary main_c_12 (constantI S_ 32 4294967168#32),
    nullary main_c_13 (constantI S_ 32 127#32),
    unary main_c_12 main_call9_v0 ((sitofp .f32) : (⟨S_, .i32⟩ : BufTy).Contents (Elt F) → (⟨S_, .f32⟩ : BufTy).Contents (Elt F)),
    unary main_call9_v0 main_call9_v1 ((broadcastInDim S2x2048x2048 ![] bcast_S_S2x2048x2048) : (⟨S_, .f32⟩ : BufTy).Contents (Elt F) → (⟨S2x2048x2048, .f32⟩ : BufTy).Contents (Elt F)),
    binary main_call9_v1 main_v37 main_call9_v2 (maximumf : (⟨S2x2048x2048, .f32⟩ : BufTy).Contents (Elt F) → (⟨S2x2048x2048, .f32⟩ : BufTy).Contents (Elt F) → (⟨S2x2048x2048, .f32⟩ : BufTy).Contents (Elt F)),
    unary main_c_13 main_call9_v3 ((sitofp .f32) : (⟨S_, .i32⟩ : BufTy).Contents (Elt F) → (⟨S_, .f32⟩ : BufTy).Contents (Elt F)),
    unary main_call9_v3 main_call9_v4 ((broadcastInDim S2x2048x2048 ![] bcast_S_S2x2048x2048) : (⟨S_, .f32⟩ : BufTy).Contents (Elt F) → (⟨S2x2048x2048, .f32⟩ : BufTy).Contents (Elt F)),
    binary main_call9_v4 main_call9_v2 main_v38 (minimumf : (⟨S2x2048x2048, .f32⟩ : BufTy).Contents (Elt F) → (⟨S2x2048x2048, .f32⟩ : BufTy).Contents (Elt F) → (⟨S2x2048x2048, .f32⟩ : BufTy).Contents (Elt F)),
    unary main_v34 main_v39 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v38 main_v39 main_v40 (Host.divf : (⟨S2x2048x2048, .f32⟩ : BufTy).Contents (Elt F) → (⟨S2x2048x2048, .f32⟩ : BufTy).Contents (Elt F) → (⟨S2x2048x2048, .f32⟩ : BufTy).Contents (Elt F)),
    binary main_v40 main_arg0 main_v41 (subf : (⟨S2x2048x2048, .f32⟩ : BufTy).Contents (Elt F) → (⟨S2x2048x2048, .f32⟩ : BufTy).Contents (Elt F) → (⟨S2x2048x2048, .f32⟩ : BufTy).Contents (Elt F)),
    binary main_arg0 main_v41 main_v42 (addf : (⟨S2x2048x2048, .f32⟩ : BufTy).Contents (Elt F) → (⟨S2x2048x2048, .f32⟩ : BufTy).Contents (Elt F) → (⟨S2x2048x2048, .f32⟩ : BufTy).Contents (Elt F)) ]

/-- Stretch 5, 27 operations: the second weight quantised, the second product, and the gated product. -/
abbrev c5 : List (HloOp τ sig (Elt F)) :=
  [ unary main_arg2 main_v43 (Host.absf : (⟨S8192x2048, .f32⟩ : BufTy).Contents (Elt F) → (⟨S8192x2048, .f32⟩ : BufTy).Contents (Elt F)),
    nullary main_cst_14 (constant S_ .f32 0x00000000#32),
    binary main_v43 main_cst_14 main_v44 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_15 (constant S_ .f32 0x4B800000#32),
    binary main_v44 main_cst_15 main_v45 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    unary main_cst_16 main_call10_v0 (id : (⟨S_, .f32⟩ : BufTy).Contents (Elt F) → (⟨S_, .f32⟩ : BufTy).Contents (Elt F)),
    binary main_call10_v0 main_v45 main_v46 (maximumf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S8192x2048 ![] bcast_S_S8192x2048 : (⟨S_, .f32⟩ : BufTy).Contents (Elt F) → (⟨S8192x2048, .f32⟩ : BufTy).Contents (Elt F)),
    binary main_arg2 main_v48 main_v49 (mulf : (⟨S8192x2048, .f32⟩ : BufTy).Contents (Elt F) → (⟨S8192x2048, .f32⟩ : BufTy).Contents (Elt F) → (⟨S8192x2048, .f32⟩ : BufTy).Contents (Elt F)),
    unary main_v49 main_v50 (Host.roundeven : (⟨S8192x2048, .f32⟩ : BufTy).Contents (Elt F) → (⟨S8192x2048, .f32⟩ : BufTy).Contents (Elt F)),
    nullary main_cst_18 (constant S_ .f32 0xBF800000#32),
    nullary main_cst_19 (constant S_ .f32 0x3F800000#32),
    unary main_cst_18 main_call12_v0 (id : (⟨S_, .f32⟩ : BufTy).Contents (Elt F) → (⟨S_, .f32⟩ : BufTy).Contents (Elt F)),
    unary main_call12_v0 main_call12_v1 ((broadcastInDim S8192x2048 ![] bcast_S_S8192x2048) : (⟨S_, .f32⟩ : BufTy).Contents (Elt F) → (⟨S8192x2048, .f32⟩ : BufTy).Contents (Elt F)),
    binary main_call12_v1 main_v50 main_call12_v2 (maximumf : (⟨S8192x2048, .f32⟩ : BufTy).Contents (Elt F) → (⟨S8192x2048, .f32⟩ : BufTy).Contents (Elt F) → (⟨S8192x2048, .f32⟩ : BufTy).Contents (Elt F)),
    unary main_cst_19 main_call12_v3 (id : (⟨S_, .f32⟩ : BufTy).Contents (Elt F) → (⟨S_, .f32⟩ : BufTy).Contents (Elt F)),
    unary main_call12_v3 main_call12_v4 ((broadcastInDim S8192x2048 ![] bcast_S_S8192x2048) : (⟨S_, .f32⟩ : BufTy).Contents (Elt F) → (⟨S8192x2048, .f32⟩ : BufTy).Contents (Elt F)),
    binary main_call12_v4 main_call12_v2 main_v51 (minimumf : (⟨S8192x2048, .f32⟩ : BufTy).Contents (Elt F) → (⟨S8192x2048, .f32⟩ : BufTy).Contents (Elt F) → (⟨S8192x2048, .f32⟩ : BufTy).Contents (Elt F)),
    unary main_v47 main_v52 (broadcastInDim S8192x2048 ![] bcast_S_S8192x2048 : (⟨S_, .f32⟩ : BufTy).Contents (Elt F) → (⟨S8192x2048, .f32⟩ : BufTy).Contents (Elt F)),
    binary main_v51 main_v52 main_v53 (Host.divf : (⟨S8192x2048, .f32⟩ : BufTy).Contents (Elt F) → (⟨S8192x2048, .f32⟩ : BufTy).Contents (Elt F) → (⟨S8192x2048, .f32⟩ : BufTy).Contents (Elt F)),
    binary main_v53 main_arg2 main_v54 (subf : (⟨S8192x2048, .f32⟩ : BufTy).Contents (Elt F) → (⟨S8192x2048, .f32⟩ : BufTy).Contents (Elt F) → (⟨S8192x2048, .f32⟩ : BufTy).Contents (Elt F)),
    binary main_arg2 main_v54 main_v55 (addf : (⟨S8192x2048, .f32⟩ : BufTy).Contents (Elt F) → (⟨S8192x2048, .f32⟩ : BufTy).Contents (Elt F) → (⟨S8192x2048, .f32⟩ : BufTy).Contents (Elt F)),
    binary main_v42 main_v55 main_v56 ((fun l r => Host.dotGeneral dot_S2x2048x2048_S8192x2048_S2x2048x8192_2_1_01_0_n_n none l r) : (⟨S2x2048x2048, .f32⟩ : BufTy).Contents (Elt F) → (⟨S8192x2048, .f32⟩ : BufTy).Contents (Elt F) → (⟨S2x2048x8192, .f32⟩ : BufTy).Contents (Elt F)),
    binary main_v28 main_v56 main_v57 (mulf : (⟨S2x2048x8192, .f32⟩ : BufTy).Contents (Elt F) → (⟨S2x2048x8192, .f32⟩ : BufTy).Contents (Elt F) → (⟨S2x2048x8192, .f32⟩ : BufTy).Contents (Elt F)) ]

/-- Stretch 6, 16 operations: the gated product over the root of its mean square, scaled by the scale vector. -/
abbrev c6 : List (HloOp τ sig (Elt F)) :=
  [ binary main_v57 main_v57 main_v58 (mulf : (⟨S2x2048x8192, .f32⟩ : BufTy).Contents (Elt F) → (⟨S2x2048x8192, .f32⟩ : BufTy).Contents (Elt F) → (⟨S2x2048x8192, .f32⟩ : BufTy).Contents (Elt F)),
    nullary main_cst_20 (constant S_ .f32 0x00000000#32),
    binary main_v58 main_cst_20 main_v59 ((fun x v => Host.reduceAdd x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v59 main_v60 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_21 (constant S_ .f32 0x46000000#32),
    unary main_cst_21 main_v61 (broadcastInDim S2x2048x1 ![] bcast_S_S2x2048x1 : (⟨S_, .f32⟩ : BufTy).Contents (Elt F) → (⟨S2x2048x1, .f32⟩ : BufTy).Contents (Elt F)),
    binary main_v60 main_v61 main_v62 (Host.divf : (⟨S2x2048x1, .f32⟩ : BufTy).Contents (Elt F) → (⟨S2x2048x1, .f32⟩ : BufTy).Contents (Elt F) → (⟨S2x2048x1, .f32⟩ : BufTy).Contents (Elt F)),
    nullary main_cst_22 (constant S_ .f32 0x358637BD#32),
    unary main_cst_22 main_v63 (broadcastInDim S2x2048x1 ![] bcast_S_S2x2048x1 : (⟨S_, .f32⟩ : BufTy).Contents (Elt F) → (⟨S2x2048x1, .f32⟩ : BufTy).Contents (Elt F)),
    binary main_v62 main_v63 main_v64 (addf : (⟨S2x2048x1, .f32⟩ : BufTy).Contents (Elt F) → (⟨S2x2048x1, .f32⟩ : BufTy).Contents (Elt F) → (⟨S2x2048x1, .f32⟩ : BufTy).Contents (Elt F)),
    unary main_v64 main_v65 (Host.rsqrt : (⟨S2x2048x1, .f32⟩ : BufTy).Contents (Elt F) → (⟨S2x2048x1, .f32⟩ : BufTy).Contents (Elt F)),
    unary main_v65 main_v66 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v57 main_v66 main_v67 (mulf : (⟨S2x2048x8192, .f32⟩ : BufTy).Contents (Elt F) → (⟨S2x2048x8192, .f32⟩ : BufTy).Contents (Elt F) → (⟨S2x2048x8192, .f32⟩ : BufTy).Contents (Elt F)),
    unary main_arg4 main_v68 (broadcastInDim S1x1x8192 ![2] bcast_S8192_S1x1x8192_2 : (⟨S8192, .f32⟩ : BufTy).Contents (Elt F) → (⟨S1x1x8192, .f32⟩ : BufTy).Contents (Elt F)),
    unary main_v68 main_v69 (broadcastInDim S2x2048x8192 ![0, 1, 2] bcast_S1x1x8192_S2x2048x8192_0_1_2 : (⟨S1x1x8192, .f32⟩ : BufTy).Contents (Elt F) → (⟨S2x2048x8192, .f32⟩ : BufTy).Contents (Elt F)),
    binary main_v69 main_v67 main_v70 (mulf : (⟨S2x2048x8192, .f32⟩ : BufTy).Contents (Elt F) → (⟨S2x2048x8192, .f32⟩ : BufTy).Contents (Elt F) → (⟨S2x2048x8192, .f32⟩ : BufTy).Contents (Elt F)) ]

/-- Stretch 7, 26 operations: the hidden row quantised to eight bits. -/
abbrev c7 : List (HloOp τ sig (Elt F)) :=
  [ unary main_v70 main_v71 (Host.absf : (⟨S2x2048x8192, .f32⟩ : BufTy).Contents (Elt F) → (⟨S2x2048x8192, .f32⟩ : BufTy).Contents (Elt F)),
    nullary main_cst_23 (constant S_ .f32 0xFF800000#32),
    binary main_v71 main_cst_23 main_v72 ((fun x v => Host.reduce FloatOps.maximumf x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v72 main_v73 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_24 (constant S_ .f32 0x3727C5AC#32),
    unary main_cst_24 main_call13_v0 (id : (⟨S_, .f32⟩ : BufTy).Contents (Elt F) → (⟨S_, .f32⟩ : BufTy).Contents (Elt F)),
    unary main_call13_v0 main_call13_v1 ((broadcastInDim S2x2048x1 ![] bcast_S_S2x2048x1) : (⟨S_, .f32⟩ : BufTy).Contents (Elt F) → (⟨S2x2048x1, .f32⟩ : BufTy).Contents (Elt F)),
    binary main_call13_v1 main_v73 main_v74 (maximumf : (⟨S2x2048x1, .f32⟩ : BufTy).Contents (Elt F) → (⟨S2x2048x1, .f32⟩ : BufTy).Contents (Elt F) → (⟨S2x2048x1, .f32⟩ : BufTy).Contents (Elt F)),
    nullary main_cst_25 (constant S_ .f32 0x42FE0000#32),
    unary main_cst_25 main_v75 (broadcastInDim S2x2048x1 ![] bcast_S_S2x2048x1 : (⟨S_, .f32⟩ : BufTy).Contents (Elt F) → (⟨S2x2048x1, .f32⟩ : BufTy).Contents (Elt F)),
    binary main_v75 main_v74 main_v76 (Host.divf : (⟨S2x2048x1, .f32⟩ : BufTy).Contents (Elt F) → (⟨S2x2048x1, .f32⟩ : BufTy).Contents (Elt F) → (⟨S2x2048x1, .f32⟩ : BufTy).Contents (Elt F)),
    unary main_v76 main_v77 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v70 main_v77 main_v78 (mulf : (⟨S2x2048x8192, .f32⟩ : BufTy).Contents (Elt F) → (⟨S2x2048x8192, .f32⟩ : BufTy).Contents (Elt F) → (⟨S2x2048x8192, .f32⟩ : BufTy).Contents (Elt F)),
    unary main_v78 main_v79 (Host.roundeven : (⟨S2x2048x8192, .f32⟩ : BufTy).Contents (Elt F) → (⟨S2x2048x8192, .f32⟩ : BufTy).Contents (Elt F)),
    nullary main_c_26 (constantI S_ 32 4294967168#32),
    nullary main_c_27 (constantI S_ 32 127#32),
    unary main_c_26 main_call15_v0 ((sitofp .f32) : (⟨S_, .i32⟩ : BufTy).Contents (Elt F) → (⟨S_, .f32⟩ : BufTy).Contents (Elt F)),
    unary main_call15_v0 main_call15_v1 ((broadcastInDim S2x2048x8192 ![] bcast_S_S2x2048x8192) : (⟨S_, .f32⟩ : BufTy).Contents (Elt F) → (⟨S2x2048x8192, .f32⟩ : BufTy).Contents (Elt F)),
    binary main_call15_v1 main_v79 main_call15_v2 (maximumf : (⟨S2x2048x8192, .f32⟩ : BufTy).Contents (Elt F) → (⟨S2x2048x8192, .f32⟩ : BufTy).Contents (Elt F) → (⟨S2x2048x8192, .f32⟩ : BufTy).Contents (Elt F)),
    unary main_c_27 main_call15_v3 ((sitofp .f32) : (⟨S_, .i32⟩ : BufTy).Contents (Elt F) → (⟨S_, .f32⟩ : BufTy).Contents (Elt F)),
    unary main_call15_v3 main_call15_v4 ((broadcastInDim S2x2048x8192 ![] bcast_S_S2x2048x8192) : (⟨S_, .f32⟩ : BufTy).Contents (Elt F) → (⟨S2x2048x8192, .f32⟩ : BufTy).Contents (Elt F)),
    binary main_call15_v4 main_call15_v2 main_v80 (minimumf : (⟨S2x2048x8192, .f32⟩ : BufTy).Contents (Elt F) → (⟨S2x2048x8192, .f32⟩ : BufTy).Contents (Elt F) → (⟨S2x2048x8192, .f32⟩ : BufTy).Contents (Elt F)),
    unary main_v76 main_v81 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v80 main_v81 main_v82 (Host.divf : (⟨S2x2048x8192, .f32⟩ : BufTy).Contents (Elt F) → (⟨S2x2048x8192, .f32⟩ : BufTy).Contents (Elt F) → (⟨S2x2048x8192, .f32⟩ : BufTy).Contents (Elt F)),
    binary main_v82 main_v70 main_v83 (subf : (⟨S2x2048x8192, .f32⟩ : BufTy).Contents (Elt F) → (⟨S2x2048x8192, .f32⟩ : BufTy).Contents (Elt F) → (⟨S2x2048x8192, .f32⟩ : BufTy).Contents (Elt F)),
    binary main_v70 main_v83 main_v84 (addf : (⟨S2x2048x8192, .f32⟩ : BufTy).Contents (Elt F) → (⟨S2x2048x8192, .f32⟩ : BufTy).Contents (Elt F) → (⟨S2x2048x8192, .f32⟩ : BufTy).Contents (Elt F)) ]

/-- Stretch 8, 26 operations: the third weight quantised, and the last product. -/
abbrev c8 : List (HloOp τ sig (Elt F)) :=
  [ unary main_arg3 main_v85 (Host.absf : (⟨S2048x8192, .f32⟩ : BufTy).Contents (Elt F) → (⟨S2048x8192, .f32⟩ : BufTy).Contents (Elt F)),
    nullary main_cst_28 (constant S_ .f32 0x00000000#32),
    binary main_v85 main_cst_28 main_v86 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_29 (constant S_ .f32 0x4B800000#32),
    binary main_v86 main_cst_29 main_v87 (Host.divf : (⟨S_, .f32⟩ : BufTy).Contents (Elt F) → (⟨S_, .f32⟩ : BufTy).Contents (Elt F) → (⟨S_, .f32⟩ : BufTy).Contents (Elt F)),
    nullary main_cst_30 (constant S_ .f32 0x3727C5AC#32),
    unary main_cst_30 main_call16_v0 (id : (⟨S_, .f32⟩ : BufTy).Contents (Elt F) → (⟨S_, .f32⟩ : BufTy).Contents (Elt F)),
    binary main_call16_v0 main_v87 main_v88 (maximumf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_cst_31 main_v88 main_v89 (Host.divf : (⟨S_, .f32⟩ : BufTy).Contents (Elt F) → (⟨S_, .f32⟩ : BufTy).Contents (Elt F) → (⟨S_, .f32⟩ : BufTy).Contents (Elt F)),
    unary main_v89 main_v90 (broadcastInDim S2048x8192 ![] bcast_S_S2048x8192 : (⟨S_, .f32⟩ : BufTy).Contents (Elt F) → (⟨S2048x8192, .f32⟩ : BufTy).Contents (Elt F)),
    binary main_arg3 main_v90 main_v91 (mulf : (⟨S2048x8192, .f32⟩ : BufTy).Contents (Elt F) → (⟨S2048x8192, .f32⟩ : BufTy).Contents (Elt F) → (⟨S2048x8192, .f32⟩ : BufTy).Contents (Elt F)),
    unary main_v91 main_v92 (Host.roundeven : (⟨S2048x8192, .f32⟩ : BufTy).Contents (Elt F) → (⟨S2048x8192, .f32⟩ : BufTy).Contents (Elt F)),
    nullary main_cst_32 (constant S_ .f32 0xBF800000#32),
    nullary main_cst_33 (constant S_ .f32 0x3F800000#32),
    unary main_cst_32 main_call18_v0 (id : (⟨S_, .f32⟩ : BufTy).Contents (Elt F) → (⟨S_, .f32⟩ : BufTy).Contents (Elt F)),
    unary main_call18_v0 main_call18_v1 ((broadcastInDim S2048x8192 ![] bcast_S_S2048x8192) : (⟨S_, .f32⟩ : BufTy).Contents (Elt F) → (⟨S2048x8192, .f32⟩ : BufTy).Contents (Elt F)),
    binary main_call18_v1 main_v92 main_call18_v2 (maximumf : (⟨S2048x8192, .f32⟩ : BufTy).Contents (Elt F) → (⟨S2048x8192, .f32⟩ : BufTy).Contents (Elt F) → (⟨S2048x8192, .f32⟩ : BufTy).Contents (Elt F)),
    unary main_cst_33 main_call18_v3 (id : (⟨S_, .f32⟩ : BufTy).Contents (Elt F) → (⟨S_, .f32⟩ : BufTy).Contents (Elt F)),
    unary main_call18_v3 main_call18_v4 ((broadcastInDim S2048x8192 ![] bcast_S_S2048x8192) : (⟨S_, .f32⟩ : BufTy).Contents (Elt F) → (⟨S2048x8192, .f32⟩ : BufTy).Contents (Elt F)),
    binary main_call18_v4 main_call18_v2 main_v93 (minimumf : (⟨S2048x8192, .f32⟩ : BufTy).Contents (Elt F) → (⟨S2048x8192, .f32⟩ : BufTy).Contents (Elt F) → (⟨S2048x8192, .f32⟩ : BufTy).Contents (Elt F)),
    unary main_v89 main_v94 (broadcastInDim S2048x8192 ![] bcast_S_S2048x8192 : (⟨S_, .f32⟩ : BufTy).Contents (Elt F) → (⟨S2048x8192, .f32⟩ : BufTy).Contents (Elt F)),
    binary main_v93 main_v94 main_v95 (Host.divf : (⟨S2048x8192, .f32⟩ : BufTy).Contents (Elt F) → (⟨S2048x8192, .f32⟩ : BufTy).Contents (Elt F) → (⟨S2048x8192, .f32⟩ : BufTy).Contents (Elt F)),
    binary main_v95 main_arg3 main_v96 (subf : (⟨S2048x8192, .f32⟩ : BufTy).Contents (Elt F) → (⟨S2048x8192, .f32⟩ : BufTy).Contents (Elt F) → (⟨S2048x8192, .f32⟩ : BufTy).Contents (Elt F)),
    binary main_arg3 main_v96 main_v97 (addf : (⟨S2048x8192, .f32⟩ : BufTy).Contents (Elt F) → (⟨S2048x8192, .f32⟩ : BufTy).Contents (Elt F) → (⟨S2048x8192, .f32⟩ : BufTy).Contents (Elt F)),
    binary main_v84 main_v97 main_v98 ((fun l r => Host.dotGeneral dot_S2x2048x8192_S2048x8192_S2x2048x2048_2_1_01_0_n_n none l r) : (⟨S2x2048x8192, .f32⟩ : BufTy).Contents (Elt F) → (⟨S2048x8192, .f32⟩ : BufTy).Contents (Elt F) → (⟨S2x2048x2048, .f32⟩ : BufTy).Contents (Elt F)) ]

/-- @main's operations are the eight stretches in a row. -/
theorem ops_cut : (ops : List (HloOp τ sig (Elt F))) = c1 ++ c2 ++ c3 ++ c4 ++ c5 ++ c6 ++ c7 ++ c8 := rfl

/-! ## Each stretch, read at any contents of the buffers it finds

What a stretch leaves in the buffer the later stretches read is that buffer's stage, given that the buffers the stretch
reads hold their stages (or the arguments). Only the stretch's own stages are opened. -/

local notation "⟪" r "⟫" => Proc.devRef (τ := τ) (sig := sig) Proc.tc r

/-- One stretch back: the stretch named writes none of the buffer on the left, so the buffer holds what it held. -/
local macro "host_keeps" ops:ident : tactic => `(tactic|
  refine (after_of_forall_not_mem $ops _ (List.forall_iff_forall_mem.mp (by
    simp only [$ops:ident, List.Forall, nullary_writes, unary_writes, binary_writes, Finset.mem_singleton]
    repeat' apply And.intro
    all_goals exact devRef_ne_of_ne (by decide)))).trans ?_)

section Stretches

variable (V : Valuation τ sig (Elt F))
variable (x0 : (⟨S2x2048x2048, .f32⟩ : BufTy).Contents (Elt F)) (x1 x2 : (⟨S8192x2048, .f32⟩ : BufTy).Contents (Elt F)) (x3 : (⟨S2048x8192, .f32⟩ : BufTy).Contents (Elt F)) (x4 : (⟨S8192, .f32⟩ : BufTy).Contents (Elt F))

theorem read1 (h0 : V ⟪main_arg0⟫ = x0) : after (c1 (F := F)) V ⟪main_v13⟫ = val_main_v13 (F := F) x0 := by
  after_results_simp
  simp only [h0, val_main_v13, val_main_v12, val_main_v11, val_main_v10, val_main_v9, val_main_call2_v4, val_main_call2_v3, val_main_call2_v2, val_main_call2_v1, val_main_call2_v0, val_main_c_2, val_main_c, val_main_v8, val_main_v7, val_main_v6, val_main_v5, val_main_v4, val_main_cst_1, val_main_v3, val_main_call0_v1, val_main_call0_v0, val_main_cst_0, val_main_v2, val_main_v1, val_main_cst, val_main_v0]

theorem read2 (h13 : V ⟪main_v13⟫ = val_main_v13 (F := F) x0) (h1 : V ⟪main_arg1⟫ = x1) :
    after (c2 (F := F)) V ⟪main_v27⟫ = val_main_v27 (F := F) x0 x1 := by
  after_results_simp
  simp only [h13, h1, val_main_v27, val_main_v26, val_main_v25, val_main_v24, val_main_v23, val_main_v22, val_main_call5_v4, val_main_call5_v3, val_main_call5_v2, val_main_call5_v1, val_main_call5_v0, val_main_cst_8, val_main_cst_7, val_main_v21, val_main_v20, val_main_v19, val_main_v18, val_main_cst_6, val_main_v17, val_main_call3_v0, val_main_cst_5, val_main_v16, val_main_cst_4, val_main_v15, val_main_cst_3, val_main_v14]

theorem read3 (h27 : V ⟪main_v27⟫ = val_main_v27 (F := F) x0 x1) :
    after (c3 (F := F)) V ⟪main_v28⟫ = val_main_v28 (F := F) x0 x1 := by
  after_results_simp
  simp only [h27, val_main_v28, val_main_call6_v5, val_main_call6_v4, val_main_call6_cst_0, val_main_call6_v3, val_main_call6_v2, val_main_call6_cst, val_main_call6_v1, val_main_call6_v0]

theorem read4 (h0 : V ⟪main_arg0⟫ = x0) : after (c4 (F := F)) V ⟪main_v42⟫ = val_main_v42 (F := F) x0 := by
  after_results_simp
  simp only [h0, val_main_v42, val_main_v41, val_main_v40, val_main_v39, val_main_v38, val_main_call9_v4, val_main_call9_v3, val_main_call9_v2, val_main_call9_v1, val_main_call9_v0, val_main_c_13, val_main_c_12, val_main_v37, val_main_v36, val_main_v35, val_main_v34, val_main_v33, val_main_cst_11, val_main_v32, val_main_call7_v1, val_main_call7_v0, val_main_cst_10, val_main_v31, val_main_v30, val_main_cst_9, val_main_v29]

theorem read5 (h28 : V ⟪main_v28⟫ = val_main_v28 (F := F) x0 x1) (h42 : V ⟪main_v42⟫ = val_main_v42 (F := F) x0)
    (h2 : V ⟪main_arg2⟫ = x2) : after (c5 (F := F)) V ⟪main_v57⟫ = val_main_v57 (F := F) x0 x1 x2 := by
  after_results_simp
  simp only [h28, h42, h2, val_main_v57, val_main_v56, val_main_v55, val_main_v54, val_main_v53, val_main_v52, val_main_v51, val_main_call12_v4, val_main_call12_v3, val_main_call12_v2, val_main_call12_v1, val_main_call12_v0, val_main_cst_19, val_main_cst_18, val_main_v50, val_main_v49, val_main_v48, val_main_v47, val_main_cst_17, val_main_v46, val_main_call10_v0, val_main_cst_16, val_main_v45, val_main_cst_15, val_main_v44, val_main_cst_14, val_main_v43]

theorem read6 (h57 : V ⟪main_v57⟫ = val_main_v57 (F := F) x0 x1 x2) (h4 : V ⟪main_arg4⟫ = x4) :
    after (c6 (F := F)) V ⟪main_v70⟫ = val_main_v70 (F := F) x0 x1 x2 x4 := by
  after_results_simp
  simp only [h57, h4, val_main_v70, val_main_v69, val_main_v68, val_main_v67, val_main_v66, val_main_v65, val_main_v64, val_main_v63, val_main_cst_22, val_main_v62, val_main_v61, val_main_cst_21, val_main_v60, val_main_v59, val_main_cst_20, val_main_v58]

theorem read7 (h70 : V ⟪main_v70⟫ = val_main_v70 (F := F) x0 x1 x2 x4) :
    after (c7 (F := F)) V ⟪main_v84⟫ = val_main_v84 (F := F) x0 x1 x2 x4 := by
  after_results_simp
  simp only [h70, val_main_v84, val_main_v83, val_main_v82, val_main_v81, val_main_v80, val_main_call15_v4, val_main_call15_v3, val_main_call15_v2, val_main_call15_v1, val_main_call15_v0, val_main_c_27, val_main_c_26, val_main_v79, val_main_v78, val_main_v77, val_main_v76, val_main_v75, val_main_cst_25, val_main_v74, val_main_call13_v1, val_main_call13_v0, val_main_cst_24, val_main_v73, val_main_v72, val_main_cst_23, val_main_v71]

theorem read8 (h84 : V ⟪main_v84⟫ = val_main_v84 (F := F) x0 x1 x2 x4) (h3 : V ⟪main_arg3⟫ = x3) :
    after (c8 (F := F)) V ⟪main_v98⟫ = val_main_v98 (F := F) x0 x1 x2 x3 x4 := by
  after_results_simp
  simp only [h84, h3, val_main_v98, val_main_v97, val_main_v96, val_main_v95, val_main_v94, val_main_v93, val_main_call18_v4, val_main_call18_v3, val_main_call18_v2, val_main_call18_v1, val_main_call18_v0, val_main_cst_33, val_main_cst_32, val_main_v92, val_main_v91, val_main_v90, val_main_v89, val_main_cst_31, val_main_v88, val_main_call16_v0, val_main_cst_30, val_main_v87, val_main_cst_29, val_main_v86, val_main_cst_28, val_main_v85]

end Stretches

/-! ## The fold through the stretches, from the launch memory -/

section Fold

variable (m : (ℓ : Loc nD τ sig) → Buf (Elt F) ℓ) (c : Dev nD)

/-- The contents after the first stretch … -/
abbrev A1 : Valuation τ sig (Elt F) := after c1 (launchContents m c)
/-- … after the second … -/
abbrev A2 : Valuation τ sig (Elt F) := after c2 (A1 m c)
abbrev A3 : Valuation τ sig (Elt F) := after c3 (A2 m c)
abbrev A4 : Valuation τ sig (Elt F) := after c4 (A3 m c)
abbrev A5 : Valuation τ sig (Elt F) := after c5 (A4 m c)
abbrev A6 : Valuation τ sig (Elt F) := after c6 (A5 m c)
/-- … and after the seventh. -/
abbrev A7 : Valuation τ sig (Elt F) := after c7 (A6 m c)

theorem A1_v13 : A1 m c ⟪main_v13⟫ = val_main_v13 (F := F) (m ((c.tc : Thread nD τ).loc main_arg0)) :=
  read1 _ _ rfl

theorem A1_arg1 : A1 m c ⟪main_arg1⟫ = m ((c.tc : Thread nD τ).loc main_arg1) := by
  host_keeps c1
  rfl

theorem A2_v27 : A2 m c ⟪main_v27⟫ = val_main_v27 (F := F) (m ((c.tc : Thread nD τ).loc main_arg0)) (m ((c.tc : Thread nD τ).loc main_arg1)) :=
  read2 _ _ _ (A1_v13 m c) (A1_arg1 m c)

theorem A3_v28 : A3 m c ⟪main_v28⟫ = val_main_v28 (F := F) (m ((c.tc : Thread nD τ).loc main_arg0)) (m ((c.tc : Thread nD τ).loc main_arg1)) :=
  read3 _ _ _ (A2_v27 m c)

theorem A3_arg0 : A3 m c ⟪main_arg0⟫ = m ((c.tc : Thread nD τ).loc main_arg0) := by
  host_keeps c3
  host_keeps c2
  host_keeps c1
  rfl

theorem A4_v42 : A4 m c ⟪main_v42⟫ = val_main_v42 (F := F) (m ((c.tc : Thread nD τ).loc main_arg0)) :=
  read4 _ _ (A3_arg0 m c)

theorem A4_v28 : A4 m c ⟪main_v28⟫ = val_main_v28 (F := F) (m ((c.tc : Thread nD τ).loc main_arg0)) (m ((c.tc : Thread nD τ).loc main_arg1)) := by
  host_keeps c4
  exact A3_v28 m c

theorem A4_arg2 : A4 m c ⟪main_arg2⟫ = m ((c.tc : Thread nD τ).loc main_arg2) := by
  host_keeps c4
  host_keeps c3
  host_keeps c2
  host_keeps c1
  rfl

theorem A5_v57 : A5 m c ⟪main_v57⟫
    = val_main_v57 (F := F) (m ((c.tc : Thread nD τ).loc main_arg0)) (m ((c.tc : Thread nD τ).loc main_arg1)) (m ((c.tc : Thread nD τ).loc main_arg2)) :=
  read5 _ _ _ _ (A4_v28 m c) (A4_v42 m c) (A4_arg2 m c)

theorem A5_arg4 : A5 m c ⟪main_arg4⟫ = m ((c.tc : Thread nD τ).loc main_arg4) := by
  host_keeps c5
  host_keeps c4
  host_keeps c3
  host_keeps c2
  host_keeps c1
  rfl

theorem A6_v70 : A6 m c ⟪main_v70⟫
    = val_main_v70 (F := F) (m ((c.tc : Thread nD τ).loc main_arg0)) (m ((c.tc : Thread nD τ).loc main_arg1)) (m ((c.tc : Thread nD τ).loc main_arg2)) (m ((c.tc : Thread nD τ).loc main_arg4)) :=
  read6 _ _ _ _ _ (A5_v57 m c) (A5_arg4 m c)

theorem A7_v84 : A7 m c ⟪main_v84⟫
    = val_main_v84 (F := F) (m ((c.tc : Thread nD τ).loc main_arg0)) (m ((c.tc : Thread nD τ).loc main_arg1)) (m ((c.tc : Thread nD τ).loc main_arg2)) (m ((c.tc : Thread nD τ).loc main_arg4)) :=
  read7 _ _ _ _ _ (A6_v70 m c)

theorem A7_arg3 : A7 m c ⟪main_arg3⟫ = m ((c.tc : Thread nD τ).loc main_arg3) := by
  host_keeps c7
  host_keeps c6
  host_keeps c5
  host_keeps c4
  host_keeps c3
  host_keeps c2
  host_keeps c1
  rfl

end Fold

/-- The fold at the result buffer is the last stage, as a function of the five arguments. -/
theorem result_fold (m : (ℓ : Loc nD τ sig) → Buf (Elt F) ℓ) (c : Dev nD) :
    after (ops (F := F)) (launchContents m c) (Proc.devRef .tc main_v98)
      = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ops_cut]
  simp only [after_append]
  exact read8 _ _ _ _ _ _ (A7_v84 m c) (A7_arg3 m c)

/-- Every weakly fair execution of the reference terminates with its result at the last stage of the chain, as a
    function of the arguments, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v98).trans (result_fold m c), (h c main_arg0).trans (FoldArgs.arg0_fold m c),
      (h c main_arg1).trans (FoldArgs.arg1_fold m c), (h c main_arg2).trans (FoldArgs.arg2_fold m c), (h c main_arg3).trans (FoldArgs.arg3_fold m c),
      (h c main_arg4).trans (FoldArgs.arg4_fold m c)⟩)
    (run_fold m ρ)

end Cert.ReferenceIdeal.Fold

end
-- ==== Proof.Finite.lean ====
/-
  Which values stay real numbers. An extended real is called real here when it is neither infinity. Under finite
  inputs every intermediate value of the layer is real: a quantised entry is a bounded value over a positive real
  scale; a sum of products of reals is real; the gate and the root of a positive mean square are real. And for a
  real `a`, `a + (q - a) = q` whatever `q` is.
-/
import proofs.«159768_j74139725463734_1_alg».proof.Proof.Spec
import proofs.«159768_j74139725463734_1_alg».proof.Proof.Consts

noncomputable section

open scoped BigOperators

namespace Cert.Finite

open Idealize.ShloMosaic Cert.Spec

/-- Neither infinity: the value is a real number. -/
def IsReal (a : EReal) : Prop := ∃ r : ℝ, a = (r : EReal)

/-! ## The real values are closed under the layer's scalar operations -/

private theorem isReal_coe (r : ℝ) : IsReal (r : EReal) := ⟨r, rfl⟩

private theorem isReal_add {a b : EReal} (ha : IsReal a) (hb : IsReal b) : IsReal (a + b) := by
  obtain ⟨x, rfl⟩ := ha
  obtain ⟨y, rfl⟩ := hb
  exact ⟨x + y, (EReal.coe_add x y).symm⟩

private theorem isReal_mul {a b : EReal} (ha : IsReal a) (hb : IsReal b) : IsReal (a * b) := by
  obtain ⟨x, rfl⟩ := ha
  obtain ⟨y, rfl⟩ := hb
  exact ⟨x * y, (EReal.coe_mul x y).symm⟩

private theorem isReal_neg {a : EReal} (ha : IsReal a) : IsReal (-a) := by
  obtain ⟨x, rfl⟩ := ha
  exact ⟨-x, (EReal.coe_neg x).symm⟩

/-- A maximum is one of its two arguments. -/
private theorem isReal_max {a b : EReal} (ha : IsReal a) (hb : IsReal b) : IsReal (max a b) := by
  rcases max_choice a b with h | h <;> rw [h] <;> assumption

/-- A minimum is one of its two arguments. -/
private theorem isReal_min {a b : EReal} (ha : IsReal a) (hb : IsReal b) : IsReal (min a b) := by
  rcases min_choice a b with h | h <;> rw [h] <;> assumption

private theorem isReal_mag {a : EReal} (ha : IsReal a) : IsReal (mag a) :=
  isReal_max ha (isReal_neg ha)

/-- Rounding a real gives an integer, which is a real. -/
private theorem isReal_rne {a : EReal} (ha : IsReal a) : IsReal (rne a) := by
  obtain ⟨x, rfl⟩ := ha
  exact ⟨(Ideal.roundHalfEven x : ℝ), Ideal.liftRound_coe x Ideal.roundHalfEven⟩

/-- A real over a nonzero real is the product with the reciprocal. -/
private theorem isReal_div {a : EReal} {y : ℝ} (ha : IsReal a) (hy : y ≠ 0) : IsReal (Ideal.div a (y : EReal)) := by
  rw [Ideal.div_coe hy]
  exact isReal_mul ha (isReal_coe _)

/-- A finite sum of reals is real. -/
private theorem isReal_sum {ι : Type} (s : Finset ι) (f : ι → EReal) (h : ∀ i ∈ s, IsReal (f i)) :
    IsReal (∑ i ∈ s, f i) :=
  Finset.sum_induction f IsReal (fun _ _ => isReal_add) ⟨0, rfl⟩ h

/-! ## The constants are real -/

private theorem cEps_eq : cEps = ((10995116 / 2 ^ 40 : ℝ) : EReal) := Cert.Consts.w_eps
private theorem c127_eq : c127 = ((127 : ℝ) : EReal) := Cert.Consts.w_127
private theorem cNeg128_eq : cNeg128 = ((-128 : ℝ) : EReal) := Cert.Consts.w_neg128
private theorem cNegInf_eq : cNegInf = ⊥ := Cert.Consts.w_negInf
private theorem cOne_eq : cOne = ((1 : ℝ) : EReal) := Cert.Consts.w_one
private theorem cNegOne_eq : cNegOne = ((-1 : ℝ) : EReal) := Cert.Consts.w_negOne
private theorem cCount_eq : cCount = ((16777216 : ℝ) : EReal) := Cert.Consts.w_count
private theorem cWidth_eq : cWidth = ((8192 : ℝ) : EReal) := Cert.Consts.w_width
private theorem cRmsEps_eq : cRmsEps = ((8796093 / 2 ^ 43 : ℝ) : EReal) := Cert.Consts.w_rmsEps

/-! ## A scale is a nonzero real -/

/-- A running maximum of reals, started at minus infinity, is minus infinity or a real. -/
private theorem fold_max_bot_or_real {ι : Type} [DecidableEq ι] (s : Finset ι) (f : ι → EReal)
    (hf : ∀ i, IsReal (f i)) : s.fold max ⊥ f = ⊥ ∨ IsReal (s.fold max ⊥ f) := by
  induction s using Finset.induction_on with
  | empty => exact Or.inl Finset.fold_empty
  | insert a s ha ih =>
    right
    rw [Finset.fold_insert ha]
    rcases ih with h0 | hr
    · rw [h0, max_eq_left bot_le]
      exact hf a
    · exact isReal_max (hf a) hr

/-- The maximum of a positive real and a value that is minus infinity or real is a positive real. -/
private theorem pos_real_max {e : ℝ} (he : 0 < e) {b : EReal} (hb : b = ⊥ ∨ IsReal b) :
    ∃ y : ℝ, 0 < y ∧ max (e : EReal) b = (y : EReal) := by
  have hreal : IsReal (max (e : EReal) b) := by
    rcases hb with rfl | hb
    · rw [max_eq_left bot_le]
      exact isReal_coe e
    · exact isReal_max (isReal_coe e) hb
  obtain ⟨y, hy⟩ := hreal
  refine ⟨y, ?_, hy⟩
  have hle : (e : EReal) ≤ (y : EReal) := hy ▸ le_max_left _ _
  exact lt_of_lt_of_le he (EReal.coe_le_coe_iff.mp hle)

/-- A nonzero real over such a maximum is a nonzero real. -/
private theorem scale_real {c : ℝ} (hc : c ≠ 0) {e : ℝ} (he : 0 < e) {b : EReal} (hb : b = ⊥ ∨ IsReal b) :
    ∃ s : ℝ, s ≠ 0 ∧ Ideal.div (c : EReal) (max (e : EReal) b) = (s : EReal) := by
  obtain ⟨y, hy, hmax⟩ := pos_real_max he hb
  refine ⟨c * (1 / y), mul_ne_zero hc (one_div_ne_zero hy.ne'), ?_⟩
  rw [hmax, Ideal.div_coe hy.ne', ← EReal.coe_mul]

/-- A real, scaled, rounded, clamped between reals and divided by the nonzero real scale, is real. -/
private theorem isReal_quant {x lo hi : EReal} {s : ℝ} (hx : IsReal x) (hlo : IsReal lo) (hhi : IsReal hi)
    (hs : s ≠ 0) : IsReal (Ideal.div (min hi (max lo (rne (x * (s : EReal))))) (s : EReal)) :=
  isReal_div (isReal_min hhi (isReal_max hlo (isReal_rne (isReal_mul hx (isReal_coe s))))) hs

private theorem rowScale_real {K : ℕ} (row : Fin K → EReal) (h : ∀ k, IsReal (row k)) :
    ∃ s : ℝ, s ≠ 0 ∧ rowScale row = (s : EReal) := by
  have hmax : rowMax row = ⊥ ∨ IsReal (rowMax row) := by
    unfold rowMax
    rw [cNegInf_eq]
    exact fold_max_bot_or_real _ _ (fun k => isReal_mag (h k))
  unfold rowScale
  rw [cEps_eq, c127_eq]
  exact scale_real (by norm_num) (by norm_num) hmax

private theorem tensorScale_real {ι : Type} [Fintype ι] (w : ι → EReal) (h : ∀ i, IsReal (w i)) :
    ∃ s : ℝ, s ≠ 0 ∧ tensorScale w = (s : EReal) := by
  have hmean : IsReal (Ideal.div (∑ i, mag (w i)) cCount) := by
    rw [cCount_eq]
    exact isReal_div (isReal_sum _ _ (fun i _ => isReal_mag (h i))) (by norm_num)
  unfold tensorScale
  rw [cEps_eq, cOne_eq]
  exact scale_real (by norm_num) (by norm_num) (Or.inr hmean)

/-! ## The five facts -/

/-- Adding back what was subtracted: for a real `a`, `a + (q - a) = q` at every `q`, the infinities included. -/
theorem add_sub_cancel_real {a : EReal} (q : EReal) (ha : IsReal a) : a + (q - a) = q := by
  obtain ⟨x, rfl⟩ := ha
  induction q using EReal.rec with
  | bot => rw [EReal.bot_sub, EReal.add_bot]
  | coe y =>
    rw [← EReal.coe_sub, ← EReal.coe_add]
    congr 1
    ring
  | top => rw [EReal.top_sub_coe, EReal.coe_add_top]

/-- Every entry of a real row, quantised, is real. -/
theorem rowQ_real {K : ℕ} (row : Fin K → EReal) (h : ∀ k, IsReal (row k)) (k : Fin K) : IsReal (rowQ row k) := by
  obtain ⟨s, hs, hsc⟩ := rowScale_real row h
  unfold rowQ
  rw [hsc]
  exact isReal_quant (h k) ⟨_, cNeg128_eq⟩ ⟨_, c127_eq⟩ hs

/-- Every entry of a real tensor, quantised, is real. -/
theorem tensorQ_real {ι : Type} [Fintype ι] (w : ι → EReal) (h : ∀ i, IsReal (w i)) (i : ι) :
    IsReal (tensorQ w i) := by
  obtain ⟨s, hs, hsc⟩ := tensorScale_real w h
  unfold tensorQ
  rw [hsc]
  exact isReal_quant (h i) ⟨_, cNegOne_eq⟩ ⟨_, cOne_eq⟩ hs

/-- A quantised real row against a real column is real. -/
theorem dotQ_real {K : ℕ} (row col : Fin K → EReal) (hr : ∀ k, IsReal (row k)) (hc : ∀ k, IsReal (col k)) :
    IsReal (dotQ row col) := by
  unfold dotQ
  exact isReal_sum _ _ (fun k _ => isReal_mul (rowQ_real row hr k) (hc k))

/-- The gate of two reals is real. -/
private theorem isReal_gated {g u : EReal} (hg : IsReal g) (hu : IsReal u) : IsReal (gated g u) := by
  obtain ⟨x, rfl⟩ := hg
  unfold gated
  rw [Ideal.logistic_coe]
  exact isReal_mul (isReal_mul (isReal_coe x) (isReal_coe _)) hu

/-- A finite sum of squares of reals is a real that is not negative. -/
private theorem sum_sq_nonneg {ι : Type} (s : Finset ι) (f : ι → EReal) (h : ∀ i ∈ s, IsReal (f i)) :
    ∃ r : ℝ, 0 ≤ r ∧ ∑ i ∈ s, f i * f i = (r : EReal) := by
  refine Finset.sum_induction (fun i => f i * f i) (fun a => ∃ r : ℝ, 0 ≤ r ∧ a = (r : EReal)) ?_ ⟨0, le_refl _, rfl⟩ ?_
  · rintro _ _ ⟨x, hx, rfl⟩ ⟨y, hy, rfl⟩
    exact ⟨x + y, add_nonneg hx hy, (EReal.coe_add x y).symm⟩
  · intro i hi
    obtain ⟨x, hx⟩ := h i hi
    exact ⟨x * x, mul_self_nonneg x, by rw [hx, ← EReal.coe_mul]⟩

/-- The mean square plus the small constant is a positive real. -/
private theorem meanSq_add_pos {J : ℕ} (g u : Fin J → EReal) (hg : ∀ j, IsReal (g j)) (hu : ∀ j, IsReal (u j)) :
    ∃ r : ℝ, 0 < r ∧ meanSq g u + cRmsEps = (r : EReal) := by
  obtain ⟨t, ht, hsum⟩ := sum_sq_nonneg Finset.univ (fun j => gated (g j) (u j))
    (fun j _ => isReal_gated (hg j) (hu j))
  refine ⟨t * (1 / 8192) + 8796093 / 2 ^ 43, by positivity, ?_⟩
  unfold meanSq
  rw [hsum, cWidth_eq, cRmsEps_eq, Ideal.div_coe (by norm_num), ← EReal.coe_mul, ← EReal.coe_add]

/-- The normalised gate of real rows, scaled by a real vector, is real. -/
theorem normed_real {J : ℕ} (g u lw : Fin J → EReal) (hg : ∀ j, IsReal (g j)) (hu : ∀ j, IsReal (u j))
    (hl : ∀ j, IsReal (lw j)) (j : Fin J) : IsReal (normed g u lw j) := by
  obtain ⟨r, hr, hsq⟩ := meanSq_add_pos g u hg hu
  unfold normed
  rw [hsq, Ideal.rsqrt_coe, if_neg (not_lt.mpr hr.le), if_neg hr.ne']
  exact isReal_mul (hl j) (isReal_mul (isReal_gated (hg j) (hu j)) (isReal_coe _))

end Cert.Finite

end
-- ==== Proof.RefW.lean ====
/-
  The reference's three weights. Each is quantised as one tensor, q(w) = clamp(round(w · s)) / s with s = 1 / max ε (mean |w|), and then passed through the identity w + (q(w) - w). On a real weight that identity gives back q(w): the reference's weight is the quantised tensor, entry by entry.
-/
import proofs.«159768_j74139725463734_1_alg».proof.Proof.RefRead
import proofs.«159768_j74139725463734_1_alg».proof.Proof.Arrays
import proofs.«159768_j74139725463734_1_alg».proof.Proof.Consts
import proofs.«159768_j74139725463734_1_alg».proof.Proof.Finite
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.RefValue.Weights

open Cert.ReferenceIdeal Cert.ReferenceIdeal.ReadP
open Idealize.ShloMosaic Idealize.ShloMosaic.ValueIdx
open Cert.Spec Cert.Arrays Cert.Finite

/-- The scale the reference divides the first weight by is the tensor's scale: one over the mean magnitude, floored. -/
private theorem gate_scale (x1 : (⟨S8192x2048, .f32⟩ : BufTy).Contents (Elt Ideal)) (j : S_.Idx) :
    val_main_v18 (F := Ideal) x1 j = tensorScale x1 := by
  rw [val_main_v18_apply, val_main_v17_apply, val_main_v16_apply, val_main_v15_apply]
  simp only [val_main_cst_6_apply, val_main_call3_v0_apply, val_main_cst_5_apply, val_main_cst_4_apply,
    val_main_cst_3_apply, val_main_v14_apply, Ideal.hostDivf_def, Ideal.maximumf_def, Ideal.ofBits_def,
    Ideal.hostAbsf_def, Ideal.absf_def, Cert.Consts.w_zero, zero_add]
  rfl

/-- The first weight the reference multiplies by is the quantised first weight. -/
theorem gate_weight (x1 : (⟨S8192x2048, .f32⟩ : BufTy).Contents (Elt Ideal)) (h1 : ∀ i, IsReal (x1 i)) (i : S8192x2048.Idx) :
    val_main_v26 (F := Ideal) x1 i = tensorQ x1 i := by
  rw [val_main_v26_apply, val_main_v25_apply]
  refine (add_sub_cancel_real (a := x1 i) (val_main_v24 (F := Ideal) x1 i) (h1 i)).trans ?_
  rw [val_main_v24_apply, val_main_v23_apply, val_main_v22_apply, val_main_call5_v4_apply, val_main_call5_v3_apply,
    val_main_cst_8_apply, val_main_call5_v2_apply, val_main_call5_v1_apply, val_main_call5_v0_apply,
    val_main_cst_7_apply, val_main_v21_apply, val_main_v20_apply, val_main_v19_apply]
  simp only [gate_scale, Ideal.hostDivf_def, Ideal.minimumf_def, Ideal.maximumf_def, Ideal.ofBits_def,
    Ideal.hostUnary_roundeven_def, Ideal.mulf_def]
  rfl

/-- The scale the reference divides the second weight by is the tensor's scale: one over the mean magnitude, floored. -/
private theorem up_scale (x2 : (⟨S8192x2048, .f32⟩ : BufTy).Contents (Elt Ideal)) (j : S_.Idx) :
    val_main_v47 (F := Ideal) x2 j = tensorScale x2 := by
  rw [val_main_v47_apply, val_main_v46_apply, val_main_v45_apply, val_main_v44_apply]
  simp only [val_main_cst_17_apply, val_main_call10_v0_apply, val_main_cst_16_apply, val_main_cst_15_apply,
    val_main_cst_14_apply, val_main_v43_apply, Ideal.hostDivf_def, Ideal.maximumf_def, Ideal.ofBits_def,
    Ideal.hostAbsf_def, Ideal.absf_def, Cert.Consts.w_zero, zero_add]
  rfl

/-- The second weight likewise. -/
theorem up_weight (x2 : (⟨S8192x2048, .f32⟩ : BufTy).Contents (Elt Ideal)) (h2 : ∀ i, IsReal (x2 i)) (i : S8192x2048.Idx) :
    val_main_v55 (F := Ideal) x2 i = tensorQ x2 i := by
  rw [val_main_v55_apply, val_main_v54_apply]
  refine (add_sub_cancel_real (a := x2 i) (val_main_v53 (F := Ideal) x2 i) (h2 i)).trans ?_
  rw [val_main_v53_apply, val_main_v52_apply, val_main_v51_apply, val_main_call12_v4_apply, val_main_call12_v3_apply,
    val_main_cst_19_apply, val_main_call12_v2_apply, val_main_call12_v1_apply, val_main_call12_v0_apply,
    val_main_cst_18_apply, val_main_v50_apply, val_main_v49_apply, val_main_v48_apply]
  simp only [up_scale, Ideal.hostDivf_def, Ideal.minimumf_def, Ideal.maximumf_def, Ideal.ofBits_def,
    Ideal.hostUnary_roundeven_def, Ideal.mulf_def]
  rfl

/-- The scale the reference divides the third weight by is the tensor's scale: one over the mean magnitude, floored. -/
private theorem down_scale (x3 : (⟨S2048x8192, .f32⟩ : BufTy).Contents (Elt Ideal)) (j : S_.Idx) :
    val_main_v89 (F := Ideal) x3 j = tensorScale x3 := by
  rw [val_main_v89_apply, val_main_v88_apply, val_main_v87_apply, val_main_v86_apply]
  simp only [val_main_cst_31_apply, val_main_call16_v0_apply, val_main_cst_30_apply, val_main_cst_29_apply,
    val_main_cst_28_apply, val_main_v85_apply, Ideal.hostDivf_def, Ideal.maximumf_def, Ideal.ofBits_def,
    Ideal.hostAbsf_def, Ideal.absf_def, Cert.Consts.w_zero, zero_add]
  rfl

/-- The third weight likewise. -/
theorem down_weight (x3 : (⟨S2048x8192, .f32⟩ : BufTy).Contents (Elt Ideal)) (h3 : ∀ i, IsReal (x3 i)) (i : S2048x8192.Idx) :
    val_main_v97 (F := Ideal) x3 i = tensorQ x3 i := by
  rw [val_main_v97_apply, val_main_v96_apply]
  refine (add_sub_cancel_real (a := x3 i) (val_main_v95 (F := Ideal) x3 i) (h3 i)).trans ?_
  rw [val_main_v95_apply, val_main_v94_apply, val_main_v93_apply, val_main_call18_v4_apply, val_main_call18_v3_apply,
    val_main_cst_33_apply, val_main_call18_v2_apply, val_main_call18_v1_apply, val_main_call18_v0_apply,
    val_main_cst_32_apply, val_main_v92_apply, val_main_v91_apply, val_main_v90_apply]
  simp only [down_scale, Ideal.hostDivf_def, Ideal.minimumf_def, Ideal.maximumf_def, Ideal.ofBits_def,
    Ideal.hostUnary_roundeven_def, Ideal.mulf_def]
  rfl

end Cert.RefValue.Weights

end
-- ==== Proof.RefX.lean ====
/-
  The reference's two projections. Each token's row is quantised against its own largest magnitude and passed through the identity x + (q(x) - x), which on a real row gives back q(x); the quantised row then meets each row of a quantised weight in a sum of products over the model width.
-/
import proofs.«159768_j74139725463734_1_alg».proof.Proof.RefRead
import proofs.«159768_j74139725463734_1_alg».proof.Proof.Arrays
import proofs.«159768_j74139725463734_1_alg».proof.Proof.Consts
import proofs.«159768_j74139725463734_1_alg».proof.Proof.Finite
import proofs.«159768_j74139725463734_1_alg».proof.Proof.RefW
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.RefValue.Proj

open Cert.ReferenceIdeal Cert.ReferenceIdeal.ReadP
open Idealize.ShloMosaic Idealize.ShloMosaic.ValueIdx
open Cert.Spec Cert.Arrays Cert.Finite

open Cert.RefValue.Weights

/-! ## The clamp bounds -/

/-- The upper bound of the eight-bit range, the integer 127 converted to a float, is the word of 127. -/
private theorem hi_eq : FloatOps.sitofp (F := Ideal) .f32 (127#32 : BitVec 32) = c127 := by
  show (((127#32 : BitVec 32).toInt : ℝ) : EReal) = c127
  have e : (127#32 : BitVec 32).toInt = 127 := by decide
  rw [c127, Cert.Consts.w_127, e]
  norm_num

/-- The lower bound, the integer -128 (as a 32-bit pattern) converted to a float, is the word of -128. -/
private theorem lo_eq : FloatOps.sitofp (F := Ideal) .f32 (4294967168#32 : BitVec 32) = cNeg128 := by
  show (((4294967168#32 : BitVec 32).toInt : ℝ) : EReal) = cNeg128
  have e : (4294967168#32 : BitVec 32).toInt = -128 := by decide
  rw [cNeg128, Cert.Consts.w_neg128, e]
  norm_num

/-! ## A row's maximum -/

/-- A maximum along the last axis of a [2, 2048, 2048] array is, at row (b, s), the fold of max from the initial
    value over that row's 2048 entries: the inserted index at (b, s) and k is (b, s, k). -/
private theorem reduce_max_row (v : S2x2048x2048.Idx → EReal) (init : S_.Idx → EReal)
    (h' : S2x2048x2048.ReducesTo [2] S2x2048) (hu : 0 < S_.numel) (b : Fin 2) (s : Fin 2048) :
    Host.reduce (FloatOps.maximumf (F := Ideal) (φ := .f32)) v init h' hu (ix2 b s)
      = (Finset.univ : Finset (Fin 2048)).fold max (init (Shape.Idx.first hu)) (fun k => v (ix3 b s k)) := by
  have h : S2x2048x2048.Reduces [2] S2x2048 := by decide
  refine (Host.reduce_eq_fold_single _ v init h' h hu (ix2 b s)).trans ?_
  have e : (v ∘ h.lift (ix2 b s)) = (fun k : Fin 2048 => v (ix3 b s k)) := by
    funext k
    show v (h.lift (ix2 b s) k) = v (ix3 b s k)
    congr 1
    funext a
    match a with
    | ⟨0, _⟩ => rfl
    | ⟨1, _⟩ => rfl
    | ⟨2, _⟩ => rfl
  rw [e]
  rfl

/-! ## One entry, given the row's scale -/

/-- Scaled, rounded, clamped between the two converted integers and divided by the scale again: the Spec's entry. -/
private theorem quant_eq (row : Fin 2048 → EReal) (k : Fin 2048) :
    Ideal.div (min (FloatOps.sitofp (F := Ideal) .f32 (127#32 : BitVec 32))
        (max (FloatOps.sitofp (F := Ideal) .f32 (4294967168#32 : BitVec 32))
          (Ideal.liftRound Ideal.roundHalfEven (row k * rowScale row)))) (rowScale row) = rowQ row k := by
  rw [hi_eq, lo_eq]
  rfl

/-! ## The first copy of the quantised row -/

/-- The first copy's maximum at row (b, s): the row's largest magnitude, from minus infinity. -/
private theorem rowMax_first (x0 : (⟨S2x2048x2048, .f32⟩ : BufTy).Contents (Elt Ideal)) (b : Fin 2) (s : Fin 2048) :
    val_main_v1 (F := Ideal) x0 (ix2 b s) = rowMax (fun k' : Fin 2048 => x0 (ix3 b s k')) :=
  reduce_max_row (val_main_v0 (F := Ideal) x0) (val_main_cst (F := Ideal)) _ _ b s

/-- The first copy's scale at row (b, s): 127 over the larger of ε and the row's largest magnitude. -/
private theorem scale_first (x0 : (⟨S2x2048x2048, .f32⟩ : BufTy).Contents (Elt Ideal)) (b : Fin 2) (s : Fin 2048) :
    val_main_v5 (F := Ideal) x0 (ix3 b s (0 : Fin 1)) = rowScale (fun k' : Fin 2048 => x0 (ix3 b s k')) := by
  have e2 : idx_main_v2 (ix3 b s (0 : Fin 1)) = ix2 b s :=
    funext fun a => Fin.ext (by match a with | ⟨0, _⟩ => rfl | ⟨1, _⟩ => rfl)
  rw [val_main_v5_apply, val_main_v4_apply, val_main_cst_1_apply, val_main_v3_apply, val_main_call0_v1_apply, val_main_call0_v0_apply,
    val_main_cst_0_apply, val_main_v2_apply, e2, rowMax_first]
  rfl

/-- The first copy's quantised entry before the identity x + (q - x). -/
private theorem quant_first (x0 : (⟨S2x2048x2048, .f32⟩ : BufTy).Contents (Elt Ideal)) (b : Fin 2) (s : Fin 2048) (k : Fin 2048) :
    val_main_v11 (F := Ideal) x0 (ix3 b s k) = rowQ (fun k' : Fin 2048 => x0 (ix3 b s k')) k := by
  have e6 : idx_main_v6 (ix3 b s k) = ix3 b s (0 : Fin 1) :=
    funext fun a => Fin.ext (by match a with | ⟨0, _⟩ => rfl | ⟨1, _⟩ => rfl | ⟨2, _⟩ => rfl)
  have e10 : idx_main_v10 (ix3 b s k) = ix3 b s (0 : Fin 1) :=
    funext fun a => Fin.ext (by match a with | ⟨0, _⟩ => rfl | ⟨1, _⟩ => rfl | ⟨2, _⟩ => rfl)
  rw [val_main_v11_apply, val_main_v9_apply, val_main_call2_v4_apply, val_main_call2_v3_apply, val_main_c_2_apply, val_main_call2_v2_apply,
    val_main_call2_v1_apply, val_main_call2_v0_apply, val_main_c_apply, val_main_v8_apply, val_main_v7_apply, val_main_v6_apply,
    val_main_v10_apply, e6, e10, scale_first]
  exact quant_eq (fun k' : Fin 2048 => x0 (ix3 b s k')) k

/-! ## The second copy of the quantised row -/

/-- The second copy's maximum at row (b, s): the row's largest magnitude, from minus infinity. -/
private theorem rowMax_second (x0 : (⟨S2x2048x2048, .f32⟩ : BufTy).Contents (Elt Ideal)) (b : Fin 2) (s : Fin 2048) :
    val_main_v30 (F := Ideal) x0 (ix2 b s) = rowMax (fun k' : Fin 2048 => x0 (ix3 b s k')) :=
  reduce_max_row (val_main_v29 (F := Ideal) x0) (val_main_cst_9 (F := Ideal)) _ _ b s

/-- The second copy's scale at row (b, s): 127 over the larger of ε and the row's largest magnitude. -/
private theorem scale_second (x0 : (⟨S2x2048x2048, .f32⟩ : BufTy).Contents (Elt Ideal)) (b : Fin 2) (s : Fin 2048) :
    val_main_v34 (F := Ideal) x0 (ix3 b s (0 : Fin 1)) = rowScale (fun k' : Fin 2048 => x0 (ix3 b s k')) := by
  have e2 : idx_main_v31 (ix3 b s (0 : Fin 1)) = ix2 b s :=
    funext fun a => Fin.ext (by match a with | ⟨0, _⟩ => rfl | ⟨1, _⟩ => rfl)
  rw [val_main_v34_apply, val_main_v33_apply, val_main_cst_11_apply, val_main_v32_apply, val_main_call7_v1_apply, val_main_call7_v0_apply,
    val_main_cst_10_apply, val_main_v31_apply, e2, rowMax_second]
  rfl

/-- The second copy's quantised entry before the identity x + (q - x). -/
private theorem quant_second (x0 : (⟨S2x2048x2048, .f32⟩ : BufTy).Contents (Elt Ideal)) (b : Fin 2) (s : Fin 2048) (k : Fin 2048) :
    val_main_v40 (F := Ideal) x0 (ix3 b s k) = rowQ (fun k' : Fin 2048 => x0 (ix3 b s k')) k := by
  have e6 : idx_main_v35 (ix3 b s k) = ix3 b s (0 : Fin 1) :=
    funext fun a => Fin.ext (by match a with | ⟨0, _⟩ => rfl | ⟨1, _⟩ => rfl | ⟨2, _⟩ => rfl)
  have e10 : idx_main_v39 (ix3 b s k) = ix3 b s (0 : Fin 1) :=
    funext fun a => Fin.ext (by match a with | ⟨0, _⟩ => rfl | ⟨1, _⟩ => rfl | ⟨2, _⟩ => rfl)
  rw [val_main_v40_apply, val_main_v38_apply, val_main_call9_v4_apply, val_main_call9_v3_apply, val_main_c_13_apply, val_main_call9_v2_apply,
    val_main_call9_v1_apply, val_main_call9_v0_apply, val_main_c_12_apply, val_main_v37_apply, val_main_v36_apply, val_main_v35_apply,
    val_main_v39_apply, e6, e10, scale_second]
  exact quant_eq (fun k' : Fin 2048 => x0 (ix3 b s k')) k

/-! ## The four statements -/

/-- The row the first product reads is the token's quantised row. -/
theorem act_gate (x0 : (⟨S2x2048x2048, .f32⟩ : BufTy).Contents (Elt Ideal)) (h0 : ∀ i, IsReal (x0 i)) (b : Fin 2) (s : Fin 2048) (k : Fin 2048) :
    val_main_v13 (F := Ideal) x0 (ix3 b s k) = rowQ (fun k' : Fin 2048 => x0 (ix3 b s k')) k := by
  rw [val_main_v13_apply, val_main_v12_apply, quant_first]
  exact add_sub_cancel_real _ (h0 _)

/-- The row the second product reads is the same quantised row (the reference computes it a second time). -/
theorem act_up (x0 : (⟨S2x2048x2048, .f32⟩ : BufTy).Contents (Elt Ideal)) (h0 : ∀ i, IsReal (x0 i)) (b : Fin 2) (s : Fin 2048) (k : Fin 2048) :
    val_main_v42 (F := Ideal) x0 (ix3 b s k) = rowQ (fun k' : Fin 2048 => x0 (ix3 b s k')) k := by
  rw [val_main_v42_apply, val_main_v41_apply, quant_second]
  exact add_sub_cancel_real _ (h0 _)

/-- The first projection at token (b, s) and hidden column j. -/
theorem proj_gate (x0 : (⟨S2x2048x2048, .f32⟩ : BufTy).Contents (Elt Ideal)) (x1 : (⟨S8192x2048, .f32⟩ : BufTy).Contents (Elt Ideal)) (h0 : ∀ i, IsReal (x0 i)) (h1 : ∀ i, IsReal (x1 i))
    (b : Fin 2) (s : Fin 2048) (j : Fin 8192) :
    val_main_v27 (F := Ideal) x0 x1 (ix3 b s j)
      = dotQ (fun k : Fin 2048 => x0 (ix3 b s k)) (fun k : Fin 2048 => tensorQ x1 (ix2 j k)) := by
  have el : ∀ k : Fin 2048, lidx_main_v27 (ix3 b s j) k = ix3 b s k := fun k =>
    funext fun a => Fin.ext (by match a with | ⟨0, _⟩ => rfl | ⟨1, _⟩ => rfl | ⟨2, _⟩ => rfl)
  have er : ∀ k : Fin 2048, ridx_main_v27 (ix3 b s j) k = ix2 j k := fun k =>
    funext fun a => Fin.ext (by match a with | ⟨0, _⟩ => rfl | ⟨1, _⟩ => rfl)
  rw [val_main_v27_apply]
  unfold dotQ
  refine Finset.sum_congr rfl fun k _ => ?_
  rw [el k, er k, act_gate x0 h0 b s k, gate_weight x1 h1 (ix2 j k)]

/-- The second projection at token (b, s) and hidden column j. -/
theorem proj_up (x0 : (⟨S2x2048x2048, .f32⟩ : BufTy).Contents (Elt Ideal)) (x2 : (⟨S8192x2048, .f32⟩ : BufTy).Contents (Elt Ideal)) (h0 : ∀ i, IsReal (x0 i)) (h2 : ∀ i, IsReal (x2 i))
    (b : Fin 2) (s : Fin 2048) (j : Fin 8192) :
    val_main_v56 (F := Ideal) x0 x2 (ix3 b s j)
      = dotQ (fun k : Fin 2048 => x0 (ix3 b s k)) (fun k : Fin 2048 => tensorQ x2 (ix2 j k)) := by
  have el : ∀ k : Fin 2048, lidx_main_v56 (ix3 b s j) k = ix3 b s k := fun k =>
    funext fun a => Fin.ext (by match a with | ⟨0, _⟩ => rfl | ⟨1, _⟩ => rfl | ⟨2, _⟩ => rfl)
  have er : ∀ k : Fin 2048, ridx_main_v56 (ix3 b s j) k = ix2 j k := fun k =>
    funext fun a => Fin.ext (by match a with | ⟨0, _⟩ => rfl | ⟨1, _⟩ => rfl)
  rw [val_main_v56_apply]
  unfold dotQ
  refine Finset.sum_congr rfl fun k _ => ?_
  rw [el k, er k, act_up x0 h0 b s k, up_weight x2 h2 (ix2 j k)]

end Cert.RefValue.Proj

end
-- ==== Proof.RefHid.lean ====
/-
  The reference's hidden row. The two projections are gated, g · (1 / (1 + e^(-g))) · u — the reference spells the logistic function out with its own constant one —, each row is divided by the root of its mean square plus a small constant, and scaled entry by entry by the scale vector.
-/
import proofs.«159768_j74139725463734_1_alg».proof.Proof.RefRead
import proofs.«159768_j74139725463734_1_alg».proof.Proof.Arrays
import proofs.«159768_j74139725463734_1_alg».proof.Proof.Consts
import proofs.«159768_j74139725463734_1_alg».proof.Proof.Finite
import proofs.«159768_j74139725463734_1_alg».proof.Proof.RefW
import proofs.«159768_j74139725463734_1_alg».proof.Proof.RefX
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.RefValue.Hid

open Cert.ReferenceIdeal Cert.ReferenceIdeal.ReadP
open Idealize.ShloMosaic Idealize.ShloMosaic.ValueIdx
open Cert.Spec Cert.Arrays Cert.Finite

open Cert.RefValue.Weights Cert.RefValue.Proj

/-- The gated product of the two projections at token (b, s) and hidden column j': the reference's
    g · (1 / (1 + e^(-g))) · u, with its constant one, is g · σ(g) · u. -/
theorem gated_at (x0 : (⟨S2x2048x2048, .f32⟩ : BufTy).Contents (Elt Ideal)) (x1 x2 : (⟨S8192x2048, .f32⟩ : BufTy).Contents (Elt Ideal))
    (h0 : ∀ i, IsReal (x0 i)) (h1 : ∀ i, IsReal (x1 i)) (h2 : ∀ i, IsReal (x2 i))
    (b : Fin 2) (s : Fin 2048) (j' : Fin 8192) :
    val_main_v57 (F := Ideal) x0 x1 x2 (ix3 b s j')
      = gated (dotQ (fun k : Fin 2048 => x0 (ix3 b s k)) (fun k : Fin 2048 => tensorQ x1 (ix2 j' k)))
          (dotQ (fun k : Fin 2048 => x0 (ix3 b s k)) (fun k : Fin 2048 => tensorQ x2 (ix2 j' k))) := by
  rw [val_main_v57_apply, val_main_v28_apply, val_main_call6_v5_apply, val_main_call6_v4_apply,
    val_main_call6_cst_0_apply, val_main_call6_v3_apply, val_main_call6_v2_apply, val_main_call6_cst_apply,
    val_main_call6_v1_apply, val_main_call6_v0_apply, proj_gate x0 x1 h0 h1 b s j', proj_up x0 x2 h0 h2 b s j']
  simp only [Ideal.mulf_def, Ideal.hostDivf_def, Ideal.addf_def, Ideal.hostUnary_exp_def, Ideal.hostNegf_def,
    Ideal.negf_def, Ideal.ofBits_def, Consts.w_one, EReal.coe_one]
  rfl

/-- The sum of the squares of token (b, s)'s gated row: the reference's sum starts from the zero word. -/
theorem sumsq_at (x0 : (⟨S2x2048x2048, .f32⟩ : BufTy).Contents (Elt Ideal)) (x1 x2 : (⟨S8192x2048, .f32⟩ : BufTy).Contents (Elt Ideal))
    (h0 : ∀ i, IsReal (x0 i)) (h1 : ∀ i, IsReal (x1 i)) (h2 : ∀ i, IsReal (x2 i))
    (b : Fin 2) (s : Fin 2048) :
    val_main_v59 (F := Ideal) x0 x1 x2 (ix2 b s)
      = ∑ j' : Fin 8192,
          gated (dotQ (fun k : Fin 2048 => x0 (ix3 b s k)) (fun k : Fin 2048 => tensorQ x1 (ix2 j' k)))
              (dotQ (fun k : Fin 2048 => x0 (ix3 b s k)) (fun k : Fin 2048 => tensorQ x2 (ix2 j' k)))
            * gated (dotQ (fun k : Fin 2048 => x0 (ix3 b s k)) (fun k : Fin 2048 => tensorQ x1 (ix2 j' k)))
              (dotQ (fun k : Fin 2048 => x0 (ix3 b s k)) (fun k : Fin 2048 => tensorQ x2 (ix2 j' k))) := by
  rw [val_main_v59_apply, val_main_cst_20_apply, Ideal.ofBits_def, Consts.w_zero, zero_add]
  refine Finset.sum_congr rfl fun k _ => ?_
  have e : idx_main_v59 (ix2 b s) k = ix3 b s k :=
    funext fun a => Fin.ext (by match a with | ⟨0, _⟩ => rfl | ⟨1, _⟩ => rfl | ⟨2, _⟩ => rfl)
  rw [e, val_main_v58_apply, gated_at x0 x1 x2 h0 h1 h2 b s k]
  rfl

/-- The factor every entry of token (b, s)'s row is multiplied by: one over the root of the mean square plus the
    small constant. -/
theorem root_at (x0 : (⟨S2x2048x2048, .f32⟩ : BufTy).Contents (Elt Ideal)) (x1 x2 : (⟨S8192x2048, .f32⟩ : BufTy).Contents (Elt Ideal))
    (h0 : ∀ i, IsReal (x0 i)) (h1 : ∀ i, IsReal (x1 i)) (h2 : ∀ i, IsReal (x2 i))
    (b : Fin 2) (s : Fin 2048) :
    val_main_v65 (F := Ideal) x0 x1 x2 (ix3 b s (0 : Fin 1))
      = Ideal.rsqrt (meanSq (fun j' : Fin 8192 => dotQ (fun k : Fin 2048 => x0 (ix3 b s k)) (fun k : Fin 2048 => tensorQ x1 (ix2 j' k)))
          (fun j' : Fin 8192 => dotQ (fun k : Fin 2048 => x0 (ix3 b s k)) (fun k : Fin 2048 => tensorQ x2 (ix2 j' k))) + cRmsEps) := by
  have e60 : idx_main_v60 (ix3 b s (0 : Fin 1)) = ix2 b s :=
    funext fun a => Fin.ext (by match a with | ⟨0, _⟩ => rfl | ⟨1, _⟩ => rfl)
  rw [val_main_v65_apply, val_main_v64_apply, val_main_v63_apply, val_main_cst_22_apply, val_main_v62_apply,
    val_main_v61_apply, val_main_cst_21_apply, val_main_v60_apply, e60, sumsq_at x0 x1 x2 h0 h1 h2 b s]
  simp only [Ideal.hostUnary_rsqrt_def, Ideal.addf_def, Ideal.hostDivf_def, Ideal.ofBits_def]
  rfl

/-- The hidden row of token (b, s), before its quantisation, at column j. -/
theorem hidden_row (x0 : (⟨S2x2048x2048, .f32⟩ : BufTy).Contents (Elt Ideal)) (x1 x2 : (⟨S8192x2048, .f32⟩ : BufTy).Contents (Elt Ideal)) (x4 : (⟨S8192, .f32⟩ : BufTy).Contents (Elt Ideal))
    (h0 : ∀ i, IsReal (x0 i)) (h1 : ∀ i, IsReal (x1 i)) (h2 : ∀ i, IsReal (x2 i))
    (b : Fin 2) (s : Fin 2048) (j : Fin 8192) :
    val_main_v70 (F := Ideal) x0 x1 x2 x4 (ix3 b s j)
      = normed (fun j' : Fin 8192 => dotQ (fun k : Fin 2048 => x0 (ix3 b s k)) (fun k : Fin 2048 => tensorQ x1 (ix2 j' k)))
          (fun j' : Fin 8192 => dotQ (fun k : Fin 2048 => x0 (ix3 b s k)) (fun k : Fin 2048 => tensorQ x2 (ix2 j' k)))
          (fun j' : Fin 8192 => x4 (ix1 j')) j := by
  have e66 : idx_main_v66 (ix3 b s j) = ix3 b s (0 : Fin 1) :=
    funext fun a => Fin.ext (by match a with | ⟨0, _⟩ => rfl | ⟨1, _⟩ => rfl | ⟨2, _⟩ => rfl)
  have e69 : idx_main_v69 (ix3 b s j) = ix3 (0 : Fin 1) (0 : Fin 1) j :=
    funext fun a => Fin.ext (by match a with | ⟨0, _⟩ => rfl | ⟨1, _⟩ => rfl | ⟨2, _⟩ => rfl)
  have e68 : idx_main_v68 (ix3 (0 : Fin 1) (0 : Fin 1) j) = ix1 j :=
    funext fun a => Fin.ext (by match a with | ⟨0, _⟩ => rfl)
  rw [val_main_v70_apply, val_main_v69_apply, e69, val_main_v68_apply, e68, val_main_v67_apply,
    val_main_v66_apply, e66, root_at x0 x1 x2 h0 h1 h2 b s, gated_at x0 x1 x2 h0 h1 h2 b s j]
  rfl

end Cert.RefValue.Hid

end
-- ==== Proof.RefH.lean ====
/-
  The reference's result. Under finite inputs every entry of the hidden row is real, so the identity h + (q(h) - h) gives back the row quantised against its own largest magnitude, which meets the quantised third weight in a sum of products over the hidden width. Entry by entry that is the layer the kernel's arrays compute.
-/
import proofs.«159768_j74139725463734_1_alg».proof.Proof.RefRead
import proofs.«159768_j74139725463734_1_alg».proof.Proof.Arrays
import proofs.«159768_j74139725463734_1_alg».proof.Proof.Consts
import proofs.«159768_j74139725463734_1_alg».proof.Proof.Finite
import proofs.«159768_j74139725463734_1_alg».proof.Proof.RefW
import proofs.«159768_j74139725463734_1_alg».proof.Proof.RefX
import proofs.«159768_j74139725463734_1_alg».proof.Proof.RefHid
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.RefValue.Hidden

open Cert.ReferenceIdeal Cert.ReferenceIdeal.ReadP
open Idealize.ShloMosaic Idealize.ShloMosaic.ValueIdx
open Cert.Spec Cert.Arrays Cert.Finite

open Cert.RefValue.Weights Cert.RefValue.Proj Cert.RefValue.Hid

/-! ## The two clamp bounds, spelt as integers -/

/-- The integer 127, converted to a float, is the float word of 127. -/
private theorem sitofp_127 : FloatOps.sitofp (F := Ideal) .f32 (127#32 : BitVec 32) = c127 := by
  show (((127#32 : BitVec 32).toInt : ℝ) : EReal) = c127
  unfold c127
  rw [Cert.Consts.w_127]
  have e : (127#32 : BitVec 32).toInt = 127 := by decide
  rw [e]
  norm_num

/-- The integer -128 (the word 4294967168 read signed), converted to a float, is the float word of -128. -/
private theorem sitofp_neg128 : FloatOps.sitofp (F := Ideal) .f32 (4294967168#32 : BitVec 32) = cNeg128 := by
  show (((4294967168#32 : BitVec 32).toInt : ℝ) : EReal) = cNeg128
  unfold cNeg128
  rw [Cert.Consts.w_neg128]
  have e : (4294967168#32 : BitVec 32).toInt = -128 := by decide
  rw [e]
  norm_num

/-! ## The row maximum -/

/-- The row index (b, s) with coordinate k put back on the last axis is (b, s, k). -/
private theorem lift_ix3 (h : (⟨3, ![2, 2048, 8192]⟩ : Shape).Reduces [2] (⟨2, ![2, 2048]⟩ : Shape)) (b : Fin 2) (s : Fin 2048)
    (k : Fin ((⟨3, ![2, 2048, 8192]⟩ : Shape).size 2)) :
    h.lift (ix2 b s) k = ix3 b s (⟨k.val, k.isLt⟩ : Fin 8192) := by
  funext c; apply Fin.ext
  fin_cases c <;> rfl

/-- A maximum taken over the last axis, at row (b, s), is the running maximum of that row from the initial value. -/
private theorem reduce_max_row (y : (⟨3, ![2, 2048, 8192]⟩ : Shape).Idx → Ideal .f32) (init : (⟨0, ![]⟩ : Shape).Idx → Ideal .f32)
    (h' : (⟨3, ![2, 2048, 8192]⟩ : Shape).ReducesTo [2] (⟨2, ![2, 2048]⟩ : Shape)) (hu : 0 < (⟨0, ![]⟩ : Shape).numel)
    (b : Fin 2) (s : Fin 2048) :
    Host.reduce FloatOps.maximumf y init h' hu (ix2 b s)
      = (Finset.univ : Finset (Fin 8192)).fold max (init (Shape.Idx.first hu)) (fun k => y (ix3 b s k)) := by
  have h : (⟨3, ![2, 2048, 8192]⟩ : Shape).Reduces [2] (⟨2, ![2, 2048]⟩ : Shape) := by decide
  rw [Host.reduce_eq_fold_single FloatOps.maximumf y init h' h hu (ix2 b s)]
  have hf : (y ∘ h.lift (ix2 b s)) = fun k : Fin 8192 => y (ix3 b s k) := funext fun k => congrArg y (lift_ix3 h b s k)
  exact congrArg (fun f => Finset.fold max (init (Shape.Idx.first hu)) f (Finset.univ : Finset (Fin 8192))) hf

/-- The largest magnitude the reference finds in the hidden row of token (b, s) is the row's largest magnitude. -/
private theorem hidden_rowMax (x0 : (⟨S2x2048x2048, .f32⟩ : BufTy).Contents (Elt Ideal)) (x1 x2 : (⟨S8192x2048, .f32⟩ : BufTy).Contents (Elt Ideal)) (x4 : (⟨S8192, .f32⟩ : BufTy).Contents (Elt Ideal))
    (b : Fin 2) (s : Fin 2048) :
    val_main_v72 (F := Ideal) x0 x1 x2 x4 (ix2 b s)
      = rowMax (fun j : Fin 8192 => val_main_v70 (F := Ideal) x0 x1 x2 x4 (ix3 b s j)) := by
  unfold val_main_v72
  refine (reduce_max_row _ _ _ _ b s).trans ?_
  rfl

/-! ## The scale and the quantised entry -/

/-- The scale the reference divides the hidden row of token (b, s) by is the row's scale. -/
private theorem hidden_scale (x0 : (⟨S2x2048x2048, .f32⟩ : BufTy).Contents (Elt Ideal)) (x1 x2 : (⟨S8192x2048, .f32⟩ : BufTy).Contents (Elt Ideal)) (x4 : (⟨S8192, .f32⟩ : BufTy).Contents (Elt Ideal))
    (b : Fin 2) (s : Fin 2048) :
    val_main_v76 (F := Ideal) x0 x1 x2 x4 (ix3 b s (0 : Fin 1))
      = rowScale (fun j : Fin 8192 => val_main_v70 (F := Ideal) x0 x1 x2 x4 (ix3 b s j)) := by
  have e73 : idx_main_v73 (ix3 b s (0 : Fin 1)) = ix2 b s :=
    funext fun a => Fin.ext (by match a with | ⟨0, _⟩ => rfl | ⟨1, _⟩ => rfl)
  rw [val_main_v76_apply, val_main_v75_apply, val_main_cst_25_apply, val_main_v74_apply, val_main_call13_v1_apply,
    val_main_call13_v0_apply, val_main_cst_24_apply, val_main_v73_apply, e73, hidden_rowMax]
  rfl

/-- Entry (b, s, j) of the reference's quantised hidden activations is entry j of the quantised row. -/
private theorem hidden_quant (x0 : (⟨S2x2048x2048, .f32⟩ : BufTy).Contents (Elt Ideal)) (x1 x2 : (⟨S8192x2048, .f32⟩ : BufTy).Contents (Elt Ideal)) (x4 : (⟨S8192, .f32⟩ : BufTy).Contents (Elt Ideal))
    (b : Fin 2) (s : Fin 2048) (j : Fin 8192) :
    val_main_v82 (F := Ideal) x0 x1 x2 x4 (ix3 b s j)
      = rowQ (fun j' : Fin 8192 => val_main_v70 (F := Ideal) x0 x1 x2 x4 (ix3 b s j')) j := by
  have e81 : idx_main_v81 (ix3 b s j) = ix3 b s (0 : Fin 1) :=
    funext fun a => Fin.ext (by match a with | ⟨0, _⟩ => rfl | ⟨1, _⟩ => rfl | ⟨2, _⟩ => rfl)
  have e77 : idx_main_v77 (ix3 b s j) = ix3 b s (0 : Fin 1) :=
    funext fun a => Fin.ext (by match a with | ⟨0, _⟩ => rfl | ⟨1, _⟩ => rfl | ⟨2, _⟩ => rfl)
  rw [val_main_v82_apply, val_main_v81_apply, e81, val_main_v80_apply, val_main_call15_v4_apply, val_main_call15_v3_apply,
    val_main_c_27_apply, val_main_call15_v2_apply, val_main_call15_v1_apply, val_main_call15_v0_apply, val_main_c_26_apply,
    val_main_v79_apply, val_main_v78_apply, val_main_v77_apply, e77, hidden_scale, sitofp_127, sitofp_neg128]
  rfl

/-- The row the last product reads is the hidden row quantised. -/
theorem hidden_q (x0 : (⟨S2x2048x2048, .f32⟩ : BufTy).Contents (Elt Ideal)) (x1 x2 : (⟨S8192x2048, .f32⟩ : BufTy).Contents (Elt Ideal)) (x4 : (⟨S8192, .f32⟩ : BufTy).Contents (Elt Ideal))
    (h0 : ∀ i, IsReal (x0 i)) (h1 : ∀ i, IsReal (x1 i)) (h2 : ∀ i, IsReal (x2 i)) (h4 : ∀ i, IsReal (x4 i))
    (b : Fin 2) (s : Fin 2048) (j : Fin 8192) :
    val_main_v84 (F := Ideal) x0 x1 x2 x4 (ix3 b s j)
      = rowQ (normed (fun j' : Fin 8192 => dotQ (fun k : Fin 2048 => x0 (ix3 b s k)) (fun k : Fin 2048 => tensorQ x1 (ix2 j' k)))
          (fun j' : Fin 8192 => dotQ (fun k : Fin 2048 => x0 (ix3 b s k)) (fun k : Fin 2048 => tensorQ x2 (ix2 j' k)))
          (fun j' : Fin 8192 => x4 (ix1 j'))) j := by
  -- the hidden row of the token, entry by entry, and that each entry is real
  have hrow : (fun j' : Fin 8192 => val_main_v70 (F := Ideal) x0 x1 x2 x4 (ix3 b s j'))
      = normed (fun j' : Fin 8192 => dotQ (fun k : Fin 2048 => x0 (ix3 b s k)) (fun k : Fin 2048 => tensorQ x1 (ix2 j' k)))
          (fun j' : Fin 8192 => dotQ (fun k : Fin 2048 => x0 (ix3 b s k)) (fun k : Fin 2048 => tensorQ x2 (ix2 j' k)))
          (fun j' : Fin 8192 => x4 (ix1 j')) :=
    funext fun j' => hidden_row x0 x1 x2 x4 h0 h1 h2 b s j'
  have hreal : IsReal (val_main_v70 (F := Ideal) x0 x1 x2 x4 (ix3 b s j)) := by
    rw [hidden_row x0 x1 x2 x4 h0 h1 h2 b s j]
    exact normed_real _ _ _
      (fun j' => dotQ_real _ _ (fun k => h0 _) (fun k => tensorQ_real x1 h1 _))
      (fun j' => dotQ_real _ _ (fun k => h0 _) (fun k => tensorQ_real x2 h2 _))
      (fun j' => h4 _) j
  -- h + (q - h) = q at a real h, and q is the quantised row's entry
  rw [val_main_v84_apply, val_main_v83_apply]
  refine (add_sub_cancel_real _ hreal).trans ?_
  rw [hidden_quant, hrow]

/-- THE REFERENCE'S RESULT, under finite inputs, is the composed arrays' function of the arguments. -/
theorem reference_eq (x0 : (⟨S2x2048x2048, .f32⟩ : BufTy).Contents (Elt Ideal)) (x1 x2 : (⟨S8192x2048, .f32⟩ : BufTy).Contents (Elt Ideal)) (x3 : (⟨S2048x8192, .f32⟩ : BufTy).Contents (Elt Ideal)) (x4 : (⟨S8192, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) :
    val_main_v98 (F := Ideal) x0 x1 x2 x3 x4 = pipeline x0 x1 x2 x3 x4 := by
  funext i
  obtain ⟨b, s, c, rfl⟩ : ∃ (b : Fin 2) (s : Fin 2048) (c : Fin 2048), i = ix3 b s c := ⟨i 0, i 1, i 2, eq_ix3 i⟩
  -- the two operands' indices under the sum over the hidden width
  have hl : ∀ k : Fin 8192, lidx_main_v98 (ix3 b s c) k = ix3 b s k := fun k =>
    funext fun a => Fin.ext (by match a with | ⟨0, _⟩ => rfl | ⟨1, _⟩ => rfl | ⟨2, _⟩ => rfl)
  have hr : ∀ k : Fin 8192, ridx_main_v98 (ix3 b s c) k = ix2 c k := fun k =>
    funext fun a => Fin.ext (by match a with | ⟨0, _⟩ => rfl | ⟨1, _⟩ => rfl)
  rw [pipeline_apply, val_main_v98_apply]
  unfold layer
  rw [dotQ]
  refine Finset.sum_congr rfl fun k _ => ?_
  rw [hl k, hr k, hidden_q x0 x1 x2 x4 h0 h1 h2 h4 b s k, down_weight x3 h3]

end Cert.RefValue.Hidden

end
-- ==== Proof.PreReal.lean ====
/-
  What the precondition says. It is the conjunction, over the five inputs, of "every entry's magnitude is below plus
  infinity"; an extended real whose magnitude is below plus infinity is neither infinity. So under the precondition
  every entry of every input is a real number.
-/
import proofs.«159768_j74139725463734_1_alg».proof.Pre_finite_inputs
import proofs.«159768_j74139725463734_1_alg».proof.Proof.Finite
import Idealize.ShloMosaic.Lib.ReduceAll
import Idealize.ShloMosaic.Lib.ValueIdx
import Idealize.ShloMosaic.PureOps.Ideal.Laws

noncomputable section

namespace Cert.PreReal

open Idealize.ShloMosaic Cert.Finite Cert.Pre_finite_inputs

/-- The word of plus infinity. -/
private theorem w_posInf : Ideal.ofBits .f32 0x7F800000#32 = ⊤ := by
  simp [Ideal.ofBits, Ideal.ieee]

/-- An extended real whose magnitude is below plus infinity is real: the magnitude of either infinity is plus
    infinity. -/
private theorem real_of_mag_lt (x : EReal)
    (e : Ideal.cmp .olt (max x (-x)) (Ideal.ofBits .f32 0x7F800000#32) = 1#1) : IsReal x := by
  rw [w_posInf] at e
  induction x using EReal.rec with
  | bot => simp [Ideal.cmp] at e
  | coe r => exact ⟨r, rfl⟩
  | top => simp [Ideal.cmp] at e

/-- The scalar shape has one index. -/
private instance : Subsingleton S_.Idx := ⟨fun a b => funext fun d => d.elim0⟩

/-- One input: if "every magnitude is below plus infinity", folded by `and` over all axes, is true, every entry is
    real. -/
private theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1) :
    ∀ i, IsReal (x i) := fun i =>
  real_of_mag_lt (x i) (Host.reduce_andi_all _ init hr hu ValueIdx.ix0 e i)

/-- Under the precondition every entry of each of the five inputs is real. -/
theorem inputs_real [Cert.Pre_finite_inputs.Facts]
    (x0 : FVec Ideal S2x2048x2048 .f32) (x1 x2 : FVec Ideal S8192x2048 .f32) (x3 : FVec Ideal S2048x8192 .f32)
    (x4 : FVec Ideal S8192 .f32)
    (h : Cert.Pre_finite_inputs.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real x0 _ _ _ _ e0, all_real x1 _ _ _ _ e1, all_real x2 _ _ _ _ e2, all_real x3 _ _ _ _ e3,
    all_real x4 _ _ _ _ e4⟩

end Cert.PreReal

end
-- ==== Proof.lean ====
/-
  A quantised gated layer: each token's row is quantised to eight bits against its own largest magnitude, three
  weights are each quantised to three levels against their mean magnitude, the two projections are gated and
  normalised by the root of their row's mean square, and the quantised result meets the third weight. The kernel does
  this in three launches over blocks of rows and columns; the reference does it on whole arrays, passing every quantised
  value `q` of `a` through `a + (q - a)`.

  On the extended reals the two agree under finite inputs. A block of a launch holds whole rows (or whole columns),
  so a row's largest magnitude and its mean square seen in a block are the row's, and the blocks tile each result:
  each launch leaves one function of whole arrays (`Arrays.proj`, `hidden`, `down`), and the three compose with the
  host lines to `Arrays.pipeline`. In the reference `a + (q - a) = q` wherever `a` is a real number: the inputs are
  real by the precondition, and the hidden activations are real because every step between keeps real numbers real
  (a quantised entry is a bounded value over a positive real scale; the mean square plus a positive constant is positive).
  So the reference computes `Arrays.pipeline` of the same arguments.

  The three frames: the kernel's two programs by their generated frames; the reference's by its run with the result
  dropped (its @main is a straight line of host operations, read one operation at a time). The idealization rewrote nothing, so `preserves` is `True`.
-/
import proofs.«159768_j74139725463734_1_alg».proof.Defs
import proofs.«159768_j74139725463734_1_alg».proof.Proof.Gen.Kernel
import proofs.«159768_j74139725463734_1_alg».proof.Proof.Gen.Kernel.Frame
import proofs.«159768_j74139725463734_1_alg».proof.Proof.Gen.KernelIdeal
import proofs.«159768_j74139725463734_1_alg».proof.Proof.Gen.KernelIdeal.Frame
import proofs.«159768_j74139725463734_1_alg».proof.Proof.Gen.ReferenceIdeal
import proofs.«159768_j74139725463734_1_alg».proof.Proof.Gen.Pre_finite_inputs
import proofs.«159768_j74139725463734_1_alg».proof.Proof.KRun
import proofs.«159768_j74139725463734_1_alg».proof.Proof.KValue
import proofs.«159768_j74139725463734_1_alg».proof.Proof.RefFold
import proofs.«159768_j74139725463734_1_alg».proof.Proof.RefH
import proofs.«159768_j74139725463734_1_alg».proof.Proof.PreReal

noncomputable section

namespace Cert.Proof

open Idealize.ShloMosaic Idealize.ShloMosaic.TcCoe Idealize.SL.Sem

namespace Claims

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Fold.run (F := Ideal) m ρ)

/-- Both programs end with `Arrays.pipeline` of the arguments in their result arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Arrays.pipeline
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KValue.result_eq m ρ c), (h c).2⟩)
      (Cert.KernelIdeal.Launched.run_result (F := Ideal) m ρ)
  · refine (θ_run Cert.ReferenceIdeal.defs _ _).mono (fun r h c => ⟨(h c).1.trans ?_, (h c).2⟩)
      (Cert.ReferenceIdeal.Fold.run (F := Ideal) m' ρ')
    obtain ⟨h0, h1, h2, h3, h4⟩ := Cert.PreReal.inputs_real _ _ _ _ _ (hpre c)
    rw [(hagree c).1, (hagree c).2.1, (hagree c).2.2.1, (hagree c).2.2.2.1, (hagree c).2.2.2.2]
    exact Cert.RefValue.Hidden.reference_eq _ _ _ _ _ h0 h1 h2 h3 h4

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, trivial, Claims.algebraic⟩

end Cert.Proof

end
